-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x26 : Shape := ⟨2, ![64, 26]⟩
abbrev S26 : Shape := ⟨1, ![26]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x26 : S_.BroadcastsInDim S64x26 (![] : Fin 0 → Fin S64x26.rank)
  reducesTo_S64x26_S_d0_1 : S64x26.ReducesTo [0, 1] S_
  bcast_S_S26 : S_.BroadcastsInDim S26 (![] : Fin 0 → Fin S26.rank)
  reducesTo_S26_S_d0 : S26.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg2 : IVec S100000 32) (main_v48 : IVec S_ 1) (main_v49 : FVec F S26 .f32) (main_v50 : FVec F S26 .f32) : IVec S_ 1 :=
  let main_v51 : IVec S26 1 := cmpf .olt main_v49 main_v50
  let main_c_19 : IVec S_ 1 := constantI S_ 1 1#1
  let main_v52 : IVec S_ 1 := (fun x v => Host.reduce IntOp.andi x v reducesTo_S26_S_d0 h_S_) main_v51 main_c_19
  let main_v53 : IVec S_ 1 := andi main_v48 main_v52
  let main_c_20 : IVec S_ 32 := constantI S_ 32 0#32
  let main_v54 : IVec S100000 32 := broadcastInDim S100000 ![] bcast_S_S100000 main_c_20
  let main_v55 : IVec S100000 1 := cmpi .sge main_arg2 main_v54
  let main_c_21 : IVec S_ 1 := constantI S_ 1 1#1
  let main_v56 : IVec S_ 1 := (fun x v => Host.reduce IntOp.andi x v reducesTo_S100000_S_d0 h_S_) main_v55 main_c_21
  let main_v57 : IVec S_ 1 := andi main_v53 main_v56
  main_v57

def fn_part2 {F : FTy → Type} [FloatOps F] (main_arg2 : IVec S100000 32) (main_arg9 : FVec F S64x64 .f32) (main_arg10 : FVec F S64 .f32) (main_arg11 : FVec F S64x26 .f32) (main_arg12 : FVec F S26 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x26 .f32 := Host.absf main_arg11
  let main_cst_16 : FVec F S_ .f32 := constant S_ .f32 0x7F800000#32
  let main_v45 : FVec F S64x26 .f32 := broadcastInDim S64x26 ![] bcast_S_S64x26 main_cst_16
  let main_v46 : IVec S64x26 1 := cmpf .olt main_v44 main_v45
  let main_c_17 : IVec S_ 1 := constantI S_ 1 1#1
  let main_v47 : IVec S_ 1 := (fun x v => Host.reduce IntOp.andi x v reducesTo_S64x26_S_d0_1 h_S_) main_v46 main_c_17
  let main_v48 : IVec S_ 1 := andi main_v43 main_v47
  let main_v49 : FVec F S26 .f32 := Host.absf main_arg12
  let main_cst_18 : FVec F S_ .f32 := constant S_ .f32 0x7F800000#32
  let main_v50 : FVec F S26 .f32 := broadcastInDim S26 ![] bcast_S_S26 main_cst_18
  fn_part3 (F := F) main_arg2 main_v48 main_v49 main_v50

def fn_part1 {F : FTy → Type} [FloatOps F] (main_arg2 : IVec S100000 32) (main_arg6 : FVec F S64 .f32) (main_arg7 : FVec F S64x64 .f32) (main_arg8 : FVec F S64 .f32) (main_arg9 : FVec F S64x64 .f32) (main_arg10 : FVec F S64 .f32) (main_arg11 : FVec F S64x26 .f32) (main_arg12 : FVec F S26 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x26 .f32) (main_arg12 : FVec F S26 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_arg11 main_arg12 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x26 : Shape := ⟨2, ![64, 26]⟩
abbrev S26 : Shape := ⟨1, ![26]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S50000x128 : Shape := ⟨2, ![50000, 128]⟩
abbrev S5000x64 : Shape := ⟨2, ![5000, 64]⟩
abbrev S5000x1 : Shape := ⟨2, ![5000, 1]⟩
abbrev S1000000x64 : Shape := ⟨2, ![1000000, 64]⟩
abbrev S128 : Shape := ⟨1, ![128]⟩
abbrev S1x128 : Shape := ⟨2, ![1, 128]⟩
abbrev S5000x128 : Shape := ⟨2, ![5000, 128]⟩
abbrev S512x64 : Shape := ⟨2, ![512, 64]⟩
abbrev S5000x512 : Shape := ⟨2, ![5000, 512]⟩
abbrev S512 : Shape := ⟨1, ![512]⟩
abbrev S512x1 : Shape := ⟨2, ![512, 1]⟩
abbrev S1x64 : Shape := ⟨2, ![1, 64]⟩
abbrev S1x26 : Shape := ⟨2, ![1, 26]⟩
abbrev S512x26 : Shape := ⟨2, ![512, 26]⟩

abbrev nBuf : Space → Nat
  | .hbm => 143
  | .vmem => 59
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x26, .f32⟩
  | 12 => ⟨S26, .f32⟩
  | 13 => ⟨S1x1000000, .i32⟩
  | 14 => ⟨S1000000, .i32⟩
  | 15 => ⟨S1x1000000, .i32⟩
  | 16 => ⟨S1000000, .i32⟩
  | 17 => ⟨S_, .f32⟩
  | 18 => ⟨S100000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S_, .f32⟩
  | 28 => ⟨S1000000, .f32⟩
  | 29 => ⟨S100000, .f32⟩
  | 30 => ⟨S_, .f32⟩
  | 31 => ⟨S100000, .f32⟩
  | 32 => ⟨S100000, .f32⟩
  | 33 => ⟨S100000, .f32⟩
  | 34 => ⟨S100000x1, .f32⟩
  | 35 => ⟨S100000x1, .f32⟩
  | 36 => ⟨S100000x64, .f32⟩
  | 37 => ⟨S50000x128, .f32⟩
  | 38 => ⟨S100000x64, .f32⟩
  | 39 => ⟨S_, .f32⟩
  | 40 => ⟨S100000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S100000x64, .f32⟩
  | 59 => ⟨S50000x128, .f32⟩
  | 60 => ⟨S50000x128, .f32⟩
  | 61 => ⟨S128, .f32⟩
  | 62 => ⟨S1x128, .f32⟩
  | 63 => ⟨S50000x128, .f32⟩
  | 64 => ⟨S100000x64, .f32⟩
  | 65 => ⟨S100000x64, .f32⟩
  | 66 => ⟨S_, .f32⟩
  | 67 => ⟨S100000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S100000x64, .f32⟩
  | 86 => ⟨S50000x128, .f32⟩
  | 87 => ⟨S50000x128, .f32⟩
  | 88 => ⟨S128, .f32⟩
  | 89 => ⟨S1x128, .f32⟩
  | 90 => ⟨S50000x128, .f32⟩
  | 91 => ⟨S100000x64, .f32⟩
  | 92 => ⟨S100000x64, .f32⟩
  | 93 => ⟨S_, .f32⟩
  | 94 => ⟨S100000x64, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S100000x64, .f32⟩
  | 113 => ⟨S50000x128, .f32⟩
  | 114 => ⟨S50000x128, .f32⟩
  | 115 => ⟨S128, .f32⟩
  | 116 => ⟨S1x128, .f32⟩
  | 117 => ⟨S50000x128, .f32⟩
  | 118 => ⟨S100000x64, .f32⟩
  | 119 => ⟨S100000x1, .i32⟩
  | 120 => ⟨S512x64, .f32⟩
  | 121 => ⟨S_, .f32⟩
  | 122 => ⟨S512, .f32⟩
  | 123 => ⟨S_, .i32⟩
  | 124 => ⟨S100000, .i32⟩
  | 125 => ⟨S100000, .i1⟩
  | 126 => ⟨S_, .i32⟩
  | 127 => ⟨S100000, .i32⟩
  | _ => ⟨S100000x64, .f32⟩

abbrev hbmTy0_1 (i : Nat) : BufTy := match i % 128 with
  | 0 => ⟨S100000, .i32⟩
  | 1 => ⟨S100000, .i32⟩
  | 2 => ⟨S100000x1, .i32⟩
  | 3 => ⟨S_, .f32⟩
  | 4 => ⟨S100000, .f32⟩
  | 5 => ⟨S512, .f32⟩
  | 6 => ⟨S_, .f32⟩
  | 7 => ⟨S512, .f32⟩
  | 8 => ⟨S512, .f32⟩
  | 9 => ⟨S512x1, .f32⟩
  | 10 => ⟨S512x64, .f32⟩
  | 11 => ⟨S512x64, .f32⟩
  | 12 => ⟨S1x64, .f32⟩
  | 13 => ⟨S1x26, .f32⟩
  | 14 => ⟨S512x26, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S5000x1, .f32⟩
  | .local _ .vmem, ⟨36, _⟩ => ⟨S5000x1, .f32⟩
  | .local _ .vmem, ⟨37, _⟩ => ⟨S5000x64, .f32⟩
  | .local _ .vmem, ⟨38, _⟩ => ⟨S5000x64, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x64, .f32⟩
  | .local _ .vmem, ⟨49, _⟩ => ⟨S5000x64, .f32⟩
  | .local _ .vmem, ⟨50, _⟩ => ⟨S5000x1, .i32⟩
  | .local _ .vmem, ⟨51, _⟩ => ⟨S5000x1, .i32⟩
  | .local _ .vmem, ⟨52, _⟩ => ⟨S512x64, .f32⟩
  | .local _ .vmem, ⟨53, _⟩ => ⟨S512x64, .f32⟩
  | .local _ .vmem, ⟨54, _⟩ => ⟨S64x64, .f32⟩
  | .local _ .vmem, ⟨55, _⟩ => ⟨S1x64, .f32⟩
  | .local _ .vmem, ⟨56, _⟩ => ⟨S64x26, .f32⟩
  | .local _ .vmem, ⟨57, _⟩ => ⟨S1x26, .f32⟩
  | .local _ .vmem, ⟨58, _⟩ => ⟨S512x26, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_c_19 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc7_stg0_0 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc7_sem0_0 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x26 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x26 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x26 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000_S100000x1 : S100000.ShapeCasts S100000x1
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S100000x64_S50000x128 : S100000x64.ShapeCasts S50000x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  shapeCasts_S5000x64_S5000x64 : S5000x64.ShapeCasts S5000x64
  inb_S512x64_S512x64_0_0 : ∀ a, (![0, 0] : Fin 2 → Nat) a + S512x64.size a ≤ S512x64.size a
  h_S512x64 : 0 < S512x64.numel
  iota_S5000x512_d1_w32 : S5000x512.Iotas .tc 32 [1]
  broadcasts_S5000x1_S5000x512 : S5000x1.Broadcasts S5000x512
  natLt_1_32 : 1 < 32
  shapeCasts_S512x64_S512x64 : S512x64.ShapeCasts S512x64
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S64_S1x64 : S64.ShapeCasts S1x64
  shapeCasts_S26_S1x26 : S26.ShapeCasts S1x26
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x26_S64x26_0_0 : ∀ a, (![0, 0] : Fin 2 → Nat) a + S64x26.size a ≤ S64x26.size a
  h_S64x26 : 0 < S64x26.numel
  inb_S1x26_S1x26_0_0 : ∀ a, (![0, 0] : Fin 2 → Nat) a + S1x26.size a ≤ S1x26.size a
  h_S1x26 : 0 < S1x26.numel
  shapeCasts_S1x26_S1x26 : S1x26.ShapeCasts S1x26
  broadcasts_S1x26_S512x26 : S1x26.Broadcasts S512x26
  inb_S512x26_S512x26_0_0 : ∀ a, (![0, 0] : Fin 2 → Nat) a + S512x26.size a ≤ S512x26.size a
  h_S512x26 : 0 < S512x26.numel
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x512_S5000x64_S512x64_0_0_1_1_n_n_wf : DotDims.WF S5000x512 S5000x64 S512x64 [0] [0] [1] [1] [] []
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x26_S512x26_1_0_0_1_n_n_wf : DotDims.WF S512x64 S64x26 S512x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x64.size a ≤ S512x64.size a
  hwx6_2 : ∀ i : grid6.Coords, EltTy.bits .f32 = 32 ∨ (Rect.block (s := S512x64) S512x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x64.size a ≤ S512x64.size a
  hwx7_0 : ∀ i : grid7.Coords, EltTy.bits .f32 = 32 ∨ (Rect.block (s := S512x64) S512x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x26.size a ≤ S64x26.size a
  hwx7_3 : ∀ i : grid7.Coords, EltTy.bits .f32 = 32 ∨ (Rect.block (s := S64x26) S64x26.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x26.size a ≤ S1x26.size a
  hwx7_4 : ∀ i : grid7.Coords, EltTy.bits .f32 = 32 ∨ (Rect.block (s := S1x26) S1x26.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x26.size a ≤ S512x26.size a
  hwx7_5 : ∀ i : grid7.Coords, EltTy.bits .f32 = 32 ∨ (Rect.block (s := S512x26) S512x26.size (cc7_transform_5 i) (hinb7_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x26_S512x26_1_0_0_1_n_n : DotDims S512x64 S64x26 S512x26 where
  lhsContracting := [1]
  rhsContracting := [0]
  lhsNonContracting := [0]
  rhsNonContracting := [1]
  lhsBatch := []
  rhsBatch := []
  wf := dot_S512x64_S64x26_S512x26_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v87) S512x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v101) S512x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S64x26.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103) S1x26.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v104) S512x26.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x26 : Shape := ⟨2, ![64, 26]⟩
abbrev S26 : Shape := ⟨1, ![26]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x26 : Shape := ⟨2, ![512, 26]⟩
abbrev S1x26 : Shape := ⟨2, ![1, 26]⟩

abbrev nBuf : Space → Nat
  | .hbm => 257
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x26, .f32⟩
  | 12 => ⟨S26, .f32⟩
  | 13 => ⟨S1x1000000, .i32⟩
  | 14 => ⟨S1000000, .i32⟩
  | 15 => ⟨S1x1000000, .i32⟩
  | 16 => ⟨S1000000, .i32⟩
  | 17 => ⟨S100000x64, .f32⟩
  | 18 => ⟨S_, .f32⟩
  | 19 => ⟨S100000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S_, .f32⟩
  | 29 => ⟨S1000000, .f32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .f32⟩
  | 53 => ⟨S1000000, .f32⟩
  | 54 => ⟨S_, .f32⟩
  | 55 => ⟨S100000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S1000000x1, .f32⟩
  | 66 => ⟨S1000000x64, .f32⟩
  | 67 => ⟨S1000000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S100000x64, .f32⟩
  | 77 => ⟨S100000, .f32⟩
  | 78 => ⟨S100000x1, .f32⟩
  | 79 => ⟨S100000x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S100000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S_, .f32⟩
  | 100 => ⟨S1000000, .f32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000, .f32⟩
  | 124 => ⟨S1000000, .f32⟩
  | 125 => ⟨S_, .f32⟩
  | 126 => ⟨S100000x64, .f32⟩
  | 127 => ⟨S_, .i32⟩
  | _ => ⟨S100000x64, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000x64, .f32⟩
  | 8 => ⟨S1000000x1, .f32⟩
  | 9 => ⟨S1000000x64, .f32⟩
  | 10 => ⟨S1000000x64, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S100000x64, .f32⟩
  | 20 => ⟨S100000, .f32⟩
  | 21 => ⟨S100000x1, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S_, .f32⟩
  | 33 => ⟨S100000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S_, .f32⟩
  | 43 => ⟨S1000000, .f32⟩
  | 44 => ⟨S100000, .f32⟩
  | 45 => ⟨S_, .f32⟩
  | 46 => ⟨S100000, .f32⟩
  | 47 => ⟨S100000, .f32⟩
  | 48 => ⟨S100000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000, .f32⟩
  | 67 => ⟨S1000000, .f32⟩
  | 68 => ⟨S_, .f32⟩
  | 69 => ⟨S100000x64, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S1000000x1, .f32⟩
  | 80 => ⟨S1000000x64, .f32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S100000x64, .f32⟩
  | 91 => ⟨S100000, .f32⟩
  | 92 => ⟨S100000x1, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S512x64, .f32⟩
  | 104 => ⟨S100000x1, .i32⟩
  | 105 => ⟨S512x64, .f32⟩
  | 106 => ⟨S_, .f32⟩
  | 107 => ⟨S100000, .f32⟩
  | 108 => ⟨S_, .f32⟩
  | 109 => ⟨S512, .f32⟩
  | 110 => ⟨S100000x1, .i32⟩
  | 111 => ⟨S512, .f32⟩
  | 112 => ⟨S_, .f32⟩
  | 113 => ⟨S512, .f32⟩
  | 114 => ⟨S512, .f32⟩
  | 115 => ⟨S512x1, .f32⟩
  | 116 => ⟨S512x64, .f32⟩
  | 117 => ⟨S512x64, .f32⟩
  | 118 => ⟨S512x64, .f32⟩
  | 119 => ⟨S1x64, .f32⟩
  | 120 => ⟨S512x64, .f32⟩
  | 121 => ⟨S512x64, .f32⟩
  | 122 => ⟨S_, .f32⟩
  | 123 => ⟨S512x64, .f32⟩
  | 124 => ⟨S512x64, .f32⟩
  | 125 => ⟨S512x26, .f32⟩
  | 126 => ⟨S1x26, .f32⟩
  | 127 => ⟨S512x26, .f32⟩
  | _ => ⟨S100000x64, .f32⟩

abbrev hbmTy0_2 (i : Nat) : BufTy := match i % 128 with
  | 0 => ⟨S512x26, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_cst : Ref sig .tc := ⟨.hbm, 85, rfl⟩
abbrev main_call0_v0 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_21 : Ref sig .tc := ⟨.hbm, 125, rfl⟩
abbrev main_v87 : Ref sig .tc := ⟨.hbm, 126, rfl⟩
abbrev main_c_22 : Ref sig .tc := ⟨.hbm, 127, rfl⟩
abbrev main_v88 : Ref sig .tc := ⟨.hbm, 128, rfl⟩
abbrev main_v89 : Ref sig .tc := ⟨.hbm, 129, rfl⟩
abbrev main_c_23 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_24 : Ref sig .tc := ⟨.hbm, 139, rfl⟩
abbrev main_v98 : Ref sig .tc := ⟨.hbm, 140, rfl⟩
abbrev main_v99 : Ref sig .tc := ⟨.hbm, 141, rfl⟩
abbrev main_c_25 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call1_cst : Ref sig .tc := ⟨.hbm, 156, rfl⟩
abbrev main_call1_v0 : Ref sig .tc := ⟨.hbm, 157, rfl⟩
abbrev main_v113 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_c_27 : Ref sig .tc := ⟨.hbm, 162, rfl⟩
abbrev main_v116 : Ref sig .tc := ⟨.hbm, 163, rfl⟩
abbrev main_v117 : Ref sig .tc := ⟨.hbm, 164, rfl⟩
abbrev main_c_28 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_29 : Ref sig .tc := ⟨.hbm, 170, rfl⟩
abbrev main_v122 : Ref sig .tc := ⟨.hbm, 171, rfl⟩
abbrev main_v123 : Ref sig .tc := ⟨.hbm, 172, rfl⟩
abbrev main_cst_30 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_31 : Ref sig .tc := ⟨.hbm, 177, rfl⟩
abbrev main_v127 : Ref sig .tc := ⟨.hbm, 178, rfl⟩
abbrev main_v128 : Ref sig .tc := ⟨.hbm, 179, rfl⟩
abbrev main_c_32 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_33 : Ref sig .tc := ⟨.hbm, 186, rfl⟩
abbrev main_v134 : Ref sig .tc := ⟨.hbm, 187, rfl⟩
abbrev main_v135 : Ref sig .tc := ⟨.hbm, 188, rfl⟩
abbrev main_c_34 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_35 : Ref sig .tc := ⟨.hbm, 196, rfl⟩
abbrev main_v142 : Ref sig .tc := ⟨.hbm, 197, rfl⟩
abbrev main_c_36 : Ref sig .tc := ⟨.hbm, 198, rfl⟩
abbrev main_v143 : Ref sig .tc := ⟨.hbm, 199, rfl⟩
abbrev main_v144 : Ref sig .tc := ⟨.hbm, 200, rfl⟩
abbrev main_c_37 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_c_38 : Ref sig .tc := ⟨.hbm, 210, rfl⟩
abbrev main_v153 : Ref sig .tc := ⟨.hbm, 211, rfl⟩
abbrev main_v154 : Ref sig .tc := ⟨.hbm, 212, rfl⟩
abbrev main_c_39 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_call2_cst : Ref sig .tc := ⟨.hbm, 227, rfl⟩
abbrev main_call2_v0 : Ref sig .tc := ⟨.hbm, 228, rfl⟩
abbrev main_v168 : Ref sig .tc := ⟨.hbm, 229, rfl⟩
abbrev main_cst_40 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_41 : Ref sig .tc := ⟨.hbm, 234, rfl⟩
abbrev main_v172 : Ref sig .tc := ⟨.hbm, 235, rfl⟩
abbrev main_cst_42 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_cst_43 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_call3_cst : Ref sig .tc := ⟨.hbm, 250, rfl⟩
abbrev main_call3_v0 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S26_S1x26_1 : S26.BroadcastsInDim S1x26 (![1] : Fin 1 → Fin S1x26.rank)
  bcast_S1x26_S512x26_0_1 : S1x26.BroadcastsInDim S512x26 (![0, 1] : Fin 2 → Fin S512x26.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x26_S512x26_1_0_0_1_n_n_wf : DotDims.WF S512x64 S64x26 S512x26 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x26_S512x26_1_0_0_1_n_n : DotDims S512x64 S64x26 S512x26 where
  lhsContracting := [1]
  rhsContracting := [0]
  lhsNonContracting := [0]
  rhsNonContracting := [1]
  lhsBatch := []
  rhsBatch := []
  wf := dot_S512x64_S64x26_S512x26_1_0_0_1_n_n_wf

class Facts : Prop extends Facts₀ where

variable [Facts]
-- ==== Proof.Spec.lean ====
/-
  The two programs' arithmetic as functions of matrices given entry by entry (rows and columns as `Fin` indices,
  entries extended reals). Both programs are three graph-convolution layers followed by a per-graph mean and a
  two-layer head. One program scales the projected features by d on the source side, sums the messages, adds the
  node's own scaled entry and rescales by d on the target side; the other scales each message by d(source)·d(target)
  and the node's own entry by d·d. Here d(i) is the inverse square root of one plus the number of edges arriving at i.
-/
import Idealize.ShloMosaic.PureOps.Ideal
import Mathlib.Data.EReal.Operations
import Mathlib.Algebra.BigOperators.Group.Finset.Basic

noncomputable section

namespace Cert.Spec

/-- An `a × b` matrix of extended reals, entry by entry. -/
abbrev M (a b : ℕ) := Fin a → Fin b → EReal

/-- The projection `h · W` with every row `i` scaled by `d i`: a zero accumulator plus the sum of products. -/
def lin (h : M 100000 64) (W : M 64 64) (d : Fin 100000 → EReal) : M 100000 64 :=
  fun i j => ((0 : EReal) + ∑ k : Fin 64, h i k * W k j) * d i

/-- The plain projection `h · W` (zero accumulator plus the sum of products). -/
def proj (h : M 100000 64) (W : M 64 64) : M 100000 64 :=
  fun i j => (0 : EReal) + ∑ k : Fin 64, h i k * W k j

/-- The fused epilogue on rows of 128 lanes (two node rows side by side):
    `max ((agg + xs) · d + b, 0)`, entry by entry. -/
def post (agg xs dt : M 50000 128) (bt : Fin 128 → EReal) : M 50000 128 :=
  fun r l => max ((agg r l + xs r l) * dt r l + bt l) 0

/-- One layer as the kernel computes it. `arrives e i` says that edge `e` is added into row `i`; `src e` is the row
    edge `e` reads. -/
def kLayer (arrives : Fin 1000000 → Fin 100000 → Prop) [∀ e i, Decidable (arrives e i)] (src : Fin 1000000 → Fin 100000)
    (d : Fin 100000 → EReal) (h : M 100000 64) (W : M 64 64) (b : Fin 64 → EReal) : M 100000 64 :=
  fun i j => max ((((0 : EReal) + ∑ e ∈ Finset.univ.filter (fun e => arrives e i), lin h W d (src e) j) + lin h W d i j) * d i + b j) 0

/-- One layer as the reference computes it. `dstc e` is the row whose scale the reference reads for edge `e`'s
    target (it is `i` whenever `arrives e i`). -/
def rLayer (arrives : Fin 1000000 → Fin 100000 → Prop) [∀ e i, Decidable (arrives e i)] (src dstc : Fin 1000000 → Fin 100000)
    (d : Fin 100000 → EReal) (h : M 100000 64) (W : M 64 64) (b : Fin 64 → EReal) : M 100000 64 :=
  fun i j => max (((((0 : EReal) + ∑ e ∈ Finset.univ.filter (fun e => arrives e i), proj h W (src e) j * (d (src e) * d (dstc e)))
      + proj h W i j * (d i * d i)) + b j)) 0

/-- The per-graph sums as a product with the membership matrix: node `i` counts for graph `g` when `inGraph i g`. -/
def pool (inGraph : Fin 100000 → Fin 512 → Prop) [∀ i g, Decidable (inGraph i g)] (h : M 100000 64) : M 512 64 :=
  fun g j => ∑ i : Fin 100000, (if inGraph i g then (1 : EReal) else 0) * h i j

/-- The per-graph sums as a sum over the graph's nodes, from a zero start. -/
def segSum (inGraph : Fin 100000 → Fin 512 → Prop) [∀ i g, Decidable (inGraph i g)] (h : M 100000 64) : M 512 64 :=
  fun g j => (0 : EReal) + ∑ i ∈ Finset.univ.filter (fun i => inGraph i g), h i j

/-- The two-layer head: `max (p · W1 + b1, 0) · W2 + b2`, each product from a zero accumulator. -/
def head (p : M 512 64) (W1 : M 64 64) (b1 : Fin 64 → EReal) (W2 : M 64 26) (b2 : Fin 26 → EReal) : M 512 26 :=
  fun g o => ((0 : EReal) + ∑ k : Fin 64, max (((0 : EReal) + ∑ q : Fin 64, p g q * W1 q k) + b1 k) 0 * W2 k o) + b2 o

end Cert.Spec

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.LibScatter.lean ====
/-
  Row gathers and row scatters read at an index.
  A gather of whole rows of an [N, C] array (or of entries of an [N] vector) at E start words reads, at (e, c), the
  operand's row named by start word e, read signed and clamped into [0, N - 1]. A scatter-add of E update rows into
  an [N, C] array adds update row e to the operand's row named by start word e, read signed and NOT clamped, and
  drops it when that row is outside the array; so entry (i, j) of the result is the operand's entry plus the sum,
  over the update rows e whose start word names row i, of update entry (e, j).
-/
import Idealize.ShloMosaic.Lib.ValueIdx
import Idealize.ShloMosaic.PureOps.Ideal

noncomputable section

namespace Cert.LibScatter

open Idealize.ShloMosaic Idealize.ShloMosaic.ValueIdx

variable {α : Type}

/-- The row of an `N`-row array a start word names when read signed, if it is one. -/
def rowOf? (N : ℕ) {w : ℕ} (z : BitVec w) : Option (Fin N) :=
  if h : 0 ≤ z.toInt ∧ z.toInt < (N : Int) then some ⟨z.toInt.toNat, by omega⟩ else none

/-- The row a gather reads for a start word: read signed, clamped into `[0, N - 1]`. -/
def clampRow (N : ℕ) (hN : 0 < N) {w : ℕ} (z : BitVec w) : Fin N := ⟨min z.toInt.toNat (N - 1), by omega⟩

/-- The two axes of a rank-2 array are different. -/
theorem fin2_one_ne_zero : (1 : Fin 2) ≠ 0 := by decide

/-- A start word that names a row of the array is not moved by the clamp. -/
theorem clampRow_of_rowOf? {N : ℕ} (hN : 0 < N) {w : ℕ} {z : BitVec w} {i : Fin N} (h : rowOf? N z = some i) :
    clampRow N hN z = i := by
  unfold rowOf? at h
  split at h
  · rename_i hz
    have hi : (⟨z.toInt.toNat, by omega⟩ : Fin N) = i := Option.some.inj h
    rw [← hi]
    refine Fin.ext ?_
    show min z.toInt.toNat (N - 1) = z.toInt.toNat
    omega
  · exact absurd h (by simp)

/-- Scatter of `E` update rows `[E, C]` into `[N, C]` at start words `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of `E` update entries `[E]` into `[N]` at start words `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of `E` whole rows of `[N, C]` at start words `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of `E` entries of `[N]` at start words `[E, 1]`. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather read at `(e, c)`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show ¬ (1 : Fin 2) ∈ (rowGather N E C wf).startIndexMap from
        fun h => fin2_one_ne_zero (List.mem_singleton.mp h))]
    have hoff : (rowGather N E C wf).offCoord (ix2 e c) 1 = c.val := by
      unfold GatherDims.offCoord
      rw [dif_pos (show (1 : Fin 2) ∈ (rowGather N E C wf).sKept from
        (GatherDims.mem_sKept _ _).mpr ⟨fun h => fin2_one_ne_zero (List.mem_singleton.mp h), List.not_mem_nil⟩)]
      rfl
    rw [hst, hoff]; omega

/-- The entry gather read at `e`. -/
theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Where update entry `(e, c)` of the row scatter lands: in row `rowOf?` of start word `e`, column `c`, if that is a
    row of the array. -/
theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => fin2_one_ne_zero (List.mem_singleton.mp h))]
  have hw0 : (rowScatter N E C wf).window (ix2 e c) 0 = 0 := by
    unfold ScatterDims.window
    rw [dif_neg (show ¬ (0 : Fin 2) ∈ (rowScatter N E C wf).sKept from by
      simp [ScatterDims.sKept, Shape.kept])]
  have hw1 : (rowScatter N E C wf).window (ix2 e c) 1 = c.val := by
    unfold ScatterDims.window
    rw [dif_pos (show (1 : Fin 2) ∈ (rowScatter N E C wf).sKept from by
      simp [ScatterDims.sKept, Shape.kept])]
    rfl
  unfold ScatterDims.resultIdx? rowOf?
  by_cases hz : 0 ≤ (idx (ix2 e (0 : Fin 1))).toInt ∧ (idx (ix2 e (0 : Fin 1))).toInt < (N : Int)
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : ℕ) ∧
          (rowScatter N E C wf).start (ix2 e c) idx 0 + ((rowScatter N E C wf).window (ix2 e c) 0 : ℕ) < (N : ℤ)
        rw [hs0, hw0]; omega
      | ⟨1, _⟩ =>
        show 0 ≤ (rowScatter N E C wf).start (ix2 e c) idx 1 + ((rowScatter N E C wf).window (ix2 e c) 1 : ℕ) ∧
          (rowScatter N E C wf).start (ix2 e c) idx 1 + ((rowScatter N E C wf).window (ix2 e c) 1 : ℕ) < (C : ℤ)
        rw [hs1, hw1]; have := c.isLt; omega
    rw [dif_pos hall, dif_pos hz]
    simp only [Option.map_some]
    congr 1
    funext a
    refine Fin.ext ?_
    match a with
    | ⟨0, _⟩ =>
      show ((rowScatter N E C wf).start (ix2 e c) idx 0 + ((rowScatter N E C wf).window (ix2 e c) 0 : ℕ)).toNat
        = (idx (ix2 e (0 : Fin 1))).toInt.toNat
      rw [hs0, hw0]; simp
    | ⟨1, _⟩ =>
      show ((rowScatter N E C wf).start (ix2 e c) idx 1 + ((rowScatter N E C wf).window (ix2 e c) 1 : ℕ)).toNat = c.val
      rw [hs1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Where update entry `e` of the entry scatter lands: at entry `rowOf?` of start word `e`, if that is an entry of the
    array. -/
theorem vecScatter_resultIdx? {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (rowOf? N (idx (ix2 e (0 : Fin 1)))).map ix1 := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from by
      simp [ScatterDims.sKept, Shape.kept])]
  unfold ScatterDims.resultIdx? rowOf?
  by_cases hz : 0 ≤ (idx (ix2 e (0 : Fin 1))).toInt ∧ (idx (ix2 e (0 : Fin 1))).toInt < (N : Int)
  · have hall : ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro a
      obtain rfl : a = 0 := Subsingleton.elim _ _
      show 0 ≤ (vecScatter N E wf).start (ix1 e) idx 0 + ((vecScatter N E wf).window (ix1 e) 0 : ℕ) ∧
        (vecScatter N E wf).start (ix1 e) idx 0 + ((vecScatter N E wf).window (ix1 e) 0 : ℕ) < (N : ℤ)
      rw [hs0, hw0]; omega
    rw [dif_pos hall, dif_pos hz]
    simp only [Option.map_some]
    congr 1
    funext a
    obtain rfl : a = 0 := Subsingleton.elim _ _
    refine Fin.ext ?_
    show ((vecScatter N E wf).start (ix1 e) idx 0 + ((vecScatter N E wf).window (ix1 e) 0 : ℕ)).toNat
      = (idx (ix2 e (0 : Fin 1))).toInt.toNat
    rw [hs0, hw0]; simp
  · have hnot : ¬ ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Two rank-2 indices given by coordinates are equal exactly when their coordinates are. -/
theorem ix2_eq_ix2 {n0 n1 : ℕ} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices given by their coordinate are equal exactly when the coordinates are. -/
theorem ix1_eq_ix1 {n : ℕ} (a a' : Fin n) : ix1 a = ix1 a' ↔ a = a' := by
  constructor
  · intro h
    exact congrFun h 0
  · rintro rfl; rfl

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The accumulating row scatter at the ideal instance, read at `(i, j)`: the operand's entry plus the update
    entries `(e, j)` of the rows `e` whose start word names row `i`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

/-- The accumulating entry scatter at the ideal instance, read at `i`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatter N E wf) x idx upd (ix1 i)
      = x (ix1 i) + ∑ e ∈ Finset.univ.filter (fun e : Fin E => rowOf? N (idx (ix2 e (0 : Fin 1))) = some i), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [vecScatter_resultIdx?]
  cases hr : rowOf? N (idx (ix2 e (0 : Fin 1))) with
  | none => simp
  | some i' =>
    simp only [Option.map_some, Option.some.injEq, ix1_eq_ix1]

end Cert.LibScatter

end
-- ==== Proof.Algebra.lean ====
/-
  Extended-real arithmetic for one graph-convolution layer.
  A nonnegative real factor distributes over any finite sum of extended reals (no finiteness of the summands is needed:
  the only failure of distributivity on the extended reals is at an infinite or negative factor meeting +inf and -inf).
  So a sum of source-scaled messages, plus the node's own scaled entry, rescaled on the target side by r = d(i), is the
  sum of the messages each scaled by d(source)·d(target), plus the entry scaled by r·r.
  The inverse square root of a positive count is a nonnegative real.
-/
import Idealize.ShloMosaic.PureOps.Ideal
import Mathlib.Data.EReal.Operations
import Mathlib.Algebra.BigOperators.Group.Finset.Basic

noncomputable section

namespace Cert.Algebra

open Idealize.ShloMosaic

/-- A nonnegative real factor distributes over a finite sum of extended reals. -/
theorem sum_mul_coe_nonneg {ι : Type*} (T : Finset ι) (a : ι → EReal) {r : ℝ} (hr : 0 ≤ r) :
    (∑ u ∈ T, a u) * (r : EReal) = ∑ u ∈ T, a u * (r : EReal) := by
  classical
  induction T using Finset.induction_on with
  | empty => simp
  | insert i s hi ih =>
    rw [Finset.sum_insert hi, Finset.sum_insert hi,
      EReal.right_distrib_of_nonneg_of_ne_top (EReal.coe_nonneg.mpr hr) (EReal.coe_ne_top r), ih]

/-- A nonnegative real factor distributes over a sum of two extended reals. -/
theorem add_mul_coe_nonneg (x y : EReal) {r : ℝ} (hr : 0 ≤ r) : (x + y) * (r : EReal) = x * (r : EReal) + y * (r : EReal) :=
  EReal.right_distrib_of_nonneg_of_ne_top (EReal.coe_nonneg.mpr hr) (EReal.coe_ne_top r) x y

/-- One entry of a layer. `T` are the messages arriving at the node, `a u` the projected feature of message `u`'s
    source, `d1 u` the source's scale, `d2 u` the target's scale (which is the node's own scale `r` for every arriving
    message), `x` the node's own projected feature, `b` the bias. -/
theorem layer_entry {ι : Type*} (T : Finset ι) (a d1 d2 : ι → EReal) (x b : EReal) {r : ℝ} (hr : 0 ≤ r)
    (hd2 : ∀ u ∈ T, d2 u = (r : EReal)) :
    (((0 : EReal) + ∑ u ∈ T, a u * d1 u) + x * (r : EReal)) * (r : EReal) + b
      = (((0 : EReal) + ∑ u ∈ T, a u * (d1 u * d2 u)) + x * ((r : EReal) * (r : EReal))) + b := by
  -- every arriving message's target scale is r, so each summand is (a u * d1 u) * r
  have h : ∑ u ∈ T, a u * (d1 u * d2 u) = ∑ u ∈ T, (a u * d1 u) * (r : EReal) :=
    Finset.sum_congr rfl (fun u hu => by rw [hd2 u hu, mul_assoc])
  rw [h, ← sum_mul_coe_nonneg T _ hr, add_mul_coe_nonneg _ _ hr, add_mul_coe_nonneg _ _ hr, zero_mul, mul_assoc]

/-- The f32 word of 1.0 denotes 1. -/
theorem ofBits_one : Ideal.ofBits .f32 0x3F800000#32 = (1 : EReal) := by
  simp [Ideal.ofBits, Ideal.ieee, -EReal.coe_mul]; norm_num

/-- The f32 word of 0.0 denotes 0. -/
theorem ofBits_zero : Ideal.ofBits .f32 0x00000000#32 = (0 : EReal) := by
  simp [Ideal.ofBits, Ideal.ieee]

/-- A count of ones started from zero, plus one, is a real that is at least one; its inverse square root is a
    nonnegative real. -/
theorem rsqrt_count_succ {ι : Type*} (T : Finset ι) :
    ∃ r : ℝ, 0 ≤ r ∧ Ideal.rsqrt (((0 : EReal) + ∑ _u ∈ T, (1 : EReal)) + 1) = (r : EReal) := by
  -- the argument is the real number card T + 1
  have harg : ((0 : EReal) + ∑ _u ∈ T, (1 : EReal)) + 1 = (((T.card : ℝ) + 1 : ℝ) : EReal) := by
    rw [Finset.sum_const, EReal.nsmul_eq_mul, mul_one, zero_add, EReal.coe_add, EReal.coe_one]
    rfl
  have hpos : (0 : ℝ) < (T.card : ℝ) + 1 := by positivity
  refine ⟨(Real.sqrt ((T.card : ℝ) + 1))⁻¹, by positivity, ?_⟩
  rw [harg, Ideal.rsqrt_coe, if_neg (not_lt.mpr hpos.le), if_neg hpos.ne']

/-- One times and zero times an extended real. -/
theorem one_or_zero_mul (p : Prop) [Decidable p] (x : EReal) : (if p then (1 : EReal) else 0) * x = if p then x else 0 := by
  split_ifs
  · exact one_mul x
  · exact zero_mul x

end Cert.Algebra

end
-- ==== Proof.Graph.lean ====
/-
  The graph both programs read off the edge list and the graph-id vector.
  An edge's two end words are first wrapped (a negative word has the row count added, as array indexing does). A
  scatter-add lands edge e on row i when the wrapped target word, read signed, is i (and is dropped when it names no
  row); a gather reads the row the wrapped word names after clamping into the array. The scale d(i) is the inverse
  square root of one plus the number of edges that land on row i: a nonnegative real.
  A node counts for graph g when its graph id is g; read through a scatter's start word that is the same condition,
  because g is below 512.
-/
import proofs.«423190_j88252987998746_2_alg».proof.Proof.LibScatter
import proofs.«423190_j88252987998746_2_alg».proof.Proof.Algebra
import Idealize.ShloMosaic.Lib.StableHlo.Predicate

noncomputable section

namespace Cert.Graph

open Idealize.ShloMosaic Idealize.ShloMosaic.ValueIdx Cert.LibScatter

/-- A word as array indexing wraps it: a negative word (read signed) has the extent `n` added. -/
def wrapWord (n z : BitVec 32) : BitVec 32 := Scalar.select (IntOp.cmpi .slt z 0#32) (IntOp.addi z n) z

/-- The edge list: row 0 the sources, row 1 the targets. -/
abbrev EdgeList := IVec ⟨2, ![2, 1000000]⟩ 32

/-- Edge `e`'s wrapped source and target words. -/
def srcWord (ei : EdgeList) (e : Fin 1000000) : BitVec 32 := wrapWord 100000#32 (ei (ix2 (0 : Fin 2) e))
def dstWord (ei : EdgeList) (e : Fin 1000000) : BitVec 32 := wrapWord 100000#32 (ei (ix2 (1 : Fin 2) e))

/-- Edge `e` is added into row `i`. -/
def arrives (ei : EdgeList) (e : Fin 1000000) (i : Fin 100000) : Prop := rowOf? 100000 (dstWord ei e) = some i

instance (ei : EdgeList) (e : Fin 1000000) (i : Fin 100000) : Decidable (arrives ei e i) := by unfold arrives; infer_instance

/-- The row a gather reads for edge `e`'s source, and for its target. -/
def src (ei : EdgeList) (e : Fin 1000000) : Fin 100000 := clampRow 100000 (by decide) (srcWord ei e)
def dstc (ei : EdgeList) (e : Fin 1000000) : Fin 100000 := clampRow 100000 (by decide) (dstWord ei e)

/-- Row `i`'s scale: the inverse square root of one plus the number of edges added into it (counted from zero). -/
def dinv (ei : EdgeList) (i : Fin 100000) : EReal :=
  Ideal.rsqrt ((((0 : EReal) + ∑ _e ∈ Finset.univ.filter (fun e => arrives ei e i), (1 : EReal))) + 1)

/-- The scale is a nonnegative real. -/
theorem dinv_nonneg_real (ei : EdgeList) (i : Fin 100000) : ∃ r : ℝ, 0 ≤ r ∧ dinv ei i = (r : EReal) := by
  unfold dinv
  exact Cert.Algebra.rsqrt_count_succ _

/-- An edge added into row `i` has `i` as the row its target's scale is read at. -/
theorem dstc_of_arrives (ei : EdgeList) (e : Fin 1000000) (i : Fin 100000) (h : arrives ei e i) : dstc ei e = i := by
  unfold dstc
  exact clampRow_of_rowOf? _ h

/-- Node `i` has graph id `g`, as the kernel's comparison with the lane number says it. -/
def inGraph (bt : IVec ⟨1, ![100000]⟩ 32) (i : Fin 100000) (g : Fin 512) : Prop := bt (ix1 i) = BitVec.ofNat 32 g.val

instance (bt : IVec ⟨1, ![100000]⟩ 32) (i : Fin 100000) (g : Fin 512) : Decidable (inGraph bt i g) := by unfold inGraph; infer_instance

/-- A scatter's start word names row `g` of a 512-row array exactly when it is the word of `g`. -/
theorem rowOf?_512_iff (z : BitVec 32) (g : Fin 512) : rowOf? 512 z = some g ↔ z = BitVec.ofNat 32 g.val := by
  have hg := g.isLt
  have hlt : z.toNat < 2 ^ 32 := z.isLt
  unfold rowOf?
  constructor
  · intro h
    split at h
    · rename_i hz
      -- a word whose signed reading is in [0, 512) reads the same unsigned, and that value is g
      have hi : z.toInt.toNat = g.val := congrArg Fin.val (Option.some.inj h)
      apply BitVec.eq_of_toNat_eq
      rw [BitVec.toNat_ofNat]
      rw [BitVec.toInt_eq_toNat_cond] at hz hi
      split_ifs at hz hi <;> omega
    · exact absurd h (by simp)
  · intro h
    subst h
    -- the word of g < 512 reads g signed
    have ht : (BitVec.ofNat 32 g.val).toInt = g.val := StableHlo.Predicate.toInt_ofNat_small g.val (by omega)
    rw [dif_pos (show 0 ≤ (BitVec.ofNat 32 g.val).toInt ∧ (BitVec.ofNat 32 g.val).toInt < ((512 : ℕ) : ℤ) by
      rw [ht]; omega)]
    have hv : (BitVec.ofNat 32 g.val).toInt.toNat = g.val := by omega
    exact congrArg some (Fin.ext hv)

/-- A nonnegative word is not moved by the wrap. -/
theorem wrapWord_of_nonneg (n z : BitVec 32) (hz : 0 ≤ z.toInt) : wrapWord n z = z := by
  have h0 : (0#32 : BitVec 32).toInt = 0 := by decide
  -- a nonnegative word is not below zero, so the comparison is false and the word is kept
  have hs : z.slt 0#32 = false := by
    simp only [BitVec.slt, h0, decide_eq_false_iff_not, not_lt]
    exact hz
  show (if BitVec.ofBool (z.slt 0#32) = 1 then IntOp.addi z n else z) = z
  rw [hs, if_neg (by decide)]

end Cert.Graph

end
-- ==== Proof.KHead.lean ====
/-
  The first host stretch of the kernel's program, read entry by entry: the edge list's two rows as the source and
  target words; the scale column d — the inverse square root of one plus the number of edges added into each row
  (a scatter-add of ones into zeros at the wrapped target words) — and the same scale laid out on 128 lanes, two
  node rows side by side: lane l of merged row r holds the scale of node row 2r + l / 64.
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KHead

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

-- The buffer contents at launch: any.
variable (Wz : Dev nD → Valuation τ sig (Elt Ideal))

/-- After the first host stretch (the first projection region's entry). -/
abbrev Wa : Dev nD → Valuation τ sig (Elt Ideal) := fun c => StableHlo.after hostOps0 (Wz c)

/-- The edge list at launch. -/
abbrev edges (c : Dev nD) : IVec S2x1000000 32 := Wz c (Proc.devRef .tc main_arg1)

/-! ## Layout operations read at an index, over any array -/

section Reads
variable {α : Type}

/-- Row `k` of a two-row array, cut out and laid flat, reads the array at `(k, e)`. -/
theorem row_apply (x : S2x1000000.Idx → α) (o : ℕ) (hs : S2x1000000.Slices ![o, 0] S1x1000000)
    (hc : S1x1000000.ShapeCasts S1000000) (k : Fin 2) (hk : k.val = o) (e : Fin 1000000) :
    shapeCast S1000000 (extractStridedSlice S1x1000000 ![o, 0] x hs) hc (ix1 e) = x (ix2 k e) :=
  (shapeCast_1a_a_apply _ hc e).trans (slice2_axis0_apply o x hs (0 : Fin 1) e k (by rw [hk]; rfl))

/-- A vector as a one-column matrix reads, at `(p, 0)`, the vector at `p`. -/
theorem col_apply {n : ℕ} (h : (⟨1, ![n]⟩ : Shape).BroadcastsInDim ⟨2, ![n, 1]⟩ ![0]) (v : (⟨1, ![n]⟩ : Shape).Idx → α) (p : Fin n) :
    broadcastInDim ⟨2, ![n, 1]⟩ ![0] h v (ix2 p (0 : Fin 1)) = v (ix1 p) :=
  broadcastInDim_apply _ h v _ _ (fun a => by
    obtain rfl : a = 0 := Subsingleton.elim _ _
    have hp := p.isLt
    show p.val = if n = 1 then 0 else p.val
    split
    · omega
    · rfl)

/-- A one-column matrix spread over `m` columns reads, at `(p, q)`, the column at `(p, 0)`. -/
theorem spread_apply {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  broadcastInDim_apply _ h v _ _ (fun a => by
    have hp := p.isLt
    match a with
    | ⟨0, _⟩ =>
      show p.val = if n = 1 then 0 else p.val
      split
      · omega
      · rfl
    | ⟨1, _⟩ => rfl)

/-- A vector reshaped to a one-column matrix reads, at `(p, 0)`, the vector at `p`. -/
theorem cast_col_apply {n : ℕ} (x : (⟨1, ![n]⟩ : Shape).Idx → α) (h : (⟨1, ![n]⟩ : Shape).ShapeCasts ⟨2, ![n, 1]⟩) (p : Fin n) :
    shapeCast ⟨2, ![n, 1]⟩ x h (ix2 p (0 : Fin 1)) = x (ix1 p) :=
  shapeCast_apply x h _ _ (by
    rw [Shape.rowMajor_val_two, Shape.rowMajor_val_one]
    show p.val = p.val * 1 + 0
    omega)

/-- 100000 × 64 laid out as 50000 × 128: entry `(r, l)` is entry `(2r + l / 64, l % 64)`, the same row-major position. -/
theorem merge_apply (x : S100000x64.Idx → α) (h : S100000x64.ShapeCasts S50000x128) (r : Fin 50000) (l : Fin 128) :
    shapeCast S50000x128 x h (ix2 r l)
      = x (ix2 (⟨2 * r.val + l.val / 64, by omega⟩ : Fin 100000) (⟨l.val % 64, Nat.mod_lt _ (by decide)⟩ : Fin 64)) :=
  shapeCast_apply x h _ _ (by
    rw [Shape.rowMajor_val_two, Shape.rowMajor_val_two]
    show (2 * r.val + l.val / 64) * 64 + l.val % 64 = r.val * 128 + l.val
    omega)

end Reads

/-- The wrap of a word vector, as the program spells it (compare with zero, add the extent, select), at an entry. -/
theorem wrap_apply (x3 : IVec S1000000 32) (e : Fin 1000000) :
    select (cmpi .slt x3 (broadcastInDim S1000000 ![] bcast_S_S1000000 (constantI S_ 32 0#32)))
        (addi x3 (broadcastInDim S1000000 ![] bcast_S_S1000000 (constantI S_ 32 100000#32))) x3 (ix1 e)
      = wrapWord 100000#32 (x3 (ix1 e)) := rfl

/-- A scatter-add of ones into zeros at start words `word`: entry `i` counts, from zero, the words that name row `i`. -/
theorem count_apply (x4 : FVec Ideal S100000 .f32) (idx : IVec S1000000x1 32) (x11 : FVec Ideal S1000000 .f32)
    (word : Fin 1000000 → BitVec 32) (h4 : ∀ i, x4 (ix1 i) = 0) (hidx : ∀ e, idx (ix2 e (0 : Fin 1)) = word e)
    (h11 : ∀ e, x11 (ix1 e) = 1) (i : Fin 100000) :
    Host.scatterAdd (F := Ideal) scatter_S100000_S1000000x1_S1000000_n_0_0_1 x4 idx x11 (ix1 i)
      = (0 : EReal) + ∑ _e ∈ Finset.univ.filter (fun e : Fin 1000000 => rowOf? 100000 (word e) = some i), (1 : EReal) := by
  have hrec : scatter_S100000_S1000000x1_S1000000_n_0_0_1
      = vecScatter 100000 1000000 scatter_S100000_S1000000x1_S1000000_n_0_0_1_wf := rfl
  rw [hrec, vecScatterAdd_apply, h4]
  refine congrArg (fun t => (0 : EReal) + t) ?_
  exact Finset.sum_congr (Finset.filter_congr fun e _ => by rw [hidx e]) (fun e _ => h11 e)

/-- The inverse square root of a sum of two vectors, at an entry. -/
theorem rsqrt_add_apply (x12 x13 : FVec Ideal S100000 .f32) (i : Fin 100000) :
    Host.rsqrt (F := Ideal) (φ := .f32) (addf x12 x13) (ix1 i) = Ideal.rsqrt (x12 (ix1 i) + x13 (ix1 i)) := rfl

/-! ## The stretch's buffers, each as its operation applied to the buffers it reads -/

/-- A line of operations run in two parts: the first `k`, then the rest from what they leave. -/
theorem after_split (k : ℕ) (ops : List (HloOp τ sig (Elt Ideal))) (V : Valuation τ sig (Elt Ideal)) :
    StableHlo.after ops V = StableHlo.after (ops.drop k) (StableHlo.after (ops.take k) V) := by
  have happ : ∀ (l₁ l₂ : List (HloOp τ sig (Elt Ideal))) (V : Valuation τ sig (Elt Ideal)),
      StableHlo.after (l₁ ++ l₂) V = StableHlo.after l₂ (StableHlo.after l₁ V) := by
    intro l₁
    induction l₁ with
    | nil => intro l₂ V; rfl
    | cons op l ih => intro l₂ V; exact ih l₂ _
  rw [← happ, List.take_append_drop]

theorem e1 (c : Dev nD) : (Wa Wz c (Proc.devRef .tc main_v1) : IVec S1000000 32)
    = shapeCast S1000000 (extractStridedSlice S1x1000000 ![0, 0] (edges Wz c) slices_S2x1000000_S1x1000000_0_0) shapeCasts_S1x1000000_S1000000 := by
  show StableHlo.after hostOps0 (Wz c) (Proc.devRef .tc main_v1) = _
  after_results
  all_goals rfl

theorem e3 (c : Dev nD) : (Wa Wz c (Proc.devRef .tc main_v3) : IVec S1000000 32)
    = shapeCast S1000000 (extractStridedSlice S1x1000000 ![1, 0] (edges Wz c) slices_S2x1000000_S1x1000000_1_0) shapeCasts_S1x1000000_S1000000 := by
  show StableHlo.after hostOps0 (Wz c) (Proc.devRef .tc main_v3) = _
  after_results
  all_goals rfl

theorem e4 (c : Dev nD) : (Wa Wz c (Proc.devRef .tc main_v4) : Vec Ideal S100000 .f32)
    = broadcastInDim S100000 ![] bcast_S_S100000 (constant (F := Ideal) S_ .f32 0x00000000#32) := by
  show StableHlo.after hostOps0 (Wz c) (Proc.devRef .tc main_v4) = _
  after_results
  all_goals rfl

theorem e10 (c : Dev nD) : (Wa Wz c (Proc.devRef .tc main_v10) : IVec S1000000x1 32)
    = broadcastInDim S1000000x1 ![0] bcast_S1000000_S1000000x1_0
        (select (cmpi .slt (Wa Wz c (Proc.devRef .tc main_v3) : IVec S1000000 32) (broadcastInDim S1000000 ![] bcast_S_S1000000 (constantI S_ 32 0#32)))
          (addi (Wa Wz c (Proc.devRef .tc main_v3) : IVec S1000000 32) (broadcastInDim S1000000 ![] bcast_S_S1000000 (constantI S_ 32 100000#32)))
          (Wa Wz c (Proc.devRef .tc main_v3) : IVec S1000000 32)) := by
  show StableHlo.after hostOps0 (Wz c) (Proc.devRef .tc main_v10)
    = broadcastInDim S1000000x1 ![0] bcast_S1000000_S1000000x1_0
        (select (cmpi .slt (StableHlo.after hostOps0 (Wz c) (Proc.devRef .tc main_v3) : IVec S1000000 32) (broadcastInDim S1000000 ![] bcast_S_S1000000 (constantI S_ 32 0#32)))
          (addi (StableHlo.after hostOps0 (Wz c) (Proc.devRef .tc main_v3) : IVec S1000000 32) (broadcastInDim S1000000 ![] bcast_S_S1000000 (constantI S_ 32 100000#32)))
          (StableHlo.after hostOps0 (Wz c) (Proc.devRef .tc main_v3) : IVec S1000000 32))
  rw [after_split 4 hostOps0 (Wz c)]
  generalize StableHlo.after (List.take 4 hostOps0) (Wz c) = W1
  simp only [hostOps0, List.drop_succ_cons, List.drop_zero]
  after_results_simp
  all_goals rfl

theorem e11 (c : Dev nD) : (Wa Wz c (Proc.devRef .tc main_v11) : Vec Ideal S1000000 .f32)
    = broadcastInDim S1000000 ![] bcast_S_S1000000 (constant (F := Ideal) S_ .f32 0x3F800000#32) := by
  show StableHlo.after hostOps0 (Wz c) (Proc.devRef .tc main_v11) = _
  after_results
  all_goals rfl

theorem e13 (c : Dev nD) : (Wa Wz c (Proc.devRef .tc main_v13) : Vec Ideal S100000 .f32)
    = broadcastInDim S100000 ![] bcast_S_S100000 (constant (F := Ideal) S_ .f32 0x3F800000#32) := by
  show StableHlo.after hostOps0 (Wz c) (Proc.devRef .tc main_v13) = _
  after_results
  all_goals rfl

theorem e12 (c : Dev nD) : (Wa Wz c (Proc.devRef .tc main_v12) : Vec Ideal S100000 .f32)
    = Host.scatterAdd (F := Ideal) (φ := .f32) scatter_S100000_S1000000x1_S1000000_n_0_0_1 (Wa Wz c (Proc.devRef .tc main_v4) : Vec Ideal S100000 .f32)
        (Wa Wz c (Proc.devRef .tc main_v10) : IVec S1000000x1 32) (Wa Wz c (Proc.devRef .tc main_v11) : Vec Ideal S1000000 .f32) := by
  show (StableHlo.after hostOps0 (Wz c) (Proc.devRef .tc main_v12) : Vec Ideal S100000 .f32)
    = Host.scatterAdd (F := Ideal) (φ := .f32) scatter_S100000_S1000000x1_S1000000_n_0_0_1
        (StableHlo.after hostOps0 (Wz c) (Proc.devRef .tc main_v4) : Vec Ideal S100000 .f32)
        (StableHlo.after hostOps0 (Wz c) (Proc.devRef .tc main_v10) : IVec S1000000x1 32)
        (StableHlo.after hostOps0 (Wz c) (Proc.devRef .tc main_v11) : Vec Ideal S1000000 .f32)
  rw [after_split 16 hostOps0 (Wz c)]
  generalize StableHlo.after (List.take 16 hostOps0) (Wz c) = W1
  simp only [hostOps0, List.drop_succ_cons, List.drop_zero]
  after_results_simp
  all_goals rfl

theorem e15 (c : Dev nD) : (Wa Wz c (Proc.devRef .tc main_v15) : Vec Ideal S100000 .f32)
    = Host.rsqrt (F := Ideal) (φ := .f32) (addf (F := Ideal) (φ := .f32) (Wa Wz c (Proc.devRef .tc main_v12) : Vec Ideal S100000 .f32) (Wa Wz c (Proc.devRef .tc main_v13) : Vec Ideal S100000 .f32)) := by
  show (StableHlo.after hostOps0 (Wz c) (Proc.devRef .tc main_v15) : Vec Ideal S100000 .f32)
    = Host.rsqrt (F := Ideal) (φ := .f32) (addf (F := Ideal) (φ := .f32) (StableHlo.after hostOps0 (Wz c) (Proc.devRef .tc main_v12) : Vec Ideal S100000 .f32)
        (StableHlo.after hostOps0 (Wz c) (Proc.devRef .tc main_v13) : Vec Ideal S100000 .f32))
  rw [after_split 19 hostOps0 (Wz c)]
  generalize StableHlo.after (List.take 19 hostOps0) (Wz c) = W1
  simp only [hostOps0, List.drop_succ_cons, List.drop_zero]
  after_results_simp
  all_goals rfl

theorem e16 (c : Dev nD) : (Wa Wz c (Proc.devRef .tc main_v16) : Vec Ideal S100000x1 .f32)
    = shapeCast S100000x1 (Wa Wz c (Proc.devRef .tc main_v15) : Vec Ideal S100000 .f32) shapeCasts_S100000_S100000x1 := by
  show StableHlo.after hostOps0 (Wz c) (Proc.devRef .tc main_v16)
    = shapeCast S100000x1 (StableHlo.after hostOps0 (Wz c) (Proc.devRef .tc main_v15)) shapeCasts_S100000_S100000x1
  rw [after_split 21 hostOps0 (Wz c)]
  generalize StableHlo.after (List.take 21 hostOps0) (Wz c) = W1
  simp only [hostOps0, List.drop_succ_cons, List.drop_zero]
  after_results_simp
  all_goals rfl

theorem e19 (c : Dev nD) : (Wa Wz c (Proc.devRef .tc main_v19) : Vec Ideal S50000x128 .f32)
    = shapeCast S50000x128 (broadcastInDim S100000x64 ![0, 1] bcast_S100000x1_S100000x64_0_1
        (broadcastInDim S100000x1 ![0] bcast_S100000_S100000x1_0 (Wa Wz c (Proc.devRef .tc main_v15) : Vec Ideal S100000 .f32)))
        shapeCasts_S100000x64_S50000x128 := by
  show StableHlo.after hostOps0 (Wz c) (Proc.devRef .tc main_v19)
    = shapeCast S50000x128 (broadcastInDim S100000x64 ![0, 1] bcast_S100000x1_S100000x64_0_1
        (broadcastInDim S100000x1 ![0] bcast_S100000_S100000x1_0 (StableHlo.after hostOps0 (Wz c) (Proc.devRef .tc main_v15))))
        shapeCasts_S100000x64_S50000x128
  rw [after_split 21 hostOps0 (Wz c)]
  generalize StableHlo.after (List.take 21 hostOps0) (Wz c) = W1
  simp only [hostOps0, List.drop_succ_cons, List.drop_zero]
  after_results_simp
  all_goals rfl

/-- The source words are the edge list's row 0, the target words its row 1. -/
theorem srcw (c : Dev nD) (e : Fin 1000000) :
    (Wa Wz c (Proc.devRef .tc main_v1) : IVec S1000000 32) (ix1 e) = edges Wz c (ix2 (0 : Fin 2) e) :=
  (congrFun (e1 Wz c) (ix1 e)).trans (row_apply _ 0 _ _ (0 : Fin 2) rfl e)
theorem dstw (c : Dev nD) (e : Fin 1000000) :
    (Wa Wz c (Proc.devRef .tc main_v3) : IVec S1000000 32) (ix1 e) = edges Wz c (ix2 (1 : Fin 2) e) :=
  (congrFun (e3 Wz c) (ix1 e)).trans (row_apply _ 1 _ _ (1 : Fin 2) rfl e)

/-- The scale column holds the graph's scale. -/
theorem dcol (c : Dev nD) (i : Fin 100000) :
    (Wa Wz c (Proc.devRef .tc main_v16) : Vec Ideal S100000x1 .f32) (ix2 i (0 : Fin 1)) = dinv (edges Wz c) i := by
  -- the start word of edge e is its wrapped target word
  have hidx : ∀ e : Fin 1000000, (Wa Wz c (Proc.devRef .tc main_v10) : IVec S1000000x1 32) (ix2 e (0 : Fin 1)) = dstWord (edges Wz c) e := by
    intro e
    rw [e10, col_apply, wrap_apply, dstw]
    rfl
  -- the count of the edges added into row i, from zero
  have hcnt : (Wa Wz c (Proc.devRef .tc main_v12) : Vec Ideal S100000 .f32) (ix1 i)
      = (0 : EReal) + ∑ _e ∈ Finset.univ.filter (fun e : Fin 1000000 => rowOf? 100000 (dstWord (edges Wz c) e) = some i), (1 : EReal) := by
    rw [e12]
    exact count_apply _ _ _ _ (fun i => by rw [e4]; exact Cert.Algebra.ofBits_zero) hidx
      (fun e => by rw [e11]; exact Cert.Algebra.ofBits_one) i
  have hone : (Wa Wz c (Proc.devRef .tc main_v13) : Vec Ideal S100000 .f32) (ix1 i) = (1 : EReal) := by
    rw [e13]; exact Cert.Algebra.ofBits_one
  rw [e16, cast_col_apply, e15, rsqrt_add_apply, hcnt, hone]
  unfold dinv
  refine congrArg (fun t => Ideal.rsqrt (((0 : EReal) + t) + 1)) ?_
  exact Finset.sum_congr (Finset.filter_congr fun e _ => Iff.rfl) (fun _ _ => rfl)

/-- The scale on 128 lanes: lane `l` of merged row `r` holds the scale column's entry of node row `2r + l / 64`. -/
theorem dtil (c : Dev nD) (r : Fin 50000) (l : Fin 128) :
    (Wa Wz c (Proc.devRef .tc main_v19) : Vec Ideal S50000x128 .f32) (ix2 r l)
      = (Wa Wz c (Proc.devRef .tc main_v16) : Vec Ideal S100000x1 .f32) (ix2 (⟨2 * r.val + l.val / 64, by omega⟩ : Fin 100000) (0 : Fin 1)) := by
  -- both sides are the inverse square root vector's entry of node row 2r + l / 64
  rw [e19, merge_apply, spread_apply, col_apply, e16, cast_col_apply]

/-- No operation of the stretch writes an argument. -/
theorem keep (c : Dev nD) (b : Ref sig .tc) (hb : b ∈ ([main_arg0, main_arg1, main_arg2, main_arg3, main_arg4, main_arg5, main_arg6, main_arg7, main_arg8, main_arg9, main_arg10, main_arg11, main_arg12] : List (Ref sig .tc))) :
    Wa Wz c (Proc.devRef .tc b) = Wz c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by rintro rfl; exact absurd hb (by decide))

end Cert.KernelIdeal.KHead

end
-- ==== Proof.KGlue.lean ====
/-
  The two one-operation host stretches between an epilogue region and the next projection region: the 50000 × 128
  result is laid back out as 100000 rows of 64 — entry (i, j) is lane (i % 2) · 64 + j of merged row i / 2 — and
  nothing else is written.
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KGlue

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

-- Any buffer contents.
variable (W : Valuation τ sig (Elt Ideal))

/-- The merged row and the lane that hold entry `(i, j)`. -/
def rowOfNode (i : Fin 100000) : Fin 50000 := ⟨i.val / 2, by omega⟩
def laneOf (i : Fin 100000) (j : Fin 64) : Fin 128 := ⟨(i.val % 2) * 64 + j.val, by omega⟩

/-- A 50000 × 128 array laid out as 100000 × 64 reads, at (i, j), lane (i % 2) · 64 + j of row i / 2: the two entries
    have the same row-major position, 64 i + j = 128 (i / 2) + ((i % 2) · 64 + j). -/
theorem cast_apply {α : Type} (x : S50000x128.Idx → α) (h : S50000x128.ShapeCasts S100000x64) (i : Fin 100000) (j : Fin 64) :
    shapeCast S100000x64 x h (ix2 i j) = x (ix2 (rowOfNode i) (laneOf i j)) :=
  shapeCast_apply x h _ _ (by
    rw [Shape.rowMajor_val_two, Shape.rowMajor_val_two]
    show (i.val / 2) * 128 + ((i.val % 2) * 64 + j.val) = i.val * 64 + j.val
    omega)

theorem value2 (i : Fin 100000) (j : Fin 64) :
    (StableHlo.after hostOps2 W (Proc.devRef .tc main_v41) : Vec Ideal S100000x64 .f32) (ix2 i j)
      = (W (Proc.devRef .tc main_v40) : Vec Ideal S50000x128 .f32) (ix2 (rowOfNode i) (laneOf i j)) := by
  have e : (StableHlo.after hostOps2 W (Proc.devRef .tc main_v41) : Vec Ideal S100000x64 .f32)
      = shapeCast S100000x64 (W (Proc.devRef .tc main_v40) : Vec Ideal S50000x128 .f32) shapeCasts_S50000x128_S100000x64 := by
    show StableHlo.after hostOps2 W (Proc.devRef .tc main_v41) = _
    after_results
    rfl
  exact (congrFun e (ix2 i j)).trans (cast_apply _ _ i j)

theorem keep2 (b : Ref sig .tc) (hb : b ∈ ([main_v1, main_v3, main_v16, main_v19, main_arg2, main_arg5, main_arg6, main_arg7, main_arg8, main_arg9, main_arg10, main_arg11, main_arg12] : List (Ref sig .tc))) :
    StableHlo.after hostOps2 W (Proc.devRef .tc b) = W (Proc.devRef .tc b) := by
  -- the one operation writes the reshaped array only, and that is none of the listed buffers
  have hne : b ≠ main_v41 := by rintro rfl; exact absurd hb (by decide)
  exact StableHlo.reshape_result_ne (x := main_v40) (y := main_v41) rfl shapeCasts_S50000x128_S100000x64 _ _ W hne

theorem value4 (i : Fin 100000) (j : Fin 64) :
    (StableHlo.after hostOps4 W (Proc.devRef .tc main_v63) : Vec Ideal S100000x64 .f32) (ix2 i j)
      = (W (Proc.devRef .tc main_v62) : Vec Ideal S50000x128 .f32) (ix2 (rowOfNode i) (laneOf i j)) := by
  have e : (StableHlo.after hostOps4 W (Proc.devRef .tc main_v63) : Vec Ideal S100000x64 .f32)
      = shapeCast S100000x64 (W (Proc.devRef .tc main_v62) : Vec Ideal S50000x128 .f32) shapeCasts_S50000x128_S100000x64 := by
    show StableHlo.after hostOps4 W (Proc.devRef .tc main_v63) = _
    after_results
    rfl
  exact (congrFun e (ix2 i j)).trans (cast_apply _ _ i j)

theorem keep4 (b : Ref sig .tc) (hb : b ∈ ([main_v1, main_v3, main_v16, main_v19, main_arg2, main_arg7, main_arg8, main_arg9, main_arg10, main_arg11, main_arg12] : List (Ref sig .tc))) :
    StableHlo.after hostOps4 W (Proc.devRef .tc b) = W (Proc.devRef .tc b) := by
  have hne : b ≠ main_v63 := by rintro rfl; exact absurd hb (by decide)
  exact StableHlo.reshape_result_ne (x := main_v62) (y := main_v63) rfl shapeCasts_S50000x128_S100000x64 _ _ W hne

end Cert.KernelIdeal.KGlue

end
-- ==== Proof.RegLin0.lean ====
/-
  A projection region, read as one whole-array function.
  The region walks the 100000 rows in 20 blocks of 5000 rows. At block t it reads rows 5000·t … 5000·t + 4999 of the
  features, the whole 64 × 64 weight and the same rows of the scale column, and writes rows 5000·t … of the result:
  entry (r, j) of the block is (0 + Σ_k h(r, k) · W(k, j)) · d(r). The blocks tile the result, so after the region
  entry (i, j) of the result array is (0 + Σ_k h(i, k) · W(k, j)) · d(i), for the arrays as the region found them.
-/
import proofs.«423190_j88252987998746_2_alg».proof.Proof.Gen.KernelIdeal.Frame
import proofs.«423190_j88252987998746_2_alg».proof.Proof.Spec
import proofs.«423190_j88252987998746_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin0

open Idealize.ShloMosaic Idealize.ShloMosaic.ValueIdx Idealize.ShloMosaic.TcCoe
open Idealize.ShloMosaic.Pipeline (Dat Cfg Window)
open Cert.KernelIdeal Cert.KernelIdeal.Gen

/-! ## The block's arithmetic at an entry -/

/-- The zero offsets of a whole-block access, as a constant function. -/
theorem hz : (![0, 0] : Fin 2 → Nat) = fun _ => 0 :=
  funext fun a => by match a with | ⟨0, _⟩ => rfl | ⟨1, _⟩ => rfl

/-- The product's left operand is read at the result's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the summation index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the summation index as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the result's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The [5000, 64] × [64, 64] product into a zero accumulator, at entry (r, j): Σ_k a(r, k) · b(k, j). -/
theorem product_apply (a : FVec Ideal S5000x64 .bf16) (b : FVec Ideal S64x64 .bf16) (r : Fin 5000) (j : Fin 64) :
    matmul dot_S5000x64_S64x64_S5000x64_1_0_0_1_n_n none a b (constant (F := Ideal) S5000x64 .f32 0x00000000#32) (ix2 r j)
      = ∑ k : Fin 64, a (ix2 r k) * b (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun x => Fin.ext (by
    match x with
    | ⟨0, _⟩ => exact lhs_row _ _
    | ⟨1, _⟩ => exact (lhs_col _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun x => Fin.ext (by
    match x with
    | ⟨0, _⟩ => exact (rhs_row _ _).trans hk
    | ⟨1, _⟩ => exact rhs_col _ _)
  rw [el, er]

/-- What the body stores at entry (r, j) of its block, from the three blocks it loaded, when those blocks are rows of
    whole arrays h, W, d: row r of the feature block is row i of h, the weight block is W, and entry r of the scale
    block is entry i of d. -/
theorem block_value (x0 : Vec Ideal S5000x64 .f32) (x1 : Vec Ideal S64x64 .f32) (x2 : Vec Ideal S5000x1 .f32)
    (h : Vec Ideal S100000x64 .f32) (W : Vec Ideal S64x64 .f32) (d : Vec Ideal S100000x1 .f32)
    (r : Fin 5000) (j : Fin 64) (i : Fin 100000)
    (h0 : ∀ k : Fin 64, x0 (ix2 r k) = h (ix2 i k))
    (h1 : ∀ k : Fin 64, x1 (ix2 k j) = W (ix2 k j))
    (h2 : x2 (ix2 r (0 : Fin 1)) = d (ix2 i (0 : Fin 1))) :
    k0_pay1 (F := Ideal) x0 x1 x2 (ix2 r j)
      = Cert.Spec.lin (fun i k => h (ix2 i k)) (fun k j => W (ix2 k j)) (fun i => d (ix2 i (0 : Fin 1))) i j := by
  unfold k0_pay1 Cert.Spec.lin
  -- a cast of a block to its own shape is the block
  simp only [shapeCast_self]
  show (matmul dot_S5000x64_S64x64_S5000x64_1_0_0_1_n_n none (truncf .bf16 x0 bitsLt_bf16_f32) (truncf .bf16 x1 bitsLt_bf16_f32)
        (constant (F := Ideal) S5000x64 .f32 0x00000000#32) : FVec Ideal S5000x64 .f32) (ix2 r j)
      * (broadcastTo S5000x64 x2 broadcasts_S5000x1_S5000x64 : FVec Ideal S5000x64 .f32) (ix2 r j)
    = ((0 : EReal) + ∑ k : Fin 64, h (ix2 i k) * W (ix2 k j)) * d (ix2 i (0 : Fin 1))
  have hp := product_apply (truncf .bf16 x0 bitsLt_bf16_f32) (truncf .bf16 x1 bitsLt_bf16_f32) r j
  have hb : (broadcastTo S5000x64 x2 broadcasts_S5000x1_S5000x64 : FVec Ideal S5000x64 .f32) (ix2 r j) = x2 (ix2 r (0 : Fin 1)) :=
    Cert.LibColumn.broadcastTo_a1_ab_apply x2 broadcasts_S5000x1_S5000x64 r j
  rw [hp, hb, h2, zero_add]
  refine congrArg (· * d (ix2 i (0 : Fin 1))) (Finset.sum_congr rfl fun k _ => ?_)
  show x0 (ix2 r k) * x1 (ix2 k j) = _
  rw [h0 k, h1 k]

/-! ## The blocks in the arrays -/

-- The TensorCore's buffer contents when the region is entered: any.
variable (V : (c : Dev nD) → (b : Ref sig .tc) → Buf (Elt Ideal) ((c : Thread nD τ).loc b))

/-- The features, the weight and the scale column as the region finds them. -/
abbrev harr (c : Dev nD) : Vec Ideal S100000x64 .f32 := V c main_arg0
abbrev warr (c : Dev nD) : Vec Ideal S64x64 .f32 := V c main_arg3
abbrev darr (c : Dev nD) : Vec Ideal S100000x1 .f32 := V c main_v16

/-- The result as one function of those arrays: entry (i, j) is (0 + Σ_k h(i, k) · W(k, j)) · d(i). -/
def res (c : Dev nD) : Vec Ideal S100000x64 .f32 := fun i =>
  Cert.Spec.lin (fun i k => harr V c (ix2 i k)) (fun k j => warr V c (ix2 k j)) (fun i => darr V c (ix2 i (0 : Fin 1))) (i 0) (i 1)

/-- The grid has 20 points. -/
theorem npoints : cfg0.N = 20 := N_0

/-- At point t the feature, scale and result windows are at row block t, and the weight window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of the feature block at point t is row 5000·t + r of the features. -/
theorem hblk_apply (c : Dev nD) (t : Fin cfg0.N) (r : Fin 5000) (k : Fin 64) (i : Fin 100000) (hi : i.val = t.val * 5000 + r.val) :
    (iblk0 V c 0 t : Vec Ideal S5000x64 .f32) (ix2 r k) = harr V c (ix2 i k) := by
  obtain ⟨e0, e1, -⟩ := idx_facts t
  show V c main_arg0 (((cfg0.win 0).blk t).view.emb (ix2 r k)) = V c main_arg0 (ix2 i k)
  refine congrArg (V c main_arg0) (funext fun a => Fin.ext ?_)
  match a with
  | ⟨0, _⟩ => show win0_0.index t (0 : Fin 2) * 5000 + 1 * r.val = i.val; rw [e0, hi]; omega
  | ⟨1, _⟩ => show win0_0.index t (1 : Fin 2) * 64 + 1 * k.val = k.val; rw [e1]; omega

/-- The weight block at every point is the weight. -/
theorem wblk_apply (c : Dev nD) (t : Fin cfg0.N) (k j : Fin 64) :
    (iblk0 V c 1 t : Vec Ideal S64x64 .f32) (ix2 k j) = warr V c (ix2 k j) := by
  obtain ⟨-, -, e0, e1, -⟩ := idx_facts t
  show V c main_arg3 (((cfg0.win 1).blk t).view.emb (ix2 k j)) = V c main_arg3 (ix2 k j)
  refine congrArg (V c main_arg3) (funext fun a => Fin.ext ?_)
  match a with
  | ⟨0, _⟩ => show win0_1.index t (0 : Fin 2) * 64 + 1 * k.val = k.val; rw [e0]; omega
  | ⟨1, _⟩ => show win0_1.index t (1 : Fin 2) * 64 + 1 * j.val = j.val; rw [e1]; omega

/-- Entry r of the scale block at point t is entry 5000·t + r of the scale column. -/
theorem dblk_apply (c : Dev nD) (t : Fin cfg0.N) (r : Fin 5000) (i : Fin 100000) (hi : i.val = t.val * 5000 + r.val) :
    (iblk0 V c 2 t : Vec Ideal S5000x1 .f32) (ix2 r (0 : Fin 1)) = darr V c (ix2 i (0 : Fin 1)) := by
  obtain ⟨-, -, -, -, e0, e1, -⟩ := idx_facts t
  show V c main_v16 (((cfg0.win 2).blk t).view.emb (ix2 r (0 : Fin 1))) = V c main_v16 (ix2 i (0 : Fin 1))
  refine congrArg (V c main_v16) (funext fun a => Fin.ext ?_)
  match a with
  | ⟨0, _⟩ => show win0_2.index t (0 : Fin 2) * 5000 + 1 * r.val = i.val; rw [e0, hi]; omega
  | ⟨1, _⟩ => show win0_2.index t (1 : Fin 2) * 1 + 1 * 0 = 0; rw [e1]

/-- What point t writes back is block t of the result function. -/
theorem flushed_eq (c : Dev nD) (t : Fin cfg0.N) :
    (dat0 (F := Ideal) V c).flushed 3 t = ((cfg0.win 3).blk t).view.read (Elt Ideal) (res V c) := by
  show (cfg0.win 3).cut (grid0.coords t) ((dat0 (F := Ideal) V c).after 3 t) = _
  rw [after0_3]
  unfold out0_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts t
  have ht : t.val < 20 := by have := t.isLt; have := npoints; omega
  funext y
  obtain ⟨r, j, rfl⟩ : ∃ (r : Fin 5000) (j : Fin 64), y = ix2 r j := ⟨y 0, y 1, eq_ix2 y⟩
  have hr : r.val < 5000 := r.isLt
  have he : ((cfg0.win 3).blk t).view.emb (ix2 r j) = ix2 (⟨t.val * 5000 + r.val, by omega⟩ : Fin 100000) j := by
    funext a; apply Fin.ext
    match a with
    | ⟨0, _⟩ => show win0_3.index t (0 : Fin 2) * 5000 + 1 * r.val = t.val * 5000 + r.val; rw [e0]; omega
    | ⟨1, _⟩ => show win0_3.index t (1 : Fin 2) * 64 + 1 * j.val = j.val; rw [e1]; omega
  show k0_pay1 (F := Ideal) (iblk0 V c 0 t) (iblk0 V c 1 t) (iblk0 V c 2 t) (ix2 r j)
    = res V c (((cfg0.win 3).blk t).view.emb (ix2 r j))
  rw [he]
  exact block_value (iblk0 V c 0 t) (iblk0 V c 1 t) (iblk0 V c 2 t) (harr V c) (warr V c) (darr V c) r j
    (⟨t.val * 5000 + r.val, by omega⟩ : Fin 100000)
    (fun k => hblk_apply V c t r k _ rfl) (fun k => wblk_apply V c t k j) (dblk_apply V c t r _ rfl)

/-! ## From the blocks to the array -/

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v20).slice (win0_3.rect t)).set ↔ _
  rw [View.set_slice_whole, Rect.mem_set_unit]
  exact Iff.rfl

/-- Row i of the result lies in the block of point i / 5000: the blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN := npoints
  obtain ⟨t, ht⟩ : ∃ t : Fin cfg0.N, t.val = (i 0).val / 5000 := ⟨⟨(i 0).val / 5000, by omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- After the region the result array is the result function of the arrays the region found. -/
theorem final (c : Dev nD) : (dat0 (F := Ideal) V c).arrAt 3 cfg0.N = res V c :=
  (dat0 (F := Ideal) V c).arrAt_eq_of_cover 3 (res V c) (fun t _ => flushed_eq V c t) cover

/-- After the region, entry `(i, j)` of its result array. -/
theorem value (c : Dev nD) (i : Fin 100000) (j : Fin 64) :
    ((dat0 (F := Ideal) V c).arrAt 3 cfg0.N : Vec Ideal S100000x64 .f32) (ix2 i j)
      = Cert.Spec.lin (fun i k => harr V c (ix2 i k)) (fun k j => warr V c (ix2 k j)) (fun i => darr V c (ix2 i (0 : Fin 1))) i j := by
  rw [final V c]
  rfl

end Cert.KernelIdeal.RegLin0

end
-- ==== Proof.RegPost1.lean ====
/-
  A fused epilogue region, read as one whole-array function.
  The region walks 50000 rows of 128 lanes in 10 blocks of 5000 rows; at block t it reads the same rows of the three
  operands and the one bias row, and writes max ((agg + xs) · d + b, 0) entry by entry. The blocks tile the result.
-/
import proofs.«423190_j88252987998746_2_alg».proof.Proof.Gen.KernelIdeal.Frame
import proofs.«423190_j88252987998746_2_alg».proof.Proof.Spec
import proofs.«423190_j88252987998746_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost1

open Idealize.ShloMosaic Idealize.ShloMosaic.ValueIdx Idealize.ShloMosaic.TcCoe
open Idealize.ShloMosaic.Pipeline (Dat Cfg Window)
open Cert.KernelIdeal Cert.KernelIdeal.Gen

-- The TensorCore's buffer contents when the region is entered: any.
variable (V : (c : Dev nD) → (b : Ref sig .tc) → Buf (Elt Ideal) ((c : Thread nD τ).loc b))

/-! ## The body's arithmetic at one entry -/

/-- The two zero offsets, as the constant function. -/
theorem hz : (![0, 0] : Fin 2 → Nat) = fun _ => 0 := funext fun a => by fin_cases a <;> rfl

/-- The epilogue of four arrays, entry by entry: `max ((A + X) · D + B(0, lane), 0)`. -/
def postArr (A X D : Vec Ideal S50000x128 .f32) (B : Vec Ideal S1x128 .f32) : Vec Ideal S50000x128 .f32 :=
  fun i => max ((A i + X i) * D i + B (ix2 (0 : Fin 1) (i 1))) 0

/-- The body's result at entry `(p, q)` of a block: the same arithmetic of the four loaded blocks. -/
theorem pay_apply (x0 x1 x2 : Vec Ideal S5000x128 .f32) (x3 : Vec Ideal S1x128 .f32) (p : Fin 5000) (q : Fin 128) :
    k1_pay1 (F := Ideal) x0 x1 x2 x3 (ix2 p q)
      = max ((x0 (ix2 p q) + x1 (ix2 p q)) * x2 (ix2 p q) + x3 (ix2 (0 : Fin 1) q)) 0 := by
  unfold k1_pay1
  simp only [shapeCast_self]
  rw [maximumf_apply, addf_apply, mulf_apply, addf_apply, broadcast_apply, broadcastTo_1b_ab_apply]
  exact congrArg _ Cert.Algebra.ofBits_zero

/-- The epilogue of four arrays, read at entry `i`, from four blocks read at entry `(p, q)` that hold those arrays'
    entries: the operands at `i`, the bias row at `i`'s lane. -/
theorem entry_eq (A X D : Vec Ideal S50000x128 .f32) (B : Vec Ideal S1x128 .f32)
    (x0 x1 x2 : Vec Ideal S5000x128 .f32) (x3 : Vec Ideal S1x128 .f32) (p : Fin 5000) (q : Fin 128) (i : S50000x128.Idx)
    (h0 : x0 (ix2 p q) = A i) (h1 : x1 (ix2 p q) = X i) (h2 : x2 (ix2 p q) = D i)
    (h3 : x3 (ix2 (0 : Fin 1) q) = B (ix2 (0 : Fin 1) (i 1 : Fin 128))) :
    k1_pay1 (F := Ideal) x0 x1 x2 x3 (ix2 p q) = postArr A X D B i := by
  rw [pay_apply, h0, h1, h2, h3]; rfl

/-! ## The blocks -/

/-- The index maps over the grid: at point `t` the three operands' blocks and the result's are row block `t`, all
    lanes; the bias row's block is the row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the body leaves at entry `j` of the result's block at point `t` is the epilogue of the four arrays at the
    array entry that block entry lies on: rows `5000 t + j 0`, lane `j 1`. -/
theorem block_entry (c : Dev nD) (t : Fin cfg1.N) (j : S5000x128.Idx) :
    k1_pay1 (F := Ideal) (iblk1 V c 0 t) (iblk1 V c 1 t) (iblk1 V c 2 t) (iblk1 V c 3 t) j
      = postArr (V c main_v36) (V c main_v37) (V c main_v19) (V c main_v39) (((cfg1.win 4).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e41⟩ := idx_facts t
  refine entry_eq _ _ _ _ _ _ _ _ p q _ ?_ ?_ ?_ ?_
  · show V c main_v36 (((cfg1.win 0).blk t).view.emb (ix2 p q)) = V c main_v36 (((cfg1.win 4).blk t).view.emb (ix2 p q))
    refine congrArg (V c main_v36 : S50000x128.Idx → EReal) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  · show V c main_v37 (((cfg1.win 1).blk t).view.emb (ix2 p q)) = V c main_v37 (((cfg1.win 4).blk t).view.emb (ix2 p q))
    refine congrArg (V c main_v37 : S50000x128.Idx → EReal) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  · show V c main_v19 (((cfg1.win 2).blk t).view.emb (ix2 p q)) = V c main_v19 (((cfg1.win 4).blk t).view.emb (ix2 p q))
    refine congrArg (V c main_v19 : S50000x128.Idx → EReal) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  · show V c main_v39 (((cfg1.win 3).blk t).view.emb (ix2 (0 : Fin 1) q))
      = V c main_v39 (ix2 (0 : Fin 1) ((((cfg1.win 4).blk t).view.emb (ix2 p q)) 1 : Fin 128))
    refine congrArg (V c main_v39 : S1x128.Idx → EReal) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- What point `t` writes back is block `t` of the epilogue of the four arrays as the region finds them. -/
theorem flushed_eq (c : Dev nD) (t : Fin cfg1.N) :
    (dat1 (F := Ideal) V c).flushed 4 t
      = ((cfg1.win 4).blk t).view.read (Elt Ideal) (postArr (V c main_v36) (V c main_v37) (V c main_v19) (V c main_v39)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  funext j
  exact block_entry V c t j

/-- An entry of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v40).slice (win1_4.rect t)).set ↔ _
  rw [View.set_slice_whole, Rect.mem_set_unit]
  exact Iff.rfl

/-- The ten blocks of 5000 rows tile the 50000 rows: row `r` lies in block `r / 5000`. -/
theorem cover (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  have hN : cfg1.N = 10 := N_1
  have ht : (i 0).val / 5000 < cfg1.N := by rw [hN]; omega
  obtain ⟨-, -, -, -, -, -, -, -, e40, e41⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- So the result array ends holding the epilogue of the four arrays as the region finds them. -/
theorem final (c : Dev nD) :
    (dat1 (F := Ideal) V c).arrAt 4 cfg1.N = postArr (V c main_v36) (V c main_v37) (V c main_v19) (V c main_v39) :=
  (dat1 (F := Ideal) V c).arrAt_eq_of_cover 4 _ (fun t _ => flushed_eq V c t) cover

/-! ## The region's result, entry by entry -/

/-- The operands as the region finds them. -/
abbrev aarr (c : Dev nD) : Vec Ideal S50000x128 .f32 := V c main_v36
abbrev xarr (c : Dev nD) : Vec Ideal S50000x128 .f32 := V c main_v37
abbrev darr (c : Dev nD) : Vec Ideal S50000x128 .f32 := V c main_v19
abbrev barr (c : Dev nD) : Vec Ideal S1x128 .f32 := V c main_v39

/-- After the region, entry `(r, l)` of its result array. -/
theorem value (c : Dev nD) (r : Fin 50000) (l : Fin 128) :
    ((dat1 (F := Ideal) V c).arrAt 4 cfg1.N : Vec Ideal S50000x128 .f32) (ix2 r l)
      = Cert.Spec.post (fun r l => aarr V c (ix2 r l)) (fun r l => xarr V c (ix2 r l)) (fun r l => darr V c (ix2 r l))
          (fun l => barr V c (ix2 (0 : Fin 1) l)) r l :=
  (congrFun (final V c) (ix2 r l)).trans rfl

end Cert.KernelIdeal.RegPost1

end
-- ==== Proof.KLayer0.lean ====
/-
  The first layer of the kernel's program, from the contents its projection region is entered with to the contents
  its epilogue region leaves: a whole-array reading.
  The projection region writes xs = (h · W) scaled row by row by d. The host stretch gathers xs at the wrapped source
  words, scatter-adds the gathered rows at the wrapped target words into zeros, and lays both that sum and xs out as
  50000 rows of 128 lanes (two node rows side by side), with the bias repeated twice along the lanes. The epilogue
  region then writes max ((sum + xs) · d + b, 0). Entry (r, l) of its result is the layer's entry (2r + l / 64, l % 64).
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.RegLin0
import proofs.«423190_j88252987998746_2_alg».proof.Proof.RegPost1
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KLayer0

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

/-! ## The layout of two node rows side by side -/

/-- The node row and the column that lane `l` of merged row `r` holds. -/
def nodeOf (r : Fin 50000) (l : Fin 128) : Fin 100000 := ⟨2 * r.val + l.val / 64, by omega⟩
def colOf (l : Fin 128) : Fin 64 := ⟨l.val % 64, by omega⟩

/-- Entry `(nodeOf r l, colOf l)` of 100000 rows of 64 has the row-major position of entry `(r, l)` of 50000 rows of 128. -/
theorem nodeOf_colOf (r : Fin 50000) (l : Fin 128) : (nodeOf r l).val * 64 + (colOf l).val = r.val * 128 + l.val := by
  show (2 * r.val + l.val / 64) * 64 + l.val % 64 = r.val * 128 + l.val
  omega

/-- An array of 100000 rows of 64 laid out as 50000 rows of 128 reads, at `(r, l)`, its entry `(nodeOf r l, colOf l)`. -/
theorem merged_apply {α : Type} (x : S100000x64.Idx → α) (r : Fin 50000) (l : Fin 128) :
    shapeCast S50000x128 x shapeCasts_S100000x64_S50000x128 (ix2 r l) = x (ix2 (nodeOf r l) (colOf l)) :=
  shapeCast_apply x _ _ _ (by
    rw [Shape.rowMajor_val_two, Shape.rowMajor_val_two]
    exact nodeOf_colOf r l)

/-- A vector of 64 entries repeated twice and kept as one row of 128 lanes reads, at lane `l`, its entry `l % 64`. -/
theorem biasRow_apply {α : Type} (b : S64.Idx → α) (l : Fin 128) :
    shapeCast S1x128 (concatenate S128 0 [⟨S64, b⟩, ⟨S64, b⟩] concatenates_S64_S64_S128_d0) shapeCasts_S128_S1x128
      (ix2 (0 : Fin 1) l) = b (ix1 (colOf l)) := by
  rw [shapeCast_apply _ _ (ix2 (0 : Fin 1) l) (ix1 l) (by
    rw [Shape.rowMajor_val_two, Shape.rowMajor_val_one]
    show l.val = 0 * 128 + l.val
    omega)]
  by_cases hl : l.val < 64
  · exact concatenate_pair_apply_left (0 : Fin 1) b b _ (ix1 l) rfl (ix1 (colOf l)) (fun a => by
      obtain rfl : a = 0 := Subsingleton.elim _ _
      show l.val % 64 = l.val
      omega)
  · exact concatenate_pair_apply_right (0 : Fin 1) b b _ (ix1 l) rfl rfl (ix1 (colOf l))
      (fun a ha => absurd (Subsingleton.elim _ _) ha) (by
        show l.val % 64 + 64 = l.val
        omega)

/-! ## The host stretch's arithmetic over arrays given by literal type -/

/-- The printed gather and scatter records are the row gather and the row scatter at the literal sizes. -/
theorem gather_eq : gather_S100000x64_S1000000x1_S1000000x64_1_0_n_n_0_1_164
    = rowGather 100000 1000000 64 gather_S100000x64_S1000000x1_S1000000x64_1_0_n_n_0_1_164_wf := rfl
theorem scatter_eq : scatter_S100000x64_S1000000x1_S1000000x64_1_0_0_1
    = rowScatter 100000 1000000 64 scatter_S100000x64_S1000000x1_S1000000x64_1_0_0_1_wf := rfl

/-- A vector of words wrapped (a negative word has 100000 added) and kept as a column of start words. -/
def wrapCol (z : IVec S1000000 32) : IVec S1000000x1 32 :=
  broadcastInDim S1000000x1 ![0] bcast_S1000000_S1000000x1_0
    (select (cmpi .slt z (broadcastInDim S1000000 ![] bcast_S_S1000000 (constantI S_ 32 0#32)))
      (addi z (broadcastInDim S1000000 ![] bcast_S_S1000000 (constantI S_ 32 100000#32))) z)

/-- Start word `e` of the column is word `e`, wrapped. -/
theorem wrapCol_apply (z : IVec S1000000 32) (e : Fin 1000000) :
    wrapCol z (ix2 e (0 : Fin 1)) = wrapWord 100000#32 (z (ix1 e)) := by
  unfold wrapCol
  rw [broadcastInDim_apply ![0] _ _ (ix2 e (0 : Fin 1)) (ix1 e) (fun a => by
    obtain rfl : a = 0 := Subsingleton.elim _ _
    show e.val = if (1000000 : ℕ) = 1 then 0 else e.val
    rw [if_neg (by decide)])]
  rfl

/-- The messages summed: the rows of `xs` gathered at the wrapped source words, scatter-added into zeros at the wrapped
    target words. -/
def aggArr (xs : Vec Ideal S100000x64 .f32) (sw dw : IVec S1000000 32) : Vec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (wrapCol dw)
    (Host.gather gather_S100000x64_S1000000x1_S1000000x64_1_0_n_n_0_1_164 xs (wrapCol sw))

/-- Entry `(i, j)` of the summed messages: zero plus, over the edges whose wrapped target word names row `i`, entry
    `j` of the row of `xs` the wrapped source word names after clamping. -/
theorem aggArr_apply (xs : Vec Ideal S100000x64 .f32) (sw dw : IVec S1000000 32) (i : Fin 100000) (j : Fin 64) :
    aggArr xs sw dw (ix2 i j)
      = (0 : EReal) + ∑ e ∈ Finset.univ.filter (fun e : Fin 1000000 => rowOf? 100000 (wrapWord 100000#32 (dw (ix1 e))) = some i),
          xs (ix2 (clampRow 100000 (by decide) (wrapWord 100000#32 (sw (ix1 e)))) j) := by
  unfold aggArr
  rw [scatter_eq, gather_eq, rowScatterAdd_apply]
  simp only [wrapCol_apply, rowGather_apply (by decide : 0 < 100000)]
  exact congrArg (· + _) Cert.Algebra.ofBits_zero

/-! ## The host stretch read at the buffers the epilogue region takes -/

section Host
variable (W : Valuation τ sig (Elt Ideal))

/-- The summed messages laid out on 128 lanes. -/
theorem host_v36 :
    (StableHlo.after (hostOps1 (F := Ideal)) W (Proc.devRef .tc main_v36) : Vec Ideal S50000x128 .f32)
      = shapeCast S50000x128 (aggArr (W (Proc.devRef .tc main_v20)) (W (Proc.devRef .tc main_v1)) (W (Proc.devRef .tc main_v3)))
          shapeCasts_S100000x64_S50000x128 := by
  after_results_simp
  rfl

/-- The projected features laid out on 128 lanes. -/
theorem host_v37 :
    (StableHlo.after (hostOps1 (F := Ideal)) W (Proc.devRef .tc main_v37) : Vec Ideal S50000x128 .f32)
      = shapeCast S50000x128 (W (Proc.devRef .tc main_v20) : Vec Ideal S100000x64 .f32) shapeCasts_S100000x64_S50000x128 := by
  after_results_simp
  rfl

/-- The bias repeated twice, as one row of 128 lanes. -/
theorem host_v39 :
    (StableHlo.after (hostOps1 (F := Ideal)) W (Proc.devRef .tc main_v39) : Vec Ideal S1x128 .f32)
      = shapeCast S1x128 (concatenate S128 0 [⟨S64, (W (Proc.devRef .tc main_arg4) : Vec Ideal S64 .f32)⟩,
          ⟨S64, (W (Proc.devRef .tc main_arg4) : Vec Ideal S64 .f32)⟩] concatenates_S64_S64_S128_d0) shapeCasts_S128_S1x128 := by
  after_results_simp
  rfl

/-- A buffer of the list is written by no operation of the stretch. -/
theorem host_keep (b : Ref sig .tc) (hb : b ∈ ([main_v1, main_v3, main_v16, main_v19, main_arg2, main_arg5, main_arg6, main_arg7, main_arg8, main_arg9, main_arg10, main_arg11, main_arg12] : List (Ref sig .tc))) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem hb (by decide))))

end Host

/-! ## The layer -/

-- the buffer contents when the projection region is entered: any
variable (Wa : Dev nD → Valuation τ sig (Elt Ideal))

/-- The same, read at the TensorCore's references. -/
abbrev Va : (c : Dev nD) → (b : Ref sig .tc) → Buf (Elt Ideal) ((c : Thread nD τ).loc b) := fun c b => Wa c b
/-- After the projection region: its arrays at what its write-backs leave, every other buffer as entered. -/
def Wb (c : Dev nD) : Valuation τ sig (Elt Ideal) :=
  Pipeline.withArrays spec0 c (Wa c) fun w => (dat0 (Va Wa) c).arrAt w cfg0.N
/-- After the host stretch between the two regions. -/
abbrev Wc : Dev nD → Valuation τ sig (Elt Ideal) := fun c => StableHlo.after hostOps1 (Wb Wa c)
abbrev Vc : (c : Dev nD) → (b : Ref sig .tc) → Buf (Elt Ideal) ((c : Thread nD τ).loc b) := fun c b => Wc Wa c b
/-- After the epilogue region. -/
def Wd (c : Dev nD) : Valuation τ sig (Elt Ideal) :=
  Pipeline.withArrays spec1 c (Wc Wa c) fun w => (dat1 (Vc Wa) c).arrAt w cfg1.N

/-- The entry contents by literal type: source words, target words, the scale column, the scale laid out on 128
    lanes, the features, the weight, the bias. -/
abbrev srcw (c : Dev nD) : IVec S1000000 32 := Wa c (Proc.devRef .tc main_v1)
abbrev dstw (c : Dev nD) : IVec S1000000 32 := Wa c (Proc.devRef .tc main_v3)
abbrev dcol (c : Dev nD) : Vec Ideal S100000x1 .f32 := Wa c (Proc.devRef .tc main_v16)
abbrev dtil (c : Dev nD) : Vec Ideal S50000x128 .f32 := Wa c (Proc.devRef .tc main_v19)
abbrev feat (c : Dev nD) : Vec Ideal S100000x64 .f32 := Wa c (Proc.devRef .tc main_arg0)
abbrev wgt (c : Dev nD) : Vec Ideal S64x64 .f32 := Wa c (Proc.devRef .tc main_arg3)
abbrev bias (c : Dev nD) : Vec Ideal S64 .f32 := Wa c (Proc.devRef .tc main_arg4)

/-! ### What each region leaves at a buffer -/

/-- After the projection region each of its arrays holds what its write-backs leave. -/
theorem Wb_arr (c : Dev nD) (w : Fin cfg0.W) :
    Wb Wa c (Proc.devRef .tc (Pipeline.arrRef spec0 w)) = (dat0 (Va Wa) c).arrAt w cfg0.N := by
  unfold Wb; exact Pipeline.withArrays_arr spec0 launch0.win.arr_inj c _ _ w

/-- A buffer that is not an output array of the projection region is as entered: an input window's array is never
    written back, and a buffer that is none of the arrays is untouched. -/
theorem Wb_keep (c : Dev nD) (b : Ref sig .tc) (h : ∀ w, Pipeline.arrRef spec0 w = b → (cfg0.win w).isOut = false) :
    Wb Wa c (Proc.devRef .tc b) = Wa c (Proc.devRef .tc b) := by
  by_cases hex : ∃ w, Pipeline.arrRef spec0 w = b
  · obtain ⟨w, rfl⟩ := hex
    rw [Wb_arr, (dat0 (Va Wa) c).arrAt_in w (h w rfl) _, A_eq0]
  · unfold Wb; exact Pipeline.withArrays_of_ne spec0 c _ _ b fun w e => hex ⟨w, e⟩

/-- After the epilogue region each of its arrays holds what its write-backs leave. -/
theorem Wd_arr (c : Dev nD) (w : Fin cfg1.W) :
    Wd Wa c (Proc.devRef .tc (Pipeline.arrRef spec1 w)) = (dat1 (Vc Wa) c).arrAt w cfg1.N := by
  unfold Wd; exact Pipeline.withArrays_arr spec1 launch1.win.arr_inj c _ _ w

/-- A buffer that is not an output array of the epilogue region is as the region found it. -/
theorem Wd_keep (c : Dev nD) (b : Ref sig .tc) (h : ∀ w, Pipeline.arrRef spec1 w = b → (cfg1.win w).isOut = false) :
    Wd Wa c (Proc.devRef .tc b) = Wc Wa c (Proc.devRef .tc b) := by
  by_cases hex : ∃ w, Pipeline.arrRef spec1 w = b
  · obtain ⟨w, rfl⟩ := hex
    rw [Wd_arr, (dat1 (Vc Wa) c).arrAt_in w (h w rfl) _, A_eq1]
  · unfold Wd; exact Pipeline.withArrays_of_ne spec1 c _ _ b fun w e => hex ⟨w, e⟩

/-- A buffer that neither region writes and no host operation of the stretch writes is as entered. -/
theorem keep (c : Dev nD) (b : Ref sig .tc) (hb : b ∈ ([main_v1, main_v3, main_v16, main_v19, main_arg2, main_arg5, main_arg6, main_arg7, main_arg8, main_arg9, main_arg10, main_arg11, main_arg12] : List (Ref sig .tc))) :
    Wd Wa c (Proc.devRef .tc b) = Wa c (Proc.devRef .tc b) := by
  have h0 : ∀ w, Pipeline.arrRef spec0 w = b → (cfg0.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec0 w = b → (cfg0.win w).isOut = false) b hb
  have h1 : ∀ w, Pipeline.arrRef spec1 w = b → (cfg1.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec1 w = b → (cfg1.win w).isOut = false) b hb
  exact (Wd_keep Wa c b h1).trans ((host_keep (Wb Wa c) b hb).trans (Wb_keep Wa c b h0))

/-- After the epilogue region, entry `(r, l)` of its result array is the layer's entry at the node row and column
    that lane holds — provided the scale laid out on 128 lanes is the scale column's entry for that node row. -/
theorem value (c : Dev nD)
    (hd : ∀ (r : Fin 50000) (l : Fin 128), dtil Wa c (ix2 r l) = dcol Wa c (ix2 (nodeOf r l) (0 : Fin 1)))
    (r : Fin 50000) (l : Fin 128) :
    (Wd Wa c (Proc.devRef .tc main_v40) : Vec Ideal S50000x128 .f32) (ix2 r l)
      = Cert.Spec.kLayer
          (fun e i => rowOf? 100000 (wrapWord 100000#32 (dstw Wa c (ix1 e))) = some i)
          (fun e => clampRow 100000 (by decide) (wrapWord 100000#32 (srcw Wa c (ix1 e))))
          (fun i => dcol Wa c (ix2 i (0 : Fin 1)))
          (fun i k => feat Wa c (ix2 i k)) (fun k j => wgt Wa c (ix2 k j)) (fun j => bias Wa c (ix1 j))
          (nodeOf r l) (colOf l) := by
  -- what the host stretch reads: the projection's result, and three buffers the projection region leaves alone
  have hxs : ∀ (i : Fin 100000) (j : Fin 64), (Wb Wa c (Proc.devRef .tc main_v20) : Vec Ideal S100000x64 .f32) (ix2 i j)
      = Cert.Spec.lin (fun i k => feat Wa c (ix2 i k)) (fun k j => wgt Wa c (ix2 k j)) (fun i => dcol Wa c (ix2 i (0 : Fin 1))) i j :=
    fun i j => (congrFun (Wb_arr Wa c 3) (ix2 i j)).trans (RegLin0.value (Va Wa) c i j)
  have h1 : (Wb Wa c (Proc.devRef .tc main_v1) : IVec S1000000 32) = srcw Wa c := Wb_keep Wa c main_v1 (by decide)
  have h3 : (Wb Wa c (Proc.devRef .tc main_v3) : IVec S1000000 32) = dstw Wa c := Wb_keep Wa c main_v3 (by decide)
  have h4 : (Wb Wa c (Proc.devRef .tc main_arg4) : Vec Ideal S64 .f32) = bias Wa c := Wb_keep Wa c main_arg4 (by decide)
  -- the four arrays the epilogue region is entered with, at the entries it reads
  have e36 : RegPost1.aarr (Vc Wa) c (ix2 r l)
      = (0 : EReal) + ∑ e ∈ Finset.univ.filter (fun e : Fin 1000000 => rowOf? 100000 (wrapWord 100000#32 (dstw Wa c (ix1 e))) = some (nodeOf r l)),
          Cert.Spec.lin (fun i k => feat Wa c (ix2 i k)) (fun k j => wgt Wa c (ix2 k j)) (fun i => dcol Wa c (ix2 i (0 : Fin 1)))
            (clampRow 100000 (by decide) (wrapWord 100000#32 (srcw Wa c (ix1 e)))) (colOf l) := by
    show (StableHlo.after (hostOps1 (F := Ideal)) (Wb Wa c) (Proc.devRef .tc main_v36) : Vec Ideal S50000x128 .f32) (ix2 r l) = _
    rw [host_v36 (Wb Wa c), merged_apply, h1, h3, aggArr_apply]
    exact congrArg _ (Finset.sum_congr rfl fun e _ => hxs _ _)
  have e37 : RegPost1.xarr (Vc Wa) c (ix2 r l)
      = Cert.Spec.lin (fun i k => feat Wa c (ix2 i k)) (fun k j => wgt Wa c (ix2 k j)) (fun i => dcol Wa c (ix2 i (0 : Fin 1)))
          (nodeOf r l) (colOf l) := by
    show (StableHlo.after (hostOps1 (F := Ideal)) (Wb Wa c) (Proc.devRef .tc main_v37) : Vec Ideal S50000x128 .f32) (ix2 r l) = _
    rw [host_v37 (Wb Wa c), merged_apply]
    exact hxs _ _
  have e19 : RegPost1.darr (Vc Wa) c (ix2 r l) = dcol Wa c (ix2 (nodeOf r l) (0 : Fin 1)) := by
    show (StableHlo.after (hostOps1 (F := Ideal)) (Wb Wa c) (Proc.devRef .tc main_v19) : Vec Ideal S50000x128 .f32) (ix2 r l) = _
    rw [host_keep (Wb Wa c) main_v19 (by decide), Wb_keep Wa c main_v19 (by decide)]
    exact hd r l
  have e39 : RegPost1.barr (Vc Wa) c (ix2 (0 : Fin 1) l) = bias Wa c (ix1 (colOf l)) := by
    show (StableHlo.after (hostOps1 (F := Ideal)) (Wb Wa c) (Proc.devRef .tc main_v39) : Vec Ideal S1x128 .f32) (ix2 (0 : Fin 1) l) = _
    rw [host_v39 (Wb Wa c), h4, biasRow_apply]
  -- the epilogue region's result at (r, l)
  refine (congrFun (Wd_arr Wa c 4) (ix2 r l)).trans ((RegPost1.value (Vc Wa) c r l).trans ?_)
  show max ((RegPost1.aarr (Vc Wa) c (ix2 r l) + RegPost1.xarr (Vc Wa) c (ix2 r l)) * RegPost1.darr (Vc Wa) c (ix2 r l)
      + RegPost1.barr (Vc Wa) c (ix2 (0 : Fin 1) l)) 0 = _
  rw [e36, e37, e19, e39]
  rfl

end Cert.KernelIdeal.KLayer0

end
-- ==== Proof.RegLin2.lean ====
/-
  A projection region, read as one whole-array function.
  The region walks the 100000 rows in 20 blocks of 5000 rows. At block t it reads rows 5000·t … 5000·t + 4999 of the
  features, the whole 64 × 64 weight and the same rows of the scale column, and writes rows 5000·t … of the result:
  entry (r, j) of the block is (0 + Σ_k h(r, k) · W(k, j)) · d(r). The blocks tile the result, so after the region
  entry (i, j) of the result array is (0 + Σ_k h(i, k) · W(k, j)) · d(i), for the arrays as the region found them.
-/
import proofs.«423190_j88252987998746_2_alg».proof.Proof.Gen.KernelIdeal.Frame
import proofs.«423190_j88252987998746_2_alg».proof.Proof.Spec
import proofs.«423190_j88252987998746_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin2

open Idealize.ShloMosaic Idealize.ShloMosaic.ValueIdx Idealize.ShloMosaic.TcCoe
open Idealize.ShloMosaic.Pipeline (Dat Cfg Window)
open Cert.KernelIdeal Cert.KernelIdeal.Gen

/-! ## The block's arithmetic at an entry -/

/-- The zero offsets of a whole-block access, as a constant function. -/
theorem hz : (![0, 0] : Fin 2 → Nat) = fun _ => 0 :=
  funext fun a => by match a with | ⟨0, _⟩ => rfl | ⟨1, _⟩ => rfl

/-- The product's left operand is read at the result's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the summation index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the summation index as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the result's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The [5000, 64] × [64, 64] product into a zero accumulator, at entry (r, j): Σ_k a(r, k) · b(k, j). -/
theorem product_apply (a : FVec Ideal S5000x64 .bf16) (b : FVec Ideal S64x64 .bf16) (r : Fin 5000) (j : Fin 64) :
    matmul dot_S5000x64_S64x64_S5000x64_1_0_0_1_n_n none a b (constant (F := Ideal) S5000x64 .f32 0x00000000#32) (ix2 r j)
      = ∑ k : Fin 64, a (ix2 r k) * b (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun x => Fin.ext (by
    match x with
    | ⟨0, _⟩ => exact lhs_row _ _
    | ⟨1, _⟩ => exact (lhs_col _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun x => Fin.ext (by
    match x with
    | ⟨0, _⟩ => exact (rhs_row _ _).trans hk
    | ⟨1, _⟩ => exact rhs_col _ _)
  rw [el, er]

/-- What the body stores at entry (r, j) of its block, from the three blocks it loaded, when those blocks are rows of
    whole arrays h, W, d: row r of the feature block is row i of h, the weight block is W, and entry r of the scale
    block is entry i of d. -/
theorem block_value (x0 : Vec Ideal S5000x64 .f32) (x1 : Vec Ideal S64x64 .f32) (x2 : Vec Ideal S5000x1 .f32)
    (h : Vec Ideal S100000x64 .f32) (W : Vec Ideal S64x64 .f32) (d : Vec Ideal S100000x1 .f32)
    (r : Fin 5000) (j : Fin 64) (i : Fin 100000)
    (h0 : ∀ k : Fin 64, x0 (ix2 r k) = h (ix2 i k))
    (h1 : ∀ k : Fin 64, x1 (ix2 k j) = W (ix2 k j))
    (h2 : x2 (ix2 r (0 : Fin 1)) = d (ix2 i (0 : Fin 1))) :
    k2_pay1 (F := Ideal) x0 x1 x2 (ix2 r j)
      = Cert.Spec.lin (fun i k => h (ix2 i k)) (fun k j => W (ix2 k j)) (fun i => d (ix2 i (0 : Fin 1))) i j := by
  unfold k2_pay1 Cert.Spec.lin
  -- a cast of a block to its own shape is the block
  simp only [shapeCast_self]
  show (matmul dot_S5000x64_S64x64_S5000x64_1_0_0_1_n_n none (truncf .bf16 x0 bitsLt_bf16_f32) (truncf .bf16 x1 bitsLt_bf16_f32)
        (constant (F := Ideal) S5000x64 .f32 0x00000000#32) : FVec Ideal S5000x64 .f32) (ix2 r j)
      * (broadcastTo S5000x64 x2 broadcasts_S5000x1_S5000x64 : FVec Ideal S5000x64 .f32) (ix2 r j)
    = ((0 : EReal) + ∑ k : Fin 64, h (ix2 i k) * W (ix2 k j)) * d (ix2 i (0 : Fin 1))
  have hp := product_apply (truncf .bf16 x0 bitsLt_bf16_f32) (truncf .bf16 x1 bitsLt_bf16_f32) r j
  have hb : (broadcastTo S5000x64 x2 broadcasts_S5000x1_S5000x64 : FVec Ideal S5000x64 .f32) (ix2 r j) = x2 (ix2 r (0 : Fin 1)) :=
    Cert.LibColumn.broadcastTo_a1_ab_apply x2 broadcasts_S5000x1_S5000x64 r j
  rw [hp, hb, h2, zero_add]
  refine congrArg (· * d (ix2 i (0 : Fin 1))) (Finset.sum_congr rfl fun k _ => ?_)
  show x0 (ix2 r k) * x1 (ix2 k j) = _
  rw [h0 k, h1 k]

/-! ## The blocks in the arrays -/

-- The TensorCore's buffer contents when the region is entered: any.
variable (V : (c : Dev nD) → (b : Ref sig .tc) → Buf (Elt Ideal) ((c : Thread nD τ).loc b))

/-- The features, the weight and the scale column as the region finds them. -/
abbrev harr (c : Dev nD) : Vec Ideal S100000x64 .f32 := V c main_v41
abbrev warr (c : Dev nD) : Vec Ideal S64x64 .f32 := V c main_arg5
abbrev darr (c : Dev nD) : Vec Ideal S100000x1 .f32 := V c main_v16

/-- The result as one function of those arrays: entry (i, j) is (0 + Σ_k h(i, k) · W(k, j)) · d(i). -/
def res (c : Dev nD) : Vec Ideal S100000x64 .f32 := fun i =>
  Cert.Spec.lin (fun i k => harr V c (ix2 i k)) (fun k j => warr V c (ix2 k j)) (fun i => darr V c (ix2 i (0 : Fin 1))) (i 0) (i 1)

/-- The grid has 20 points. -/
theorem npoints : cfg2.N = 20 := N_2

/-- At point t the feature, scale and result windows are at row block t, and the weight window at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row r of the feature block at point t is row 5000·t + r of the features. -/
theorem hblk_apply (c : Dev nD) (t : Fin cfg2.N) (r : Fin 5000) (k : Fin 64) (i : Fin 100000) (hi : i.val = t.val * 5000 + r.val) :
    (iblk2 V c 0 t : Vec Ideal S5000x64 .f32) (ix2 r k) = harr V c (ix2 i k) := by
  obtain ⟨e0, e1, -⟩ := idx_facts t
  show V c main_v41 (((cfg2.win 0).blk t).view.emb (ix2 r k)) = V c main_v41 (ix2 i k)
  refine congrArg (V c main_v41) (funext fun a => Fin.ext ?_)
  match a with
  | ⟨0, _⟩ => show win2_0.index t (0 : Fin 2) * 5000 + 1 * r.val = i.val; rw [e0, hi]; omega
  | ⟨1, _⟩ => show win2_0.index t (1 : Fin 2) * 64 + 1 * k.val = k.val; rw [e1]; omega

/-- The weight block at every point is the weight. -/
theorem wblk_apply (c : Dev nD) (t : Fin cfg2.N) (k j : Fin 64) :
    (iblk2 V c 1 t : Vec Ideal S64x64 .f32) (ix2 k j) = warr V c (ix2 k j) := by
  obtain ⟨-, -, e0, e1, -⟩ := idx_facts t
  show V c main_arg5 (((cfg2.win 1).blk t).view.emb (ix2 k j)) = V c main_arg5 (ix2 k j)
  refine congrArg (V c main_arg5) (funext fun a => Fin.ext ?_)
  match a with
  | ⟨0, _⟩ => show win2_1.index t (0 : Fin 2) * 64 + 1 * k.val = k.val; rw [e0]; omega
  | ⟨1, _⟩ => show win2_1.index t (1 : Fin 2) * 64 + 1 * j.val = j.val; rw [e1]; omega

/-- Entry r of the scale block at point t is entry 5000·t + r of the scale column. -/
theorem dblk_apply (c : Dev nD) (t : Fin cfg2.N) (r : Fin 5000) (i : Fin 100000) (hi : i.val = t.val * 5000 + r.val) :
    (iblk2 V c 2 t : Vec Ideal S5000x1 .f32) (ix2 r (0 : Fin 1)) = darr V c (ix2 i (0 : Fin 1)) := by
  obtain ⟨-, -, -, -, e0, e1, -⟩ := idx_facts t
  show V c main_v16 (((cfg2.win 2).blk t).view.emb (ix2 r (0 : Fin 1))) = V c main_v16 (ix2 i (0 : Fin 1))
  refine congrArg (V c main_v16) (funext fun a => Fin.ext ?_)
  match a with
  | ⟨0, _⟩ => show win2_2.index t (0 : Fin 2) * 5000 + 1 * r.val = i.val; rw [e0, hi]; omega
  | ⟨1, _⟩ => show win2_2.index t (1 : Fin 2) * 1 + 1 * 0 = 0; rw [e1]

/-- What point t writes back is block t of the result function. -/
theorem flushed_eq (c : Dev nD) (t : Fin cfg2.N) :
    (dat2 (F := Ideal) V c).flushed 3 t = ((cfg2.win 3).blk t).view.read (Elt Ideal) (res V c) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts t
  have ht : t.val < 20 := by have := t.isLt; have := npoints; omega
  funext y
  obtain ⟨r, j, rfl⟩ : ∃ (r : Fin 5000) (j : Fin 64), y = ix2 r j := ⟨y 0, y 1, eq_ix2 y⟩
  have hr : r.val < 5000 := r.isLt
  have he : ((cfg2.win 3).blk t).view.emb (ix2 r j) = ix2 (⟨t.val * 5000 + r.val, by omega⟩ : Fin 100000) j := by
    funext a; apply Fin.ext
    match a with
    | ⟨0, _⟩ => show win2_3.index t (0 : Fin 2) * 5000 + 1 * r.val = t.val * 5000 + r.val; rw [e0]; omega
    | ⟨1, _⟩ => show win2_3.index t (1 : Fin 2) * 64 + 1 * j.val = j.val; rw [e1]; omega
  show k2_pay1 (F := Ideal) (iblk2 V c 0 t) (iblk2 V c 1 t) (iblk2 V c 2 t) (ix2 r j)
    = res V c (((cfg2.win 3).blk t).view.emb (ix2 r j))
  rw [he]
  exact block_value (iblk2 V c 0 t) (iblk2 V c 1 t) (iblk2 V c 2 t) (harr V c) (warr V c) (darr V c) r j
    (⟨t.val * 5000 + r.val, by omega⟩ : Fin 100000)
    (fun k => hblk_apply V c t r k _ rfl) (fun k => wblk_apply V c t k j) (dblk_apply V c t r _ rfl)

/-! ## From the blocks to the array -/

/-- An index of the result array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Row i of the result lies in the block of point i / 5000: the blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN := npoints
  obtain ⟨t, ht⟩ : ∃ t : Fin cfg2.N, t.val = (i 0).val / 5000 := ⟨⟨(i 0).val / 5000, by omega⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- After the region the result array is the result function of the arrays the region found. -/
theorem final (c : Dev nD) : (dat2 (F := Ideal) V c).arrAt 3 cfg2.N = res V c :=
  (dat2 (F := Ideal) V c).arrAt_eq_of_cover 3 (res V c) (fun t _ => flushed_eq V c t) cover

/-- After the region, entry `(i, j)` of its result array. -/
theorem value (c : Dev nD) (i : Fin 100000) (j : Fin 64) :
    ((dat2 (F := Ideal) V c).arrAt 3 cfg2.N : Vec Ideal S100000x64 .f32) (ix2 i j)
      = Cert.Spec.lin (fun i k => harr V c (ix2 i k)) (fun k j => warr V c (ix2 k j)) (fun i => darr V c (ix2 i (0 : Fin 1))) i j := by
  rw [final V c]
  rfl

end Cert.KernelIdeal.RegLin2

end
-- ==== Proof.RegPost3.lean ====
/-
  A fused epilogue region, read as one whole-array function.
  The region walks 50000 rows of 128 lanes in 10 blocks of 5000 rows; at block t it reads the same rows of the three
  operands and the one bias row, and writes max ((agg + xs) · d + b, 0) entry by entry. The blocks tile the result.
-/
import proofs.«423190_j88252987998746_2_alg».proof.Proof.Gen.KernelIdeal.Frame
import proofs.«423190_j88252987998746_2_alg».proof.Proof.Spec
import proofs.«423190_j88252987998746_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost3

open Idealize.ShloMosaic Idealize.ShloMosaic.ValueIdx Idealize.ShloMosaic.TcCoe
open Idealize.ShloMosaic.Pipeline (Dat Cfg Window)
open Cert.KernelIdeal Cert.KernelIdeal.Gen

-- The TensorCore's buffer contents when the region is entered: any.
variable (V : (c : Dev nD) → (b : Ref sig .tc) → Buf (Elt Ideal) ((c : Thread nD τ).loc b))

/-! ## The body's arithmetic at one entry -/

/-- The two zero offsets, as the constant function. -/
theorem hz : (![0, 0] : Fin 2 → Nat) = fun _ => 0 := funext fun a => by fin_cases a <;> rfl

/-- The epilogue of four arrays, entry by entry: `max ((A + X) · D + B(0, lane), 0)`. -/
def postArr (A X D : Vec Ideal S50000x128 .f32) (B : Vec Ideal S1x128 .f32) : Vec Ideal S50000x128 .f32 :=
  fun i => max ((A i + X i) * D i + B (ix2 (0 : Fin 1) (i 1))) 0

/-- The body's result at entry `(p, q)` of a block: the same arithmetic of the four loaded blocks. -/
theorem pay_apply (x0 x1 x2 : Vec Ideal S5000x128 .f32) (x3 : Vec Ideal S1x128 .f32) (p : Fin 5000) (q : Fin 128) :
    k3_pay1 (F := Ideal) x0 x1 x2 x3 (ix2 p q)
      = max ((x0 (ix2 p q) + x1 (ix2 p q)) * x2 (ix2 p q) + x3 (ix2 (0 : Fin 1) q)) 0 := by
  unfold k3_pay1
  simp only [shapeCast_self]
  rw [maximumf_apply, addf_apply, mulf_apply, addf_apply, broadcast_apply, broadcastTo_1b_ab_apply]
  exact congrArg _ Cert.Algebra.ofBits_zero

/-- The epilogue of four arrays, read at entry `i`, from four blocks read at entry `(p, q)` that hold those arrays'
    entries: the operands at `i`, the bias row at `i`'s lane. -/
theorem entry_eq (A X D : Vec Ideal S50000x128 .f32) (B : Vec Ideal S1x128 .f32)
    (x0 x1 x2 : Vec Ideal S5000x128 .f32) (x3 : Vec Ideal S1x128 .f32) (p : Fin 5000) (q : Fin 128) (i : S50000x128.Idx)
    (h0 : x0 (ix2 p q) = A i) (h1 : x1 (ix2 p q) = X i) (h2 : x2 (ix2 p q) = D i)
    (h3 : x3 (ix2 (0 : Fin 1) q) = B (ix2 (0 : Fin 1) (i 1 : Fin 128))) :
    k3_pay1 (F := Ideal) x0 x1 x2 x3 (ix2 p q) = postArr A X D B i := by
  rw [pay_apply, h0, h1, h2, h3]; rfl

/-! ## The blocks -/

/-- The index maps over the grid: at point `t` the three operands' blocks and the result's are row block `t`, all
    lanes; the bias row's block is the row. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What the body leaves at entry `j` of the result's block at point `t` is the epilogue of the four arrays at the
    array entry that block entry lies on: rows `5000 t + j 0`, lane `j 1`. -/
theorem block_entry (c : Dev nD) (t : Fin cfg3.N) (j : S5000x128.Idx) :
    k3_pay1 (F := Ideal) (iblk3 V c 0 t) (iblk3 V c 1 t) (iblk3 V c 2 t) (iblk3 V c 3 t) j
      = postArr (V c main_v58) (V c main_v59) (V c main_v19) (V c main_v61) (((cfg3.win 4).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e41⟩ := idx_facts t
  refine entry_eq _ _ _ _ _ _ _ _ p q _ ?_ ?_ ?_ ?_
  · show V c main_v58 (((cfg3.win 0).blk t).view.emb (ix2 p q)) = V c main_v58 (((cfg3.win 4).blk t).view.emb (ix2 p q))
    refine congrArg (V c main_v58 : S50000x128.Idx → EReal) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  · show V c main_v59 (((cfg3.win 1).blk t).view.emb (ix2 p q)) = V c main_v59 (((cfg3.win 4).blk t).view.emb (ix2 p q))
    refine congrArg (V c main_v59 : S50000x128.Idx → EReal) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  · show V c main_v19 (((cfg3.win 2).blk t).view.emb (ix2 p q)) = V c main_v19 (((cfg3.win 4).blk t).view.emb (ix2 p q))
    refine congrArg (V c main_v19 : S50000x128.Idx → EReal) (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 128 + 1 * q.val = win3_4.index t (1 : Fin 2) * 128 + 1 * q.val; omega
  · show V c main_v61 (((cfg3.win 3).blk t).view.emb (ix2 (0 : Fin 1) q))
      = V c main_v61 (ix2 (0 : Fin 1) ((((cfg3.win 4).blk t).view.emb (ix2 p q)) 1 : Fin 128))
    refine congrArg (V c main_v61 : S1x128.Idx → EReal) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-- What point `t` writes back is block `t` of the epilogue of the four arrays as the region finds them. -/
theorem flushed_eq (c : Dev nD) (t : Fin cfg3.N) :
    (dat3 (F := Ideal) V c).flushed 4 t
      = ((cfg3.win 4).blk t).view.read (Elt Ideal) (postArr (V c main_v58) (V c main_v59) (V c main_v19) (V c main_v61)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  funext j
  exact block_entry V c t j

/-- An entry of the result array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v62).slice (win3_4.rect t)).set ↔ _
  rw [View.set_slice_whole, Rect.mem_set_unit]
  exact Iff.rfl

/-- The ten blocks of 5000 rows tile the 50000 rows: row `r` lies in block `r / 5000`. -/
theorem cover (i : S50000x128.Idx) :
    ∃ t : Fin cfg3.N, (cfg3.win 4).flush t = true ∧ i ∈ ((cfg3.win 4).blk t).view.set := by
  have hi0 : (i 0).val < 50000 := idx2_lt0 i
  have hi1 : (i 1).val < 128 := idx2_lt1 i
  have hN : cfg3.N = 10 := N_3
  have ht : (i 0).val / 5000 < cfg3.N := by rw [hN]; omega
  obtain ⟨-, -, -, -, -, -, -, -, e40, e41⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e41]; omega

/-- So the result array ends holding the epilogue of the four arrays as the region finds them. -/
theorem final (c : Dev nD) :
    (dat3 (F := Ideal) V c).arrAt 4 cfg3.N = postArr (V c main_v58) (V c main_v59) (V c main_v19) (V c main_v61) :=
  (dat3 (F := Ideal) V c).arrAt_eq_of_cover 4 _ (fun t _ => flushed_eq V c t) cover

/-! ## The region's result, entry by entry -/

/-- The operands as the region finds them. -/
abbrev aarr (c : Dev nD) : Vec Ideal S50000x128 .f32 := V c main_v58
abbrev xarr (c : Dev nD) : Vec Ideal S50000x128 .f32 := V c main_v59
abbrev darr (c : Dev nD) : Vec Ideal S50000x128 .f32 := V c main_v19
abbrev barr (c : Dev nD) : Vec Ideal S1x128 .f32 := V c main_v61

/-- After the region, entry `(r, l)` of its result array. -/
theorem value (c : Dev nD) (r : Fin 50000) (l : Fin 128) :
    ((dat3 (F := Ideal) V c).arrAt 4 cfg3.N : Vec Ideal S50000x128 .f32) (ix2 r l)
      = Cert.Spec.post (fun r l => aarr V c (ix2 r l)) (fun r l => xarr V c (ix2 r l)) (fun r l => darr V c (ix2 r l))
          (fun l => barr V c (ix2 (0 : Fin 1) l)) r l :=
  (congrFun (final V c) (ix2 r l)).trans rfl

end Cert.KernelIdeal.RegPost3

end
-- ==== Proof.KLayer1.lean ====
/-
  The first layer of the kernel's program, from the contents its projection region is entered with to the contents
  its epilogue region leaves: a whole-array reading.
  The projection region writes xs = (h · W) scaled row by row by d. The host stretch gathers xs at the wrapped source
  words, scatter-adds the gathered rows at the wrapped target words into zeros, and lays both that sum and xs out as
  50000 rows of 128 lanes (two node rows side by side), with the bias repeated twice along the lanes. The epilogue
  region then writes max ((sum + xs) · d + b, 0). Entry (r, l) of its result is the layer's entry (2r + l / 64, l % 64).
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.RegLin2
import proofs.«423190_j88252987998746_2_alg».proof.Proof.RegPost3
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KLayer1

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

/-! ## The layout of two node rows side by side -/

/-- The node row and the column that lane `l` of merged row `r` holds. -/
def nodeOf (r : Fin 50000) (l : Fin 128) : Fin 100000 := ⟨2 * r.val + l.val / 64, by omega⟩
def colOf (l : Fin 128) : Fin 64 := ⟨l.val % 64, by omega⟩

/-- Entry `(nodeOf r l, colOf l)` of 100000 rows of 64 has the row-major position of entry `(r, l)` of 50000 rows of 128. -/
theorem nodeOf_colOf (r : Fin 50000) (l : Fin 128) : (nodeOf r l).val * 64 + (colOf l).val = r.val * 128 + l.val := by
  show (2 * r.val + l.val / 64) * 64 + l.val % 64 = r.val * 128 + l.val
  omega

/-- An array of 100000 rows of 64 laid out as 50000 rows of 128 reads, at `(r, l)`, its entry `(nodeOf r l, colOf l)`. -/
theorem merged_apply {α : Type} (x : S100000x64.Idx → α) (r : Fin 50000) (l : Fin 128) :
    shapeCast S50000x128 x shapeCasts_S100000x64_S50000x128 (ix2 r l) = x (ix2 (nodeOf r l) (colOf l)) :=
  shapeCast_apply x _ _ _ (by
    rw [Shape.rowMajor_val_two, Shape.rowMajor_val_two]
    exact nodeOf_colOf r l)

/-- A vector of 64 entries repeated twice and kept as one row of 128 lanes reads, at lane `l`, its entry `l % 64`. -/
theorem biasRow_apply {α : Type} (b : S64.Idx → α) (l : Fin 128) :
    shapeCast S1x128 (concatenate S128 0 [⟨S64, b⟩, ⟨S64, b⟩] concatenates_S64_S64_S128_d0) shapeCasts_S128_S1x128
      (ix2 (0 : Fin 1) l) = b (ix1 (colOf l)) := by
  rw [shapeCast_apply _ _ (ix2 (0 : Fin 1) l) (ix1 l) (by
    rw [Shape.rowMajor_val_two, Shape.rowMajor_val_one]
    show l.val = 0 * 128 + l.val
    omega)]
  by_cases hl : l.val < 64
  · exact concatenate_pair_apply_left (0 : Fin 1) b b _ (ix1 l) rfl (ix1 (colOf l)) (fun a => by
      obtain rfl : a = 0 := Subsingleton.elim _ _
      show l.val % 64 = l.val
      omega)
  · exact concatenate_pair_apply_right (0 : Fin 1) b b _ (ix1 l) rfl rfl (ix1 (colOf l))
      (fun a ha => absurd (Subsingleton.elim _ _) ha) (by
        show l.val % 64 + 64 = l.val
        omega)

/-! ## The host stretch's arithmetic over arrays given by literal type -/

/-- The printed gather and scatter records are the row gather and the row scatter at the literal sizes. -/
theorem gather_eq : gather_S100000x64_S1000000x1_S1000000x64_1_0_n_n_0_1_164
    = rowGather 100000 1000000 64 gather_S100000x64_S1000000x1_S1000000x64_1_0_n_n_0_1_164_wf := rfl
theorem scatter_eq : scatter_S100000x64_S1000000x1_S1000000x64_1_0_0_1
    = rowScatter 100000 1000000 64 scatter_S100000x64_S1000000x1_S1000000x64_1_0_0_1_wf := rfl

/-- A vector of words wrapped (a negative word has 100000 added) and kept as a column of start words. -/
def wrapCol (z : IVec S1000000 32) : IVec S1000000x1 32 :=
  broadcastInDim S1000000x1 ![0] bcast_S1000000_S1000000x1_0
    (select (cmpi .slt z (broadcastInDim S1000000 ![] bcast_S_S1000000 (constantI S_ 32 0#32)))
      (addi z (broadcastInDim S1000000 ![] bcast_S_S1000000 (constantI S_ 32 100000#32))) z)

/-- Start word `e` of the column is word `e`, wrapped. -/
theorem wrapCol_apply (z : IVec S1000000 32) (e : Fin 1000000) :
    wrapCol z (ix2 e (0 : Fin 1)) = wrapWord 100000#32 (z (ix1 e)) := by
  unfold wrapCol
  rw [broadcastInDim_apply ![0] _ _ (ix2 e (0 : Fin 1)) (ix1 e) (fun a => by
    obtain rfl : a = 0 := Subsingleton.elim _ _
    show e.val = if (1000000 : ℕ) = 1 then 0 else e.val
    rw [if_neg (by decide)])]
  rfl

/-- The messages summed: the rows of `xs` gathered at the wrapped source words, scatter-added into zeros at the wrapped
    target words. -/
def aggArr (xs : Vec Ideal S100000x64 .f32) (sw dw : IVec S1000000 32) : Vec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (wrapCol dw)
    (Host.gather gather_S100000x64_S1000000x1_S1000000x64_1_0_n_n_0_1_164 xs (wrapCol sw))

/-- Entry `(i, j)` of the summed messages: zero plus, over the edges whose wrapped target word names row `i`, entry
    `j` of the row of `xs` the wrapped source word names after clamping. -/
theorem aggArr_apply (xs : Vec Ideal S100000x64 .f32) (sw dw : IVec S1000000 32) (i : Fin 100000) (j : Fin 64) :
    aggArr xs sw dw (ix2 i j)
      = (0 : EReal) + ∑ e ∈ Finset.univ.filter (fun e : Fin 1000000 => rowOf? 100000 (wrapWord 100000#32 (dw (ix1 e))) = some i),
          xs (ix2 (clampRow 100000 (by decide) (wrapWord 100000#32 (sw (ix1 e)))) j) := by
  unfold aggArr
  rw [scatter_eq, gather_eq, rowScatterAdd_apply]
  simp only [wrapCol_apply, rowGather_apply (by decide : 0 < 100000)]
  exact congrArg (· + _) Cert.Algebra.ofBits_zero

/-! ## The host stretch read at the buffers the epilogue region takes -/

section Host
variable (W : Valuation τ sig (Elt Ideal))

/-- The summed messages laid out on 128 lanes. -/
theorem host_v36 :
    (StableHlo.after (hostOps3 (F := Ideal)) W (Proc.devRef .tc main_v58) : Vec Ideal S50000x128 .f32)
      = shapeCast S50000x128 (aggArr (W (Proc.devRef .tc main_v42)) (W (Proc.devRef .tc main_v1)) (W (Proc.devRef .tc main_v3)))
          shapeCasts_S100000x64_S50000x128 := by
  after_results_simp
  rfl

/-- The projected features laid out on 128 lanes. -/
theorem host_v37 :
    (StableHlo.after (hostOps3 (F := Ideal)) W (Proc.devRef .tc main_v59) : Vec Ideal S50000x128 .f32)
      = shapeCast S50000x128 (W (Proc.devRef .tc main_v42) : Vec Ideal S100000x64 .f32) shapeCasts_S100000x64_S50000x128 := by
  after_results_simp
  rfl

/-- The bias repeated twice, as one row of 128 lanes. -/
theorem host_v39 :
    (StableHlo.after (hostOps3 (F := Ideal)) W (Proc.devRef .tc main_v61) : Vec Ideal S1x128 .f32)
      = shapeCast S1x128 (concatenate S128 0 [⟨S64, (W (Proc.devRef .tc main_arg6) : Vec Ideal S64 .f32)⟩,
          ⟨S64, (W (Proc.devRef .tc main_arg6) : Vec Ideal S64 .f32)⟩] concatenates_S64_S64_S128_d0) shapeCasts_S128_S1x128 := by
  after_results_simp
  rfl

/-- A buffer of the list is written by no operation of the stretch. -/
theorem host_keep (b : Ref sig .tc) (hb : b ∈ ([main_v1, main_v3, main_v16, main_v19, main_arg2, main_arg5, main_arg6, main_arg7, main_arg8, main_arg9, main_arg10, main_arg11, main_arg12] : List (Ref sig .tc))) :
    StableHlo.after (hostOps3 (F := Ideal)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem hb (by decide))))

end Host

/-! ## The layer -/

-- the buffer contents when the projection region is entered: any
variable (Wa : Dev nD → Valuation τ sig (Elt Ideal))

/-- The same, read at the TensorCore's references. -/
abbrev Va : (c : Dev nD) → (b : Ref sig .tc) → Buf (Elt Ideal) ((c : Thread nD τ).loc b) := fun c b => Wa c b
/-- After the projection region: its arrays at what its write-backs leave, every other buffer as entered. -/
def Wb (c : Dev nD) : Valuation τ sig (Elt Ideal) :=
  Pipeline.withArrays spec2 c (Wa c) fun w => (dat2 (Va Wa) c).arrAt w cfg2.N
/-- After the host stretch between the two regions. -/
abbrev Wc : Dev nD → Valuation τ sig (Elt Ideal) := fun c => StableHlo.after hostOps3 (Wb Wa c)
abbrev Vc : (c : Dev nD) → (b : Ref sig .tc) → Buf (Elt Ideal) ((c : Thread nD τ).loc b) := fun c b => Wc Wa c b
/-- After the epilogue region. -/
def Wd (c : Dev nD) : Valuation τ sig (Elt Ideal) :=
  Pipeline.withArrays spec3 c (Wc Wa c) fun w => (dat3 (Vc Wa) c).arrAt w cfg3.N

/-- The entry contents by literal type: source words, target words, the scale column, the scale laid out on 128
    lanes, the features, the weight, the bias. -/
abbrev srcw (c : Dev nD) : IVec S1000000 32 := Wa c (Proc.devRef .tc main_v1)
abbrev dstw (c : Dev nD) : IVec S1000000 32 := Wa c (Proc.devRef .tc main_v3)
abbrev dcol (c : Dev nD) : Vec Ideal S100000x1 .f32 := Wa c (Proc.devRef .tc main_v16)
abbrev dtil (c : Dev nD) : Vec Ideal S50000x128 .f32 := Wa c (Proc.devRef .tc main_v19)
abbrev feat (c : Dev nD) : Vec Ideal S100000x64 .f32 := Wa c (Proc.devRef .tc main_v41)
abbrev wgt (c : Dev nD) : Vec Ideal S64x64 .f32 := Wa c (Proc.devRef .tc main_arg5)
abbrev bias (c : Dev nD) : Vec Ideal S64 .f32 := Wa c (Proc.devRef .tc main_arg6)

/-! ### What each region leaves at a buffer -/

/-- After the projection region each of its arrays holds what its write-backs leave. -/
theorem Wb_arr (c : Dev nD) (w : Fin cfg2.W) :
    Wb Wa c (Proc.devRef .tc (Pipeline.arrRef spec2 w)) = (dat2 (Va Wa) c).arrAt w cfg2.N := by
  unfold Wb; exact Pipeline.withArrays_arr spec2 launch2.win.arr_inj c _ _ w

/-- A buffer that is not an output array of the projection region is as entered: an input window's array is never
    written back, and a buffer that is none of the arrays is untouched. -/
theorem Wb_keep (c : Dev nD) (b : Ref sig .tc) (h : ∀ w, Pipeline.arrRef spec2 w = b → (cfg2.win w).isOut = false) :
    Wb Wa c (Proc.devRef .tc b) = Wa c (Proc.devRef .tc b) := by
  by_cases hex : ∃ w, Pipeline.arrRef spec2 w = b
  · obtain ⟨w, rfl⟩ := hex
    rw [Wb_arr, (dat2 (Va Wa) c).arrAt_in w (h w rfl) _, A_eq2]
  · unfold Wb; exact Pipeline.withArrays_of_ne spec2 c _ _ b fun w e => hex ⟨w, e⟩

/-- After the epilogue region each of its arrays holds what its write-backs leave. -/
theorem Wd_arr (c : Dev nD) (w : Fin cfg3.W) :
    Wd Wa c (Proc.devRef .tc (Pipeline.arrRef spec3 w)) = (dat3 (Vc Wa) c).arrAt w cfg3.N := by
  unfold Wd; exact Pipeline.withArrays_arr spec3 launch3.win.arr_inj c _ _ w

/-- A buffer that is not an output array of the epilogue region is as the region found it. -/
theorem Wd_keep (c : Dev nD) (b : Ref sig .tc) (h : ∀ w, Pipeline.arrRef spec3 w = b → (cfg3.win w).isOut = false) :
    Wd Wa c (Proc.devRef .tc b) = Wc Wa c (Proc.devRef .tc b) := by
  by_cases hex : ∃ w, Pipeline.arrRef spec3 w = b
  · obtain ⟨w, rfl⟩ := hex
    rw [Wd_arr, (dat3 (Vc Wa) c).arrAt_in w (h w rfl) _, A_eq3]
  · unfold Wd; exact Pipeline.withArrays_of_ne spec3 c _ _ b fun w e => hex ⟨w, e⟩

/-- A buffer that neither region writes and no host operation of the stretch writes is as entered. -/
theorem keep (c : Dev nD) (b : Ref sig .tc) (hb : b ∈ ([main_v1, main_v3, main_v16, main_v19, main_arg2, main_arg5, main_arg6, main_arg7, main_arg8, main_arg9, main_arg10, main_arg11, main_arg12] : List (Ref sig .tc))) :
    Wd Wa c (Proc.devRef .tc b) = Wa c (Proc.devRef .tc b) := by
  have h0 : ∀ w, Pipeline.arrRef spec2 w = b → (cfg2.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec2 w = b → (cfg2.win w).isOut = false) b hb
  have h1 : ∀ w, Pipeline.arrRef spec3 w = b → (cfg3.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec3 w = b → (cfg3.win w).isOut = false) b hb
  exact (Wd_keep Wa c b h1).trans ((host_keep (Wb Wa c) b hb).trans (Wb_keep Wa c b h0))

/-- After the epilogue region, entry `(r, l)` of its result array is the layer's entry at the node row and column
    that lane holds — provided the scale laid out on 128 lanes is the scale column's entry for that node row. -/
theorem value (c : Dev nD)
    (hd : ∀ (r : Fin 50000) (l : Fin 128), dtil Wa c (ix2 r l) = dcol Wa c (ix2 (nodeOf r l) (0 : Fin 1)))
    (r : Fin 50000) (l : Fin 128) :
    (Wd Wa c (Proc.devRef .tc main_v62) : Vec Ideal S50000x128 .f32) (ix2 r l)
      = Cert.Spec.kLayer
          (fun e i => rowOf? 100000 (wrapWord 100000#32 (dstw Wa c (ix1 e))) = some i)
          (fun e => clampRow 100000 (by decide) (wrapWord 100000#32 (srcw Wa c (ix1 e))))
          (fun i => dcol Wa c (ix2 i (0 : Fin 1)))
          (fun i k => feat Wa c (ix2 i k)) (fun k j => wgt Wa c (ix2 k j)) (fun j => bias Wa c (ix1 j))
          (nodeOf r l) (colOf l) := by
  -- what the host stretch reads: the projection's result, and three buffers the projection region leaves alone
  have hxs : ∀ (i : Fin 100000) (j : Fin 64), (Wb Wa c (Proc.devRef .tc main_v42) : Vec Ideal S100000x64 .f32) (ix2 i j)
      = Cert.Spec.lin (fun i k => feat Wa c (ix2 i k)) (fun k j => wgt Wa c (ix2 k j)) (fun i => dcol Wa c (ix2 i (0 : Fin 1))) i j :=
    fun i j => (congrFun (Wb_arr Wa c 3) (ix2 i j)).trans (RegLin2.value (Va Wa) c i j)
  have h1 : (Wb Wa c (Proc.devRef .tc main_v1) : IVec S1000000 32) = srcw Wa c := Wb_keep Wa c main_v1 (by decide)
  have h3 : (Wb Wa c (Proc.devRef .tc main_v3) : IVec S1000000 32) = dstw Wa c := Wb_keep Wa c main_v3 (by decide)
  have h4 : (Wb Wa c (Proc.devRef .tc main_arg6) : Vec Ideal S64 .f32) = bias Wa c := Wb_keep Wa c main_arg6 (by decide)
  -- the four arrays the epilogue region is entered with, at the entries it reads
  have e36 : RegPost3.aarr (Vc Wa) c (ix2 r l)
      = (0 : EReal) + ∑ e ∈ Finset.univ.filter (fun e : Fin 1000000 => rowOf? 100000 (wrapWord 100000#32 (dstw Wa c (ix1 e))) = some (nodeOf r l)),
          Cert.Spec.lin (fun i k => feat Wa c (ix2 i k)) (fun k j => wgt Wa c (ix2 k j)) (fun i => dcol Wa c (ix2 i (0 : Fin 1)))
            (clampRow 100000 (by decide) (wrapWord 100000#32 (srcw Wa c (ix1 e)))) (colOf l) := by
    show (StableHlo.after (hostOps3 (F := Ideal)) (Wb Wa c) (Proc.devRef .tc main_v58) : Vec Ideal S50000x128 .f32) (ix2 r l) = _
    rw [host_v36 (Wb Wa c), merged_apply, h1, h3, aggArr_apply]
    exact congrArg _ (Finset.sum_congr rfl fun e _ => hxs _ _)
  have e37 : RegPost3.xarr (Vc Wa) c (ix2 r l)
      = Cert.Spec.lin (fun i k => feat Wa c (ix2 i k)) (fun k j => wgt Wa c (ix2 k j)) (fun i => dcol Wa c (ix2 i (0 : Fin 1)))
          (nodeOf r l) (colOf l) := by
    show (StableHlo.after (hostOps3 (F := Ideal)) (Wb Wa c) (Proc.devRef .tc main_v59) : Vec Ideal S50000x128 .f32) (ix2 r l) = _
    rw [host_v37 (Wb Wa c), merged_apply]
    exact hxs _ _
  have e19 : RegPost3.darr (Vc Wa) c (ix2 r l) = dcol Wa c (ix2 (nodeOf r l) (0 : Fin 1)) := by
    show (StableHlo.after (hostOps3 (F := Ideal)) (Wb Wa c) (Proc.devRef .tc main_v19) : Vec Ideal S50000x128 .f32) (ix2 r l) = _
    rw [host_keep (Wb Wa c) main_v19 (by decide), Wb_keep Wa c main_v19 (by decide)]
    exact hd r l
  have e39 : RegPost3.barr (Vc Wa) c (ix2 (0 : Fin 1) l) = bias Wa c (ix1 (colOf l)) := by
    show (StableHlo.after (hostOps3 (F := Ideal)) (Wb Wa c) (Proc.devRef .tc main_v61) : Vec Ideal S1x128 .f32) (ix2 (0 : Fin 1) l) = _
    rw [host_v39 (Wb Wa c), h4, biasRow_apply]
  -- the epilogue region's result at (r, l)
  refine (congrFun (Wd_arr Wa c 4) (ix2 r l)).trans ((RegPost3.value (Vc Wa) c r l).trans ?_)
  show max ((RegPost3.aarr (Vc Wa) c (ix2 r l) + RegPost3.xarr (Vc Wa) c (ix2 r l)) * RegPost3.darr (Vc Wa) c (ix2 r l)
      + RegPost3.barr (Vc Wa) c (ix2 (0 : Fin 1) l)) 0 = _
  rw [e36, e37, e19, e39]
  rfl

end Cert.KernelIdeal.KLayer1

end
-- ==== Proof.RegLin4.lean ====
/-
  A projection region, read as one whole-array function.
  The region walks the 100000 rows in 20 blocks of 5000 rows. At block t it reads rows 5000·t … 5000·t + 4999 of the
  features, the whole 64 × 64 weight and the same rows of the scale column, and writes rows 5000·t … of the result:
  entry (r, j) of the block is (0 + Σ_k h(r, k) · W(k, j)) · d(r). The blocks tile the result, so after the region
  entry (i, j) of the result array is (0 + Σ_k h(i, k) · W(k, j)) · d(i), for the arrays as the region found them.
-/
import proofs.«423190_j88252987998746_2_alg».proof.Proof.Gen.KernelIdeal.Frame
import proofs.«423190_j88252987998746_2_alg».proof.Proof.Spec
import proofs.«423190_j88252987998746_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin4

open Idealize.ShloMosaic Idealize.ShloMosaic.ValueIdx Idealize.ShloMosaic.TcCoe
open Idealize.ShloMosaic.Pipeline (Dat Cfg Window)
open Cert.KernelIdeal Cert.KernelIdeal.Gen

/-! ## The block's arithmetic at an entry -/

/-- The zero offsets of a whole-block access, as a constant function. -/
theorem hz : (![0, 0] : Fin 2 → Nat) = fun _ => 0 :=
  funext fun a => by match a with | ⟨0, _⟩ => rfl | ⟨1, _⟩ => rfl

/-- The product's left operand is read at the result's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the summation index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the summation index as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the result's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The [5000, 64] × [64, 64] product into a zero accumulator, at entry (r, j): Σ_k a(r, k) · b(k, j). -/
theorem product_apply (a : FVec Ideal S5000x64 .bf16) (b : FVec Ideal S64x64 .bf16) (r : Fin 5000) (j : Fin 64) :
    matmul dot_S5000x64_S64x64_S5000x64_1_0_0_1_n_n none a b (constant (F := Ideal) S5000x64 .f32 0x00000000#32) (ix2 r j)
      = ∑ k : Fin 64, a (ix2 r k) * b (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun x => Fin.ext (by
    match x with
    | ⟨0, _⟩ => exact lhs_row _ _
    | ⟨1, _⟩ => exact (lhs_col _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun x => Fin.ext (by
    match x with
    | ⟨0, _⟩ => exact (rhs_row _ _).trans hk
    | ⟨1, _⟩ => exact rhs_col _ _)
  rw [el, er]

/-- What the body stores at entry (r, j) of its block, from the three blocks it loaded, when those blocks are rows of
    whole arrays h, W, d: row r of the feature block is row i of h, the weight block is W, and entry r of the scale
    block is entry i of d. -/
theorem block_value (x0 : Vec Ideal S5000x64 .f32) (x1 : Vec Ideal S64x64 .f32) (x2 : Vec Ideal S5000x1 .f32)
    (h : Vec Ideal S100000x64 .f32) (W : Vec Ideal S64x64 .f32) (d : Vec Ideal S100000x1 .f32)
    (r : Fin 5000) (j : Fin 64) (i : Fin 100000)
    (h0 : ∀ k : Fin 64, x0 (ix2 r k) = h (ix2 i k))
    (h1 : ∀ k : Fin 64, x1 (ix2 k j) = W (ix2 k j))
    (h2 : x2 (ix2 r (0 : Fin 1)) = d (ix2 i (0 : Fin 1))) :
    k4_pay1 (F := Ideal) x0 x1 x2 (ix2 r j)
      = Cert.Spec.lin (fun i k => h (ix2 i k)) (fun k j => W (ix2 k j)) (fun i => d (ix2 i (0 : Fin 1))) i j := by
  unfold k4_pay1 Cert.Spec.lin
  -- a cast of a block to its own shape is the block
  simp only [shapeCast_self]
  show (matmul dot_S5000x64_S64x64_S5000x64_1_0_0_1_n_n none (truncf .bf16 x0 bitsLt_bf16_f32) (truncf .bf16 x1 bitsLt_bf16_f32)
        (constant (F := Ideal) S5000x64 .f32 0x00000000#32) : FVec Ideal S5000x64 .f32) (ix2 r j)
      * (broadcastTo S5000x64 x2 broadcasts_S5000x1_S5000x64 : FVec Ideal S5000x64 .f32) (ix2 r j)
    = ((0 : EReal) + ∑ k : Fin 64, h (ix2 i k) * W (ix2 k j)) * d (ix2 i (0 : Fin 1))
  have hp := product_apply (truncf .bf16 x0 bitsLt_bf16_f32) (truncf .bf16 x1 bitsLt_bf16_f32) r j
  have hb : (broadcastTo S5000x64 x2 broadcasts_S5000x1_S5000x64 : FVec Ideal S5000x64 .f32) (ix2 r j) = x2 (ix2 r (0 : Fin 1)) :=
    Cert.LibColumn.broadcastTo_a1_ab_apply x2 broadcasts_S5000x1_S5000x64 r j
  rw [hp, hb, h2, zero_add]
  refine congrArg (· * d (ix2 i (0 : Fin 1))) (Finset.sum_congr rfl fun k _ => ?_)
  show x0 (ix2 r k) * x1 (ix2 k j) = _
  rw [h0 k, h1 k]

/-! ## The blocks in the arrays -/

-- The TensorCore's buffer contents when the region is entered: any.
variable (V : (c : Dev nD) → (b : Ref sig .tc) → Buf (Elt Ideal) ((c : Thread nD τ).loc b))

/-- The features, the weight and the scale column as the region finds them. -/
abbrev harr (c : Dev nD) : Vec Ideal S100000x64 .f32 := V c main_v63
abbrev warr (c : Dev nD) : Vec Ideal S64x64 .f32 := V c main_arg7
abbrev darr (c : Dev nD) : Vec Ideal S100000x1 .f32 := V c main_v16

/-- The result as one function of those arrays: entry (i, j) is (0 + Σ_k h(i, k) · W(k, j)) · d(i). -/
def res (c : Dev nD) : Vec Ideal S100000x64 .f32 := fun i =>
  Cert.Spec.lin (fun i k => harr V c (ix2 i k)) (fun k j => warr V c (ix2 k j)) (fun i => darr V c (ix2 i (0 : Fin 1))) (i 0) (i 1)

/-- The grid has 20 points. -/
theorem npoints : cfg4.N = 20 := N_4

/-- At point t the feature, scale and result windows are at row block t, and the weight window at its one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row r of the feature block at point t is row 5000·t + r of the features. -/
theorem hblk_apply (c : Dev nD) (t : Fin cfg4.N) (r : Fin 5000) (k : Fin 64) (i : Fin 100000) (hi : i.val = t.val * 5000 + r.val) :
    (iblk4 V c 0 t : Vec Ideal S5000x64 .f32) (ix2 r k) = harr V c (ix2 i k) := by
  obtain ⟨e0, e1, -⟩ := idx_facts t
  show V c main_v63 (((cfg4.win 0).blk t).view.emb (ix2 r k)) = V c main_v63 (ix2 i k)
  refine congrArg (V c main_v63) (funext fun a => Fin.ext ?_)
  match a with
  | ⟨0, _⟩ => show win4_0.index t (0 : Fin 2) * 5000 + 1 * r.val = i.val; rw [e0, hi]; omega
  | ⟨1, _⟩ => show win4_0.index t (1 : Fin 2) * 64 + 1 * k.val = k.val; rw [e1]; omega

/-- The weight block at every point is the weight. -/
theorem wblk_apply (c : Dev nD) (t : Fin cfg4.N) (k j : Fin 64) :
    (iblk4 V c 1 t : Vec Ideal S64x64 .f32) (ix2 k j) = warr V c (ix2 k j) := by
  obtain ⟨-, -, e0, e1, -⟩ := idx_facts t
  show V c main_arg7 (((cfg4.win 1).blk t).view.emb (ix2 k j)) = V c main_arg7 (ix2 k j)
  refine congrArg (V c main_arg7) (funext fun a => Fin.ext ?_)
  match a with
  | ⟨0, _⟩ => show win4_1.index t (0 : Fin 2) * 64 + 1 * k.val = k.val; rw [e0]; omega
  | ⟨1, _⟩ => show win4_1.index t (1 : Fin 2) * 64 + 1 * j.val = j.val; rw [e1]; omega

/-- Entry r of the scale block at point t is entry 5000·t + r of the scale column. -/
theorem dblk_apply (c : Dev nD) (t : Fin cfg4.N) (r : Fin 5000) (i : Fin 100000) (hi : i.val = t.val * 5000 + r.val) :
    (iblk4 V c 2 t : Vec Ideal S5000x1 .f32) (ix2 r (0 : Fin 1)) = darr V c (ix2 i (0 : Fin 1)) := by
  obtain ⟨-, -, -, -, e0, e1, -⟩ := idx_facts t
  show V c main_v16 (((cfg4.win 2).blk t).view.emb (ix2 r (0 : Fin 1))) = V c main_v16 (ix2 i (0 : Fin 1))
  refine congrArg (V c main_v16) (funext fun a => Fin.ext ?_)
  match a with
  | ⟨0, _⟩ => show win4_2.index t (0 : Fin 2) * 5000 + 1 * r.val = i.val; rw [e0, hi]; omega
  | ⟨1, _⟩ => show win4_2.index t (1 : Fin 2) * 1 + 1 * 0 = 0; rw [e1]

/-- What point t writes back is block t of the result function. -/
theorem flushed_eq (c : Dev nD) (t : Fin cfg4.N) :
    (dat4 (F := Ideal) V c).flushed 3 t = ((cfg4.win 3).blk t).view.read (Elt Ideal) (res V c) := by
  show (cfg4.win 3).cut (grid4.coords t) ((dat4 (F := Ideal) V c).after 3 t) = _
  rw [after4_3]
  unfold out4_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts t
  have ht : t.val < 20 := by have := t.isLt; have := npoints; omega
  funext y
  obtain ⟨r, j, rfl⟩ : ∃ (r : Fin 5000) (j : Fin 64), y = ix2 r j := ⟨y 0, y 1, eq_ix2 y⟩
  have hr : r.val < 5000 := r.isLt
  have he : ((cfg4.win 3).blk t).view.emb (ix2 r j) = ix2 (⟨t.val * 5000 + r.val, by omega⟩ : Fin 100000) j := by
    funext a; apply Fin.ext
    match a with
    | ⟨0, _⟩ => show win4_3.index t (0 : Fin 2) * 5000 + 1 * r.val = t.val * 5000 + r.val; rw [e0]; omega
    | ⟨1, _⟩ => show win4_3.index t (1 : Fin 2) * 64 + 1 * j.val = j.val; rw [e1]; omega
  show k4_pay1 (F := Ideal) (iblk4 V c 0 t) (iblk4 V c 1 t) (iblk4 V c 2 t) (ix2 r j)
    = res V c (((cfg4.win 3).blk t).view.emb (ix2 r j))
  rw [he]
  exact block_value (iblk4 V c 0 t) (iblk4 V c 1 t) (iblk4 V c 2 t) (harr V c) (warr V c) (darr V c) r j
    (⟨t.val * 5000 + r.val, by omega⟩ : Fin 100000)
    (fun k => hblk_apply V c t r k _ rfl) (fun k => wblk_apply V c t k j) (dblk_apply V c t r _ rfl)

/-! ## From the blocks to the array -/

/-- An index of the result array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v64).slice (win4_3.rect t)).set ↔ _
  rw [View.set_slice_whole, Rect.mem_set_unit]
  exact Iff.rfl

/-- Row i of the result lies in the block of point i / 5000: the blocks tile the array. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN := npoints
  obtain ⟨t, ht⟩ : ∃ t : Fin cfg4.N, t.val = (i 0).val / 5000 := ⟨⟨(i 0).val / 5000, by omega⟩, rfl⟩
  obtain ⟨-, -, -, -, -, -, e0, e1⟩ := idx_facts t
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 64 ≤ (i 1).val ∧ (i 1).val < win4_3.index t (1 : Fin 2) * 64 + 64
    rw [e1]; omega

/-- After the region the result array is the result function of the arrays the region found. -/
theorem final (c : Dev nD) : (dat4 (F := Ideal) V c).arrAt 3 cfg4.N = res V c :=
  (dat4 (F := Ideal) V c).arrAt_eq_of_cover 3 (res V c) (fun t _ => flushed_eq V c t) cover

/-- After the region, entry `(i, j)` of its result array. -/
theorem value (c : Dev nD) (i : Fin 100000) (j : Fin 64) :
    ((dat4 (F := Ideal) V c).arrAt 3 cfg4.N : Vec Ideal S100000x64 .f32) (ix2 i j)
      = Cert.Spec.lin (fun i k => harr V c (ix2 i k)) (fun k j => warr V c (ix2 k j)) (fun i => darr V c (ix2 i (0 : Fin 1))) i j := by
  rw [final V c]
  rfl

end Cert.KernelIdeal.RegLin4

end
-- ==== Proof.RegPost5.lean ====
/-
  A fused epilogue region, read as one whole-array function.
  The region walks 50000 rows of 128 lanes in 10 blocks of 5000 rows; at block t it reads the same rows of the three
  operands and the one bias row, and writes max ((agg + xs) · d + b, 0) entry by entry. The blocks tile the result.
-/
import proofs.«423190_j88252987998746_2_alg».proof.Proof.Gen.KernelIdeal.Frame
import proofs.«423190_j88252987998746_2_alg».proof.Proof.Spec
import proofs.«423190_j88252987998746_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost5

open Idealize.ShloMosaic Idealize.ShloMosaic.ValueIdx Idealize.ShloMosaic.TcCoe
open Idealize.ShloMosaic.Pipeline (Dat Cfg Window)
open Cert.KernelIdeal Cert.KernelIdeal.Gen

-- The TensorCore's buffer contents when the region is entered: any.
variable (V : (c : Dev nD) → (b : Ref sig .tc) → Buf (Elt Ideal) ((c : Thread nD τ).loc b))

/-! ## The body's arithmetic at one entry -/

/-- The two zero offsets, as the constant function. -/
theorem hz : (![0, 0] : Fin 2 → Nat) = fun _ => 0 := funext fun a => by fin_cases a <;> rfl

/-- The epilogue of four arrays, entry by entry: `max ((A + X) · D + B(0, lane), 0)`. -/
def postArr (A X D : Vec Ideal S50000x128 .f32) (B : Vec Ideal S1x128 .f32) : Vec Ideal S50000x128 .f32 :=
  fun i => max ((A i + X i) * D i + B (ix2 (0 : Fin 1) (i 1))) 0

/-- The body's result at entry `(p, q)` of a block: the same arithmetic of the four loaded blocks. -/
theorem pay_apply (x0 x1 x2 : Vec Ideal S5000x128 .f32) (x3 : Vec Ideal S1x128 .f32) (p : Fin 5000) (q : Fin 128) :
    k5_pay1 (F := Ideal) x0 x1 x2 x3 (ix2 p q)
      = max ((x0 (ix2 p q) + x1 (ix2 p q)) * x2 (ix2 p q) + x3 (ix2 (0 : Fin 1) q)) 0 := by
  unfold k5_pay1
  simp only [shapeCast_self]
  rw [maximumf_apply, addf_apply, mulf_apply, addf_apply, broadcast_apply, broadcastTo_1b_ab_apply]
  exact congrArg _ Cert.Algebra.ofBits_zero

/-- The epilogue of four arrays, read at entry `i`, from four blocks read at entry `(p, q)` that hold those arrays'
    entries: the operands at `i`, the bias row at `i`'s lane. -/
theorem entry_eq (A X D : Vec Ideal S50000x128 .f32) (B : Vec Ideal S1x128 .f32)
    (x0 x1 x2 : Vec Ideal S5000x128 .f32) (x3 : Vec Ideal S1x128 .f32) (p : Fin 5000) (q : Fin 128) (i : S50000x128.Idx)
    (h0 : x0 (ix2 p q) = A i) (h1 : x1 (ix2 p q) = X i) (h2 : x2 (ix2 p q) = D i)
    (h3 : x3 (ix2 (0 : Fin 1) q) = B (ix2 (0 : Fin 1) (i 1 : Fin 128))) :
    k5_pay1 (F := Ideal) x0 x1 x2 x3 (ix2 p q) = postArr A X D B i := by
  rw [pay_apply, h0, h1, h2, h3]; rfl

/-! ## The blocks -/

/-- The index maps over the grid: at point `t` the three operands' blocks and the result's are row block `t`, all
    lanes; the bias row's block is the row. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What the body leaves at entry `j` of the result's block at point `t` is the epilogue of the four arrays at the
    array entry that block entry lies on: rows `5000 t + j 0`, lane `j 1`. -/
theorem block_entry (c : Dev nD) (t : Fin cfg5.N) (j : S5000x128.Idx) :
    k5_pay1 (F := Ideal) (iblk5 V c 0 t) (iblk5 V c 1 t) (iblk5 V c 2 t) (iblk5 V c 3 t) j
      = postArr (V c main_v80) (V c main_v81) (V c main_v19) (V c main_v83) (((cfg5.win 4).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e41⟩ := idx_facts t
  refine entry_eq _ _ _ _ _ _ _ _ p q _ ?_ ?_ ?_ ?_
  · show V c main_v80 (((cfg5.win 0).blk t).view.emb (ix2 p q)) = V c main_v80 (((cfg5.win 4).blk t).view.emb (ix2 p q))
    refine congrArg (V c main_v80 : S50000x128.Idx → EReal) (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  · show V c main_v81 (((cfg5.win 1).blk t).view.emb (ix2 p q)) = V c main_v81 (((cfg5.win 4).blk t).view.emb (ix2 p q))
    refine congrArg (V c main_v81 : S50000x128.Idx → EReal) (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  · show V c main_v19 (((cfg5.win 2).blk t).view.emb (ix2 p q)) = V c main_v19 (((cfg5.win 4).blk t).view.emb (ix2 p q))
    refine congrArg (V c main_v19 : S50000x128.Idx → EReal) (funext fun a => Fin.ext ?_)
    match a with
    | ⟨0, _⟩ => show win5_2.index t (0 : Fin 2) * 5000 + 1 * p.val = win5_4.index t (0 : Fin 2) * 5000 + 1 * p.val; omega
    | ⟨1, _⟩ => show win5_2.index t (1 : Fin 2) * 128 + 1 * q.val = win5_4.index t (1 : Fin 2) * 128 + 1 * q.val; omega
  · show V c main_v83 (((cfg5.win 3).blk t).view.emb (ix2 (0 : Fin 1) q))
      = V c main_v83 (ix2 (0 : Fin 1) ((((cfg5.win 4).blk t).view.emb (ix2 p q)) 1 : Fin 128))
    refine congrArg (V c main_v83 : S1x128.Idx → EReal) (funext fun a => Fin.ext ?_)
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega

/-- What point `t` writes back is block `t` of the epilogue of the four arrays as the region finds them. -/
theorem flushed_eq (c : Dev nD) (t : Fin cfg5.N) :
    (dat5 (F := Ideal) V c).flushed 4 t
      = ((cfg5.win 4).blk t).view.read (Elt Ideal) (postArr (V c main_v80) (V c main_v81) (V c main_v19) (V c main_v83)) := by
  show (cfg5.win 4).cut (grid5.coords t) ((dat5 V c).after 4 t) = _
  rw [after5_4]
  unfold out5_4
  rw [View.canon_unit_zero hz]
  simp only [View.ld_unit_zero (S := S5000x128) hz, View.ld_unit_zero (S := S1x128) hz]
  funext j
  exact block_entry V c t j

/-- An entry of the result array is in point `t`'s block iff each coordinate is in the block's range on its axis. -/
theorem mem_blk (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v84).slice (win5_4.rect t)).set ↔ _
  rw [View.set_slice_whole, Rect.mem_set_unit]
  exact Iff.rfl

/-- The ten blocks of 5000 rows tile the 50000 rows: row `r` lies in block `r / 5000`. -/
theorem cover (i : S50000x128.Idx) :
    ∃ t : Fin cfg5.N, (cfg5.win 4).flush t = true ∧ i ∈ ((cfg5.win 4).blk t).view.set := by
  have hi0 : (i 0).val < 50000 := idx2_lt0 i
  have hi1 : (i 1).val < 128 := idx2_lt1 i
  have hN : cfg5.N = 10 := N_5
  have ht : (i 0).val / 5000 < cfg5.N := by rw [hN]; omega
  obtain ⟨-, -, -, -, -, -, -, -, e40, e41⟩ := idx_facts ⟨(i 0).val / 5000, ht⟩
  refine ⟨⟨(i 0).val / 5000, ht⟩, flush5_4 _, ?_⟩
  rw [mem_blk]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [e41]; omega

/-- So the result array ends holding the epilogue of the four arrays as the region finds them. -/
theorem final (c : Dev nD) :
    (dat5 (F := Ideal) V c).arrAt 4 cfg5.N = postArr (V c main_v80) (V c main_v81) (V c main_v19) (V c main_v83) :=
  (dat5 (F := Ideal) V c).arrAt_eq_of_cover 4 _ (fun t _ => flushed_eq V c t) cover

/-! ## The region's result, entry by entry -/

/-- The operands as the region finds them. -/
abbrev aarr (c : Dev nD) : Vec Ideal S50000x128 .f32 := V c main_v80
abbrev xarr (c : Dev nD) : Vec Ideal S50000x128 .f32 := V c main_v81
abbrev darr (c : Dev nD) : Vec Ideal S50000x128 .f32 := V c main_v19
abbrev barr (c : Dev nD) : Vec Ideal S1x128 .f32 := V c main_v83

/-- After the region, entry `(r, l)` of its result array. -/
theorem value (c : Dev nD) (r : Fin 50000) (l : Fin 128) :
    ((dat5 (F := Ideal) V c).arrAt 4 cfg5.N : Vec Ideal S50000x128 .f32) (ix2 r l)
      = Cert.Spec.post (fun r l => aarr V c (ix2 r l)) (fun r l => xarr V c (ix2 r l)) (fun r l => darr V c (ix2 r l))
          (fun l => barr V c (ix2 (0 : Fin 1) l)) r l :=
  (congrFun (final V c) (ix2 r l)).trans rfl

end Cert.KernelIdeal.RegPost5

end
-- ==== Proof.KLayer2.lean ====
/-
  The first layer of the kernel's program, from the contents its projection region is entered with to the contents
  its epilogue region leaves: a whole-array reading.
  The projection region writes xs = (h · W) scaled row by row by d. The host stretch gathers xs at the wrapped source
  words, scatter-adds the gathered rows at the wrapped target words into zeros, and lays both that sum and xs out as
  50000 rows of 128 lanes (two node rows side by side), with the bias repeated twice along the lanes. The epilogue
  region then writes max ((sum + xs) · d + b, 0). Entry (r, l) of its result is the layer's entry (2r + l / 64, l % 64).
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.RegLin4
import proofs.«423190_j88252987998746_2_alg».proof.Proof.RegPost5
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KLayer2

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

/-! ## The layout of two node rows side by side -/

/-- The node row and the column that lane `l` of merged row `r` holds. -/
def nodeOf (r : Fin 50000) (l : Fin 128) : Fin 100000 := ⟨2 * r.val + l.val / 64, by omega⟩
def colOf (l : Fin 128) : Fin 64 := ⟨l.val % 64, by omega⟩

/-- Entry `(nodeOf r l, colOf l)` of 100000 rows of 64 has the row-major position of entry `(r, l)` of 50000 rows of 128. -/
theorem nodeOf_colOf (r : Fin 50000) (l : Fin 128) : (nodeOf r l).val * 64 + (colOf l).val = r.val * 128 + l.val := by
  show (2 * r.val + l.val / 64) * 64 + l.val % 64 = r.val * 128 + l.val
  omega

/-- An array of 100000 rows of 64 laid out as 50000 rows of 128 reads, at `(r, l)`, its entry `(nodeOf r l, colOf l)`. -/
theorem merged_apply {α : Type} (x : S100000x64.Idx → α) (r : Fin 50000) (l : Fin 128) :
    shapeCast S50000x128 x shapeCasts_S100000x64_S50000x128 (ix2 r l) = x (ix2 (nodeOf r l) (colOf l)) :=
  shapeCast_apply x _ _ _ (by
    rw [Shape.rowMajor_val_two, Shape.rowMajor_val_two]
    exact nodeOf_colOf r l)

/-- A vector of 64 entries repeated twice and kept as one row of 128 lanes reads, at lane `l`, its entry `l % 64`. -/
theorem biasRow_apply {α : Type} (b : S64.Idx → α) (l : Fin 128) :
    shapeCast S1x128 (concatenate S128 0 [⟨S64, b⟩, ⟨S64, b⟩] concatenates_S64_S64_S128_d0) shapeCasts_S128_S1x128
      (ix2 (0 : Fin 1) l) = b (ix1 (colOf l)) := by
  rw [shapeCast_apply _ _ (ix2 (0 : Fin 1) l) (ix1 l) (by
    rw [Shape.rowMajor_val_two, Shape.rowMajor_val_one]
    show l.val = 0 * 128 + l.val
    omega)]
  by_cases hl : l.val < 64
  · exact concatenate_pair_apply_left (0 : Fin 1) b b _ (ix1 l) rfl (ix1 (colOf l)) (fun a => by
      obtain rfl : a = 0 := Subsingleton.elim _ _
      show l.val % 64 = l.val
      omega)
  · exact concatenate_pair_apply_right (0 : Fin 1) b b _ (ix1 l) rfl rfl (ix1 (colOf l))
      (fun a ha => absurd (Subsingleton.elim _ _) ha) (by
        show l.val % 64 + 64 = l.val
        omega)

/-! ## The host stretch's arithmetic over arrays given by literal type -/

/-- The printed gather and scatter records are the row gather and the row scatter at the literal sizes. -/
theorem gather_eq : gather_S100000x64_S1000000x1_S1000000x64_1_0_n_n_0_1_164
    = rowGather 100000 1000000 64 gather_S100000x64_S1000000x1_S1000000x64_1_0_n_n_0_1_164_wf := rfl
theorem scatter_eq : scatter_S100000x64_S1000000x1_S1000000x64_1_0_0_1
    = rowScatter 100000 1000000 64 scatter_S100000x64_S1000000x1_S1000000x64_1_0_0_1_wf := rfl

/-- A vector of words wrapped (a negative word has 100000 added) and kept as a column of start words. -/
def wrapCol (z : IVec S1000000 32) : IVec S1000000x1 32 :=
  broadcastInDim S1000000x1 ![0] bcast_S1000000_S1000000x1_0
    (select (cmpi .slt z (broadcastInDim S1000000 ![] bcast_S_S1000000 (constantI S_ 32 0#32)))
      (addi z (broadcastInDim S1000000 ![] bcast_S_S1000000 (constantI S_ 32 100000#32))) z)

/-- Start word `e` of the column is word `e`, wrapped. -/
theorem wrapCol_apply (z : IVec S1000000 32) (e : Fin 1000000) :
    wrapCol z (ix2 e (0 : Fin 1)) = wrapWord 100000#32 (z (ix1 e)) := by
  unfold wrapCol
  rw [broadcastInDim_apply ![0] _ _ (ix2 e (0 : Fin 1)) (ix1 e) (fun a => by
    obtain rfl : a = 0 := Subsingleton.elim _ _
    show e.val = if (1000000 : ℕ) = 1 then 0 else e.val
    rw [if_neg (by decide)])]
  rfl

/-- The messages summed: the rows of `xs` gathered at the wrapped source words, scatter-added into zeros at the wrapped
    target words. -/
def aggArr (xs : Vec Ideal S100000x64 .f32) (sw dw : IVec S1000000 32) : Vec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (wrapCol dw)
    (Host.gather gather_S100000x64_S1000000x1_S1000000x64_1_0_n_n_0_1_164 xs (wrapCol sw))

/-- Entry `(i, j)` of the summed messages: zero plus, over the edges whose wrapped target word names row `i`, entry
    `j` of the row of `xs` the wrapped source word names after clamping. -/
theorem aggArr_apply (xs : Vec Ideal S100000x64 .f32) (sw dw : IVec S1000000 32) (i : Fin 100000) (j : Fin 64) :
    aggArr xs sw dw (ix2 i j)
      = (0 : EReal) + ∑ e ∈ Finset.univ.filter (fun e : Fin 1000000 => rowOf? 100000 (wrapWord 100000#32 (dw (ix1 e))) = some i),
          xs (ix2 (clampRow 100000 (by decide) (wrapWord 100000#32 (sw (ix1 e)))) j) := by
  unfold aggArr
  rw [scatter_eq, gather_eq, rowScatterAdd_apply]
  simp only [wrapCol_apply, rowGather_apply (by decide : 0 < 100000)]
  exact congrArg (· + _) Cert.Algebra.ofBits_zero

/-! ## The host stretch read at the buffers the epilogue region takes -/

section Host
variable (W : Valuation τ sig (Elt Ideal))

/-- The summed messages laid out on 128 lanes. -/
theorem host_v36 :
    (StableHlo.after (hostOps5 (F := Ideal)) W (Proc.devRef .tc main_v80) : Vec Ideal S50000x128 .f32)
      = shapeCast S50000x128 (aggArr (W (Proc.devRef .tc main_v64)) (W (Proc.devRef .tc main_v1)) (W (Proc.devRef .tc main_v3)))
          shapeCasts_S100000x64_S50000x128 := by
  after_results_simp
  rfl

/-- The projected features laid out on 128 lanes. -/
theorem host_v37 :
    (StableHlo.after (hostOps5 (F := Ideal)) W (Proc.devRef .tc main_v81) : Vec Ideal S50000x128 .f32)
      = shapeCast S50000x128 (W (Proc.devRef .tc main_v64) : Vec Ideal S100000x64 .f32) shapeCasts_S100000x64_S50000x128 := by
  after_results_simp
  rfl

/-- The bias repeated twice, as one row of 128 lanes. -/
theorem host_v39 :
    (StableHlo.after (hostOps5 (F := Ideal)) W (Proc.devRef .tc main_v83) : Vec Ideal S1x128 .f32)
      = shapeCast S1x128 (concatenate S128 0 [⟨S64, (W (Proc.devRef .tc main_arg8) : Vec Ideal S64 .f32)⟩,
          ⟨S64, (W (Proc.devRef .tc main_arg8) : Vec Ideal S64 .f32)⟩] concatenates_S64_S64_S128_d0) shapeCasts_S128_S1x128 := by
  after_results_simp
  rfl

/-- A buffer of the list is written by no operation of the stretch. -/
theorem host_keep (b : Ref sig .tc) (hb : b ∈ ([main_v1, main_v3, main_v16, main_v19, main_arg2, main_arg5, main_arg6, main_arg7, main_arg8, main_arg9, main_arg10, main_arg11, main_arg12] : List (Ref sig .tc))) :
    StableHlo.after (hostOps5 (F := Ideal)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem hb (by decide))))

end Host

/-! ## The layer -/

-- the buffer contents when the projection region is entered: any
variable (Wa : Dev nD → Valuation τ sig (Elt Ideal))

/-- The same, read at the TensorCore's references. -/
abbrev Va : (c : Dev nD) → (b : Ref sig .tc) → Buf (Elt Ideal) ((c : Thread nD τ).loc b) := fun c b => Wa c b
/-- After the projection region: its arrays at what its write-backs leave, every other buffer as entered. -/
def Wb (c : Dev nD) : Valuation τ sig (Elt Ideal) :=
  Pipeline.withArrays spec4 c (Wa c) fun w => (dat4 (Va Wa) c).arrAt w cfg4.N
/-- After the host stretch between the two regions. -/
abbrev Wc : Dev nD → Valuation τ sig (Elt Ideal) := fun c => StableHlo.after hostOps5 (Wb Wa c)
abbrev Vc : (c : Dev nD) → (b : Ref sig .tc) → Buf (Elt Ideal) ((c : Thread nD τ).loc b) := fun c b => Wc Wa c b
/-- After the epilogue region. -/
def Wd (c : Dev nD) : Valuation τ sig (Elt Ideal) :=
  Pipeline.withArrays spec5 c (Wc Wa c) fun w => (dat5 (Vc Wa) c).arrAt w cfg5.N

/-- The entry contents by literal type: source words, target words, the scale column, the scale laid out on 128
    lanes, the features, the weight, the bias. -/
abbrev srcw (c : Dev nD) : IVec S1000000 32 := Wa c (Proc.devRef .tc main_v1)
abbrev dstw (c : Dev nD) : IVec S1000000 32 := Wa c (Proc.devRef .tc main_v3)
abbrev dcol (c : Dev nD) : Vec Ideal S100000x1 .f32 := Wa c (Proc.devRef .tc main_v16)
abbrev dtil (c : Dev nD) : Vec Ideal S50000x128 .f32 := Wa c (Proc.devRef .tc main_v19)
abbrev feat (c : Dev nD) : Vec Ideal S100000x64 .f32 := Wa c (Proc.devRef .tc main_v63)
abbrev wgt (c : Dev nD) : Vec Ideal S64x64 .f32 := Wa c (Proc.devRef .tc main_arg7)
abbrev bias (c : Dev nD) : Vec Ideal S64 .f32 := Wa c (Proc.devRef .tc main_arg8)

/-! ### What each region leaves at a buffer -/

/-- After the projection region each of its arrays holds what its write-backs leave. -/
theorem Wb_arr (c : Dev nD) (w : Fin cfg4.W) :
    Wb Wa c (Proc.devRef .tc (Pipeline.arrRef spec4 w)) = (dat4 (Va Wa) c).arrAt w cfg4.N := by
  unfold Wb; exact Pipeline.withArrays_arr spec4 launch4.win.arr_inj c _ _ w

/-- A buffer that is not an output array of the projection region is as entered: an input window's array is never
    written back, and a buffer that is none of the arrays is untouched. -/
theorem Wb_keep (c : Dev nD) (b : Ref sig .tc) (h : ∀ w, Pipeline.arrRef spec4 w = b → (cfg4.win w).isOut = false) :
    Wb Wa c (Proc.devRef .tc b) = Wa c (Proc.devRef .tc b) := by
  by_cases hex : ∃ w, Pipeline.arrRef spec4 w = b
  · obtain ⟨w, rfl⟩ := hex
    rw [Wb_arr, (dat4 (Va Wa) c).arrAt_in w (h w rfl) _, A_eq4]
  · unfold Wb; exact Pipeline.withArrays_of_ne spec4 c _ _ b fun w e => hex ⟨w, e⟩

/-- After the epilogue region each of its arrays holds what its write-backs leave. -/
theorem Wd_arr (c : Dev nD) (w : Fin cfg5.W) :
    Wd Wa c (Proc.devRef .tc (Pipeline.arrRef spec5 w)) = (dat5 (Vc Wa) c).arrAt w cfg5.N := by
  unfold Wd; exact Pipeline.withArrays_arr spec5 launch5.win.arr_inj c _ _ w

/-- A buffer that is not an output array of the epilogue region is as the region found it. -/
theorem Wd_keep (c : Dev nD) (b : Ref sig .tc) (h : ∀ w, Pipeline.arrRef spec5 w = b → (cfg5.win w).isOut = false) :
    Wd Wa c (Proc.devRef .tc b) = Wc Wa c (Proc.devRef .tc b) := by
  by_cases hex : ∃ w, Pipeline.arrRef spec5 w = b
  · obtain ⟨w, rfl⟩ := hex
    rw [Wd_arr, (dat5 (Vc Wa) c).arrAt_in w (h w rfl) _, A_eq5]
  · unfold Wd; exact Pipeline.withArrays_of_ne spec5 c _ _ b fun w e => hex ⟨w, e⟩

/-- A buffer that neither region writes and no host operation of the stretch writes is as entered. -/
theorem keep (c : Dev nD) (b : Ref sig .tc) (hb : b ∈ ([main_v1, main_v3, main_v16, main_v19, main_arg2, main_arg5, main_arg6, main_arg7, main_arg8, main_arg9, main_arg10, main_arg11, main_arg12] : List (Ref sig .tc))) :
    Wd Wa c (Proc.devRef .tc b) = Wa c (Proc.devRef .tc b) := by
  have h0 : ∀ w, Pipeline.arrRef spec4 w = b → (cfg4.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec4 w = b → (cfg4.win w).isOut = false) b hb
  have h1 : ∀ w, Pipeline.arrRef spec5 w = b → (cfg5.win w).isOut = false :=
    (by decide : ∀ b ∈ ([main_v1, main_v3, main_v16, main_v19, main_arg2, main_arg5, main_arg6, main_arg7, main_arg8, main_arg9, main_arg10, main_arg11, main_arg12] : List (Ref sig .tc)), ∀ w, Pipeline.arrRef spec5 w = b → (cfg5.win w).isOut = false) b hb
  exact (Wd_keep Wa c b h1).trans ((host_keep (Wb Wa c) b hb).trans (Wb_keep Wa c b h0))

/-- After the epilogue region, entry `(r, l)` of its result array is the layer's entry at the node row and column
    that lane holds — provided the scale laid out on 128 lanes is the scale column's entry for that node row. -/
theorem value (c : Dev nD)
    (hd : ∀ (r : Fin 50000) (l : Fin 128), dtil Wa c (ix2 r l) = dcol Wa c (ix2 (nodeOf r l) (0 : Fin 1)))
    (r : Fin 50000) (l : Fin 128) :
    (Wd Wa c (Proc.devRef .tc main_v84) : Vec Ideal S50000x128 .f32) (ix2 r l)
      = Cert.Spec.kLayer
          (fun e i => rowOf? 100000 (wrapWord 100000#32 (dstw Wa c (ix1 e))) = some i)
          (fun e => clampRow 100000 (by decide) (wrapWord 100000#32 (srcw Wa c (ix1 e))))
          (fun i => dcol Wa c (ix2 i (0 : Fin 1)))
          (fun i k => feat Wa c (ix2 i k)) (fun k j => wgt Wa c (ix2 k j)) (fun j => bias Wa c (ix1 j))
          (nodeOf r l) (colOf l) := by
  -- what the host stretch reads: the projection's result, and three buffers the projection region leaves alone
  have hxs : ∀ (i : Fin 100000) (j : Fin 64), (Wb Wa c (Proc.devRef .tc main_v64) : Vec Ideal S100000x64 .f32) (ix2 i j)
      = Cert.Spec.lin (fun i k => feat Wa c (ix2 i k)) (fun k j => wgt Wa c (ix2 k j)) (fun i => dcol Wa c (ix2 i (0 : Fin 1))) i j :=
    fun i j => (congrFun (Wb_arr Wa c 3) (ix2 i j)).trans (RegLin4.value (Va Wa) c i j)
  have h1 : (Wb Wa c (Proc.devRef .tc main_v1) : IVec S1000000 32) = srcw Wa c := Wb_keep Wa c main_v1 (by decide)
  have h3 : (Wb Wa c (Proc.devRef .tc main_v3) : IVec S1000000 32) = dstw Wa c := Wb_keep Wa c main_v3 (by decide)
  have h4 : (Wb Wa c (Proc.devRef .tc main_arg8) : Vec Ideal S64 .f32) = bias Wa c := Wb_keep Wa c main_arg8 (by decide)
  -- the four arrays the epilogue region is entered with, at the entries it reads
  have e36 : RegPost5.aarr (Vc Wa) c (ix2 r l)
      = (0 : EReal) + ∑ e ∈ Finset.univ.filter (fun e : Fin 1000000 => rowOf? 100000 (wrapWord 100000#32 (dstw Wa c (ix1 e))) = some (nodeOf r l)),
          Cert.Spec.lin (fun i k => feat Wa c (ix2 i k)) (fun k j => wgt Wa c (ix2 k j)) (fun i => dcol Wa c (ix2 i (0 : Fin 1)))
            (clampRow 100000 (by decide) (wrapWord 100000#32 (srcw Wa c (ix1 e)))) (colOf l) := by
    show (StableHlo.after (hostOps5 (F := Ideal)) (Wb Wa c) (Proc.devRef .tc main_v80) : Vec Ideal S50000x128 .f32) (ix2 r l) = _
    rw [host_v36 (Wb Wa c), merged_apply, h1, h3, aggArr_apply]
    exact congrArg _ (Finset.sum_congr rfl fun e _ => hxs _ _)
  have e37 : RegPost5.xarr (Vc Wa) c (ix2 r l)
      = Cert.Spec.lin (fun i k => feat Wa c (ix2 i k)) (fun k j => wgt Wa c (ix2 k j)) (fun i => dcol Wa c (ix2 i (0 : Fin 1)))
          (nodeOf r l) (colOf l) := by
    show (StableHlo.after (hostOps5 (F := Ideal)) (Wb Wa c) (Proc.devRef .tc main_v81) : Vec Ideal S50000x128 .f32) (ix2 r l) = _
    rw [host_v37 (Wb Wa c), merged_apply]
    exact hxs _ _
  have e19 : RegPost5.darr (Vc Wa) c (ix2 r l) = dcol Wa c (ix2 (nodeOf r l) (0 : Fin 1)) := by
    show (StableHlo.after (hostOps5 (F := Ideal)) (Wb Wa c) (Proc.devRef .tc main_v19) : Vec Ideal S50000x128 .f32) (ix2 r l) = _
    rw [host_keep (Wb Wa c) main_v19 (by decide), Wb_keep Wa c main_v19 (by decide)]
    exact hd r l
  have e39 : RegPost5.barr (Vc Wa) c (ix2 (0 : Fin 1) l) = bias Wa c (ix1 (colOf l)) := by
    show (StableHlo.after (hostOps5 (F := Ideal)) (Wb Wa c) (Proc.devRef .tc main_v83) : Vec Ideal S1x128 .f32) (ix2 (0 : Fin 1) l) = _
    rw [host_v39 (Wb Wa c), h4, biasRow_apply]
  -- the epilogue region's result at (r, l)
  refine (congrFun (Wd_arr Wa c 4) (ix2 r l)).trans ((RegPost5.value (Vc Wa) c r l).trans ?_)
  show max ((RegPost5.aarr (Vc Wa) c (ix2 r l) + RegPost5.xarr (Vc Wa) c (ix2 r l)) * RegPost5.darr (Vc Wa) c (ix2 r l)
      + RegPost5.barr (Vc Wa) c (ix2 (0 : Fin 1) l)) 0 = _
  rw [e36, e37, e19, e39]
  rfl

end Cert.KernelIdeal.KLayer2

end
-- ==== Proof.RegPool.lean ====
/-
  The pooling region, read as one whole-array function.
  The region walks the 100000 node rows in 20 blocks of 5000; its one 512 × 64 result block is the same at every
  point, reset to zero at the first point and carried from point to point. At block t it adds, to entry (g, j), the
  sum over the block's rows r of [batch(r) = g] · h(r, j) (a product with the 0/1 membership matrix, from a zero
  accumulator). After the last point entry (g, j) is the sum over all 100000 rows.
-/
import proofs.«423190_j88252987998746_2_alg».proof.Proof.Gen.KernelIdeal.Frame
import proofs.«423190_j88252987998746_2_alg».proof.Proof.Spec
import proofs.«423190_j88252987998746_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPool

open Idealize.ShloMosaic Idealize.ShloMosaic.ValueIdx Idealize.ShloMosaic.TcCoe
open Idealize.ShloMosaic.Pipeline (Dat Cfg Window)
open Cert.KernelIdeal Cert.KernelIdeal.Gen

/-! ## What each control case leaves in the result block -/

section Pieces
variable {F : FTy → Type} [FloatOps F]

theorem hz : (![0, 0] : Fin 2 → Nat) = fun _ => 0 := funext fun a => by fin_cases a <;> rfl

/-- At a point that is not the first the body leaves, over the carried block `xo`, the update of `xo` by the
    point's two input blocks. -/
theorem out_B (c : Dev nD) (i : grid6.Coords) (a1 : Memref sig .tc .vmem S5000x64 .f32) (h1 : a1.IsWhole)
    (a2 : Memref sig .tc .vmem S5000x1 .i32) (h2 : a2.IsWhole) (a3 : Memref sig .tc .vmem S512x64 .f32) (h3 : a3.IsWhole)
    (hc : ¬cond6_0 i) (x0 : Vec F S5000x64 .f32) (x1 : Vec F S5000x1 .i32) (xo : Vec F S512x64 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S5000x1) hz,
    View.ld_unit_zero (S := S5000x64) hz, View.ld_unit_zero (S := S512x64) hz]

/-- At the first point the body stores the zero block, reads it back, and leaves its update by the point's two
    input blocks. -/
theorem out_A (c : Dev nD) (i : grid6.Coords) (a1 : Memref sig .tc .vmem S5000x64 .f32) (h1 : a1.IsWhole)
    (a2 : Memref sig .tc .vmem S5000x1 .i32) (h2 : a2.IsWhole) (a3 : Memref sig .tc .vmem S512x64 .f32) (h3 : a3.IsWhole)
    (hc : cond6_0 i) (x0 : Vec F S5000x64 .f32) (x1 : Vec F S5000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S512x64) hz, View.readCov_unit_zero (S := S512x64) _ hz]
  simp only [View.readAt_eq_ld, h1.read_unread, h2.read_unread, View.ld_unit_zero (S := S5000x1) hz,
    View.ld_unit_zero (S := S5000x64) hz]

end Pieces

/-! ## The update at an entry, over the extended reals -/

/-- The membership word widened and converted: 1 where the two words agree, 0 elsewhere. -/
theorem onehot_word (a b : BitVec 32) :
    (((((IntOp.cmpi .eq a b).setWidth 32).toInt : ℤ) : ℝ) : EReal) = if a = b then (1 : EReal) else 0 := by
  by_cases h : a = b
  · have e : IntOp.cmpi .eq a b = 1#1 := by simp [IntOp.cmpi, h]
    rw [e, if_pos h]
    have e1 : ((1#1 : BitVec 1).setWidth 32).toInt = 1 := by decide
    rw [e1]; norm_num
  · have e : IntOp.cmpi .eq a b = 0#1 := by
      show BitVec.ofBool (a == b) = 0#1
      rw [beq_eq_false_iff_ne.mpr h]; rfl
    rw [e, if_neg h]
    have e0 : ((0#1 : BitVec 1).setWidth 32).toInt = 0 := by decide
    rw [e0]; norm_num

/-- The product's dimension numbers: both operands are contracted along their rows. -/
abbrev dd : DotDims S5000x512 S5000x64 S512x64 := dot_S5000x512_S5000x64_S512x64_0_0_1_1_n_n

/-- The contraction index is the row number. -/
abbrev rowEquiv : dd.contr.Idx ≃ Fin 5000 := contrEquiv1 dd 5000 rfl rfl

/-- At result entry (g, j) and row r the left operand is read at (r, g), -/
theorem lhs_at (g : Fin 512) (j : Fin 64) (r : Fin 5000) :
    dd.lhsIdx (ix2 g j) (rowEquiv.symm r) = ix2 r g := by
  funext a
  apply Fin.ext
  match a with
  | ⟨0, _⟩ =>
    refine (dd.lhsIdx_val_of_single (cl := (0 : Fin 2)) rfl (ix2 g j) (rowEquiv.symm r)).trans ?_
    exact contrEquiv1_symm_val dd 5000 rfl rfl r
  | ⟨1, _⟩ => rfl

/-- and the right operand at (r, j). -/
theorem rhs_at (g : Fin 512) (j : Fin 64) (r : Fin 5000) :
    dd.rhsIdx (ix2 g j) (rowEquiv.symm r) = ix2 r j := by
  funext a
  apply Fin.ext
  match a with
  | ⟨0, _⟩ =>
    refine (dd.rhsIdx_val_of_single (cr := (0 : Fin 2)) rfl (ix2 g j) (rowEquiv.symm r)).trans ?_
    exact contrEquiv1_symm_val dd 5000 rfl rfl r
  | ⟨1, _⟩ => rfl

/-- The zero block is zero at every entry. -/
theorem pay1_apply (y : S512x64.Idx) : (k6_pay1 (F := Ideal) y : EReal) = 0 := Ideal.ofBits_zero_f32

/-- The membership factor at (r, g): 1 where row r's graph id is g, 0 elsewhere. -/
theorem onehot_apply (v4 : Vec Ideal S5000x1 .i32) (r : Fin 5000) (g : Fin 512) :
    (truncf (F := Ideal) .bf16 (sitofp .f32 (extui 32 (cmpi .eq
        (broadcastTo S5000x512 (shapeCast S5000x1 v4 shapeCasts_S5000x1_S5000x1) broadcasts_S5000x1_S5000x512)
        (iota .tc S5000x512 32 [1] iota_S5000x512_d1_w32)) natLt_1_32)) bitsLt_bf16_f32 (ix2 r g) : EReal)
      = if v4 (ix2 r (0 : Fin 1)) = BitVec.ofNat 32 g.val then (1 : EReal) else 0 := by
  show (((((IntOp.cmpi .eq (broadcastTo S5000x512 (shapeCast S5000x1 v4 shapeCasts_S5000x1_S5000x1) broadcasts_S5000x1_S5000x512 (ix2 r g))
      (iota .tc S5000x512 32 [1] iota_S5000x512_d1_w32 (ix2 r g))).setWidth 32).toInt : ℤ) : ℝ) : EReal) = _
  rw [Cert.LibColumn.broadcastTo_a1_ab_apply, shapeCast_self, iota_single_apply, onehot_word]

/-- The update at entry (g, j): the carried entry plus the sum over the block's rows of membership times feature. -/
theorem pay2_apply (v4 : Vec Ideal S5000x1 .i32) (v11 : Vec Ideal S5000x64 .f32) (v15 : Vec Ideal S512x64 .f32)
    (g : Fin 512) (j : Fin 64) :
    (k6_pay2 (F := Ideal) v4 v11 v15 (ix2 g j) : EReal)
      = (v15 (ix2 g j) : EReal)
        + ∑ r : Fin 5000, (if v4 (ix2 r (0 : Fin 1)) = BitVec.ofNat 32 g.val then (1 : EReal) else 0) * (v11 (ix2 r j) : EReal) := by
  unfold k6_pay2
  dsimp only
  refine (addf_apply _ _ (ix2 g j)).trans ?_
  refine congrArg₂ (· + ·) (congrFun (shapeCast_self v15 _) (ix2 g j)) ?_
  refine (Ideal.matmul_constant_zero_apply dd none _ _ (ix2 g j)).trans ?_
  refine (Equiv.sum_comp rowEquiv.symm _).symm.trans ?_
  refine Finset.sum_congr rfl fun r _ => ?_
  rw [lhs_at, rhs_at]
  refine congrArg₂ (· * ·) (onehot_apply v4 r g) ?_
  exact congrFun (shapeCast_self v11 _) (ix2 r j)

/-! ## The region's blocks and the running sums -/

section Region

-- The TensorCore's buffer contents when the region is entered: any.
variable (V : (c : Dev nD) → (b : Ref sig .tc) → Buf (Elt Ideal) ((c : Thread nD τ).loc b))

/-- The node features and the graph-id column as the region finds them. -/
abbrev harr (c : Dev nD) : Vec Ideal S100000x64 .f32 := V c main_v85
abbrev barr (c : Dev nD) : IVec S100000x1 32 := V c main_v86

/-- The two input blocks at point `t`. -/
abbrev hblk (c : Dev nD) (t : Fin cfg6.N) : Vec Ideal S5000x64 .f32 := iblk6 V c 0 t
abbrev bblk (c : Dev nD) (t : Fin cfg6.N) : IVec S5000x1 32 := iblk6 V c 1 t

/-- The index maps over the grid: both inputs walk the row blocks in order, the result block never moves. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

theorem hN : cfg6.N = 20 := N_6

/-- Row `r` of block `t` is row `5000 t + r` of the array. -/
def rowOf (t : Fin cfg6.N) (r : Fin 5000) : Fin 100000 :=
  ⟨5000 * t.val + r.val, by have := lt_of_lt_of_eq t.isLt hN; have := r.isLt; omega⟩

theorem hblk_apply (c : Dev nD) (t : Fin cfg6.N) (r : Fin 5000) (k : Fin 64) :
    hblk V c t (ix2 r k) = harr V c (ix2 (rowOf t r) k) := by
  obtain ⟨e0, e1, -⟩ := idx_facts t
  unfold hblk iblk6
  rw [View.read_apply]
  show V c main_v85 _ = V c main_v85 _
  congr 1
  funext a
  apply Fin.ext
  match a with
  | ⟨0, _⟩ => show win6_0.index t (0 : Fin 2) * 5000 + 1 * r.val = 5000 * t.val + r.val; rw [e0]; omega
  | ⟨1, _⟩ => show win6_0.index t (1 : Fin 2) * 64 + 1 * k.val = k.val; rw [e1]; omega

theorem bblk_apply (c : Dev nD) (t : Fin cfg6.N) (r : Fin 5000) :
    bblk V c t (ix2 r (0 : Fin 1)) = barr V c (ix2 (rowOf t r) (0 : Fin 1)) := by
  obtain ⟨-, -, e0, e1, -⟩ := idx_facts t
  unfold bblk iblk6
  rw [View.read_apply]
  show V c main_v86 _ = V c main_v86 _
  congr 1
  funext a
  apply Fin.ext
  match a with
  | ⟨0, _⟩ => show win6_1.index t (0 : Fin 2) * 5000 + 1 * r.val = 5000 * t.val + r.val; rw [e0]; omega
  | ⟨1, _⟩ => show win6_1.index t (1 : Fin 2) * 1 + 1 * 0 = 0; rw [e1]

/-- What row `i` of the array adds to entry (g, j): its feature where its graph id is g, nothing elsewhere. -/
abbrev term (c : Dev nD) (g : Fin 512) (j : Fin 64) (i : Fin 100000) : EReal :=
  (if barr V c (ix2 i (0 : Fin 1)) = BitVec.ofNat 32 g.val then (1 : EReal) else 0) * (harr V c (ix2 i j) : EReal)

/-- What block `s` adds to entry (g, j) (nothing past the grid). -/
def addend (c : Dev nD) (g : Fin 512) (j : Fin 64) (s : ℕ) : EReal :=
  if h : s < cfg6.N then ∑ r : Fin 5000, term V c g j (rowOf ⟨s, h⟩ r) else 0

/-- At the first point the block is left at zero plus the point's block sum. -/
theorem step_A (c : Dev nD) (g : Fin 512) (j : Fin 64) (t : Fin cfg6.N) (h0 : t.val % 20 = 0) :
    (outsAt6 V c t.val t.isLt (ix2 g j) : EReal) = 0 + ∑ r : Fin 5000, term V c g j (rowOf t r) := by
  rw [outsAt6_A V c t h0]
  refine (congrFun (out_A (F := Ideal) c (grid6.coords t) (ms6_0 t) (hs6_0 t) (ms6_1 t) (hs6_1 t) (ms6_2 t) (hs6_2 t)
    ((hcond6_0 t).mpr h0) (hblk V c t) (bblk V c t)) (ix2 g j)).trans ?_
  refine (pay2_apply (bblk V c t) (hblk V c t) (k6_pay1 (F := Ideal)) g j).trans ?_
  refine congrArg₂ (· + ·) (pay1_apply _) (Finset.sum_congr rfl fun r _ => ?_)
  rw [bblk_apply, hblk_apply]

/-- At a later point the block is what the point before left plus the point's block sum. -/
theorem step_B (c : Dev nD) (g : Fin 512) (j : Fin 64) (t : Fin cfg6.N) (h0 : ¬t.val % 20 = 0) :
    (outsAt6 V c t.val t.isLt (ix2 g j) : EReal)
      = (outsAt6 V c (t.val - 1) (Nat.lt_of_le_of_lt (Nat.sub_le _ _) t.isLt) (ix2 g j) : EReal)
        + ∑ r : Fin 5000, term V c g j (rowOf t r) := by
  rw [outsAt6_B V c t h0]
  refine (congrFun (out_B (F := Ideal) c (grid6.coords t) (ms6_0 t) (hs6_0 t) (ms6_1 t) (hs6_1 t) (ms6_2 t) (hs6_2 t)
    (fun h => h0 ((hcond6_0 t).mp h)) (hblk V c t) (bblk V c t)
    (outsAt6 V c (t.val - 1) (Nat.lt_of_le_of_lt (Nat.sub_le _ _) t.isLt))) (ix2 g j)).trans ?_
  refine (pay2_apply (bblk V c t) (hblk V c t) (outsAt6 V c (t.val - 1) (Nat.lt_of_le_of_lt (Nat.sub_le _ _) t.isLt)) g j).trans ?_
  refine congrArg₂ (· + ·) rfl (Finset.sum_congr rfl fun r _ => ?_)
  rw [bblk_apply, hblk_apply]

/-- After point `n` entry (g, j) of the block is the sum of the block sums of the points up to `n`. -/
theorem outsAt_apply (c : Dev nD) (g : Fin 512) (j : Fin 64) : ∀ (n : ℕ) (h : n < cfg6.N),
    (outsAt6 V c n h (ix2 g j) : EReal) = ∑ s ∈ Finset.range (n + 1), addend V c g j s
  | 0, h => by
    rw [step_A V c g j ⟨0, h⟩ rfl, Finset.sum_range_one, zero_add]
    unfold addend
    rw [dif_pos h]
  | n + 1, h => by
    have hB : ¬(⟨n + 1, h⟩ : Fin cfg6.N).val % 20 = 0 := by have := lt_of_lt_of_eq h hN; dsimp only; omega
    rw [step_B V c g j ⟨n + 1, h⟩ hB, Finset.sum_range_succ _ (n + 1)]
    refine congrArg₂ (· + ·) (outsAt_apply c g j n (Nat.lt_of_succ_lt h)) ?_
    unfold addend
    rw [dif_pos h]

/-! ## The array after the region -/

/-- The last point. -/
abbrev tLast : Fin cfg6.N := ⟨19, by rw [hN]; decide⟩

/-- What the last point leaves in the block. -/
abbrev result (c : Dev nD) : Buf (Elt Ideal) ((c : Thread nD τ).loc main_v87) := outsAt6 V c 19 tLast.isLt

/-- The one write-back, at the last point, writes it: the block is the whole array. -/
theorem flushed_eq (c : Dev nD) (t : Fin cfg6.N) (hf : (cfg6.win 2).flush t = true) :
    (dat6 V c).flushed 2 t = ((cfg6.win 2).blk t).view.read (Elt Ideal) (result V c) := by
  have h19 : t.val = 19 := by have := (flush6_2 t).mp hf; have := lt_of_lt_of_eq t.isLt hN; omega
  obtain rfl : t = tLast := Fin.ext h19
  show (cfg6.win 2).cut (grid6.coords tLast) ((dat6 V c).after 2 tLast) = _
  rw [after6_2]
  have hz' : (fun a => win6_2.index tLast a * main_v87.ty.shape.size a) = fun _ => 0 := funext fun a => by fin_cases a <;> decide
  exact (Memref.read_access_unit_zero (Elt Ideal) main_v87 hz' (fun a => by rw [congrFun hz' a]; simp) (result V c)).symm

/-- So the array ends holding what the last point left. -/
theorem final (c : Dev nD) : (dat6 V c).arrAt 2 cfg6.N = result V c :=
  (dat6 V c).arrAt_eq_of_cover 2 (result V c) (flushed_eq V c) fun i =>
    ⟨tLast, (flush6_2 tLast).mpr rfl, by
      show i ∈ ((View.whole main_v87).slice (win6_2.rect tLast)).set
      rw [View.set_slice_whole, Rect.mem_set_unit]
      intro a
      have h0 : (i 0 : Nat) < 512 := (i 0).isLt
      have h1 : (i 1 : Nat) < 64 := (i 1).isLt
      match a with
      | ⟨0, _⟩ => show win6_2.index tLast 0 * win6_2.size 0 ≤ (i 0 : Nat) ∧ (i 0 : Nat) < win6_2.index tLast 0 * win6_2.size 0 + win6_2.xsize (grid6.coords tLast) 0
                  rw [show win6_2.index tLast 0 * win6_2.size 0 = 0 from by decide +kernel, show win6_2.xsize (grid6.coords tLast) 0 = 512 from by decide +kernel]; omega
      | ⟨1, _⟩ => show win6_2.index tLast 1 * win6_2.size 1 ≤ (i 1 : Nat) ∧ (i 1 : Nat) < win6_2.index tLast 1 * win6_2.size 1 + win6_2.xsize (grid6.coords tLast) 1
                  rw [show win6_2.index tLast 1 * win6_2.size 1 = 0 from by decide +kernel, show win6_2.xsize (grid6.coords tLast) 1 = 64 from by decide +kernel]; omega⟩

/-- A sum over the 100000 rows is the sum over the 20 blocks of the sums over each block's 5000 rows. -/
theorem sum_blocks (f : Fin 100000 → EReal) :
    ∑ i : Fin 100000, f i = ∑ t : Fin 20, ∑ r : Fin 5000, f ⟨5000 * t.val + r.val, by have := t.isLt; have := r.isLt; omega⟩ := by
  show ∑ i : Fin (20 * 5000), f i = _
  rw [← Equiv.sum_comp (finProdFinEquiv (m := 20) (n := 5000)) f, Fintype.sum_prod_type]
  refine Finset.sum_congr rfl fun t _ => Finset.sum_congr rfl fun r _ => congrArg f (Fin.ext ?_)
  show r.val + 5000 * t.val = 5000 * t.val + r.val
  omega

/-- After the region, entry `(g, j)` of its result array. -/
theorem value (c : Dev nD) (g : Fin 512) (j : Fin 64) :
    ((dat6 (F := Ideal) V c).arrAt 2 cfg6.N : Vec Ideal S512x64 .f32) (ix2 g j)
      = Cert.Spec.pool (fun i g => barr V c (ix2 i (0 : Fin 1)) = BitVec.ofNat 32 g.val) (fun i k => harr V c (ix2 i k)) g j := by
  rw [final V c]
  refine (outsAt_apply V c g j 19 tLast.isLt).trans ?_
  unfold Cert.Spec.pool
  show ∑ s ∈ Finset.range 20, addend V c g j s = ∑ i : Fin 100000, term V c g j i
  rw [Finset.sum_range, sum_blocks (term V c g j)]
  refine Finset.sum_congr rfl fun t _ => ?_
  unfold addend
  rw [dif_pos (lt_of_lt_of_eq t.isLt hN.symm)]
  rfl

end Region

end Cert.KernelIdeal.RegPool

end
-- ==== Proof.RegMlp.lean ====
/-
  The head region, read as one whole-array function.
  One grid point; every operand is read whole. Entry (g, o) of the result is
  (0 + Σ_k max ((0 + Σ_q p(g, q) · W1(q, k)) + b1(k), 0) · W2(k, o)) + b2(o).
  First the two products' operand indices and each product at an index, then the body's payload at an index as the
  head of its five loaded operands, then the one block of every window as its whole array, what the one point writes
  back, the cover of the result array by that block, and the array after the region.
-/
import proofs.«423190_j88252987998746_2_alg».proof.Proof.Gen.KernelIdeal.Frame
import proofs.«423190_j88252987998746_2_alg».proof.Proof.Spec
import proofs.«423190_j88252987998746_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegMlp

open Idealize.ShloMosaic Idealize.ShloMosaic.ValueIdx Idealize.ShloMosaic.TcCoe
open Idealize.ShloMosaic.Pipeline (Dat Cfg Window)
open Cert.KernelIdeal Cert.KernelIdeal.Gen

/-! ## The two products' operand indices -/

theorem lhs_mm1_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_mm1_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_mm1_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_mm1_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

theorem lhs_mm2_0 (i : S512x26.Idx) (q : dot_S512x64_S64x26_S512x26_1_0_0_1_n_n.contr.Idx) :
    (dot_S512x64_S64x26_S512x26_1_0_0_1_n_n.lhsIdx i q 0).val = (i 0).val := by
  unfold DotDims.lhsIdx
  rw [dif_neg (show ¬(0 : Fin S512x64.rank) ∈ dot_S512x64_S64x26_S512x26_1_0_0_1_n_n.lhsBatch by decide), dif_pos (show (0 : Fin S512x64.rank) ∈ dot_S512x64_S64x26_S512x26_1_0_0_1_n_n.lhsNonContracting by decide)]
  rfl
theorem lhs_mm2_1 (i : S512x26.Idx) (q : dot_S512x64_S64x26_S512x26_1_0_0_1_n_n.contr.Idx) :
    (dot_S512x64_S64x26_S512x26_1_0_0_1_n_n.lhsIdx i q 1).val = (q ⟨0, by decide⟩).val :=
  dot_S512x64_S64x26_S512x26_1_0_0_1_n_n.lhsIdx_val_of_single rfl i q
theorem rhs_mm2_0 (i : S512x26.Idx) (q : dot_S512x64_S64x26_S512x26_1_0_0_1_n_n.contr.Idx) :
    (dot_S512x64_S64x26_S512x26_1_0_0_1_n_n.rhsIdx i q 0).val = (q ⟨0, by decide⟩).val :=
  dot_S512x64_S64x26_S512x26_1_0_0_1_n_n.rhsIdx_val_of_single rfl i q
theorem rhs_mm2_1 (i : S512x26.Idx) (q : dot_S512x64_S64x26_S512x26_1_0_0_1_n_n.contr.Idx) :
    (dot_S512x64_S64x26_S512x26_1_0_0_1_n_n.rhsIdx i q 1).val = (i 1).val := by
  unfold DotDims.rhsIdx
  rw [dif_neg (show ¬(1 : Fin S64x26.rank) ∈ dot_S512x64_S64x26_S512x26_1_0_0_1_n_n.rhsBatch by decide), dif_pos (show (1 : Fin S64x26.rank) ∈ dot_S512x64_S64x26_S512x26_1_0_0_1_n_n.rhsNonContracting by decide)]
  rfl

/-- The first product into a zero accumulator, at (g, k): the sum over q of l(g, q) · r(q, k). -/
theorem mm1_apply (l : FVec Ideal S512x64 .bf16) (r : FVec Ideal S64x64 .bf16) (g : Fin 512) (k : Fin 64) :
    matmul dot_S512x64_S64x64_S512x64_1_0_0_1_n_n none l r (constant (F := Ideal) S512x64 .f32 0x00000000#32) (ix2 g k)
      = ∑ q : Fin 64, l (ix2 g q) * r (ix2 q k) := by
  simp only [matmul]
  rw [Ideal.matmul_constant_zero_apply, ← Equiv.sum_comp (contrEquiv1 dot_S512x64_S64x64_S512x64_1_0_0_1_n_n 64 rfl rfl).symm]
  refine Finset.sum_congr rfl fun q _ => ?_
  have hq := contrEquiv1_symm_val dot_S512x64_S64x64_S512x64_1_0_0_1_n_n 64 rfl rfl q
  have el : dot_S512x64_S64x64_S512x64_1_0_0_1_n_n.lhsIdx (ix2 g k) ((contrEquiv1 dot_S512x64_S64x64_S512x64_1_0_0_1_n_n 64 rfl rfl).symm q) = ix2 g q := funext fun a => Fin.ext (by
    match a with
    | ⟨0, _⟩ => exact lhs_mm1_0 _ _
    | ⟨1, _⟩ => exact (lhs_mm1_1 _ _).trans hq)
  have er : dot_S512x64_S64x64_S512x64_1_0_0_1_n_n.rhsIdx (ix2 g k) ((contrEquiv1 dot_S512x64_S64x64_S512x64_1_0_0_1_n_n 64 rfl rfl).symm q) = ix2 q k := funext fun a => Fin.ext (by
    match a with
    | ⟨0, _⟩ => exact (rhs_mm1_0 _ _).trans hq
    | ⟨1, _⟩ => exact rhs_mm1_1 _ _)
  rw [el, er]

/-- The second product into a zero accumulator, at (g, o): the sum over k of l(g, k) · r(k, o). -/
theorem mm2_apply (l : FVec Ideal S512x64 .bf16) (r : FVec Ideal S64x26 .bf16) (g : Fin 512) (o : Fin 26) :
    matmul dot_S512x64_S64x26_S512x26_1_0_0_1_n_n none l r (constant (F := Ideal) S512x26 .f32 0x00000000#32) (ix2 g o)
      = ∑ k : Fin 64, l (ix2 g k) * r (ix2 k o) := by
  simp only [matmul]
  rw [Ideal.matmul_constant_zero_apply, ← Equiv.sum_comp (contrEquiv1 dot_S512x64_S64x26_S512x26_1_0_0_1_n_n 64 rfl rfl).symm]
  refine Finset.sum_congr rfl fun k _ => ?_
  have hk := contrEquiv1_symm_val dot_S512x64_S64x26_S512x26_1_0_0_1_n_n 64 rfl rfl k
  have el : dot_S512x64_S64x26_S512x26_1_0_0_1_n_n.lhsIdx (ix2 g o) ((contrEquiv1 dot_S512x64_S64x26_S512x26_1_0_0_1_n_n 64 rfl rfl).symm k) = ix2 g k := funext fun a => Fin.ext (by
    match a with
    | ⟨0, _⟩ => exact lhs_mm2_0 _ _
    | ⟨1, _⟩ => exact (lhs_mm2_1 _ _).trans hk)
  have er : dot_S512x64_S64x26_S512x26_1_0_0_1_n_n.rhsIdx (ix2 g o) ((contrEquiv1 dot_S512x64_S64x26_S512x26_1_0_0_1_n_n 64 rfl rfl).symm k) = ix2 k o := funext fun a => Fin.ext (by
    match a with
    | ⟨0, _⟩ => exact (rhs_mm2_0 _ _).trans hk
    | ⟨1, _⟩ => exact rhs_mm2_1 _ _)
  rw [el, er]

/-! ## The body's payload at an index -/

/-- The body's payload at (g, o): the two-layer head of its five loaded operands. -/
theorem pay_apply (x0 : Vec Ideal S512x64 .f32) (x1 : Vec Ideal S64x64 .f32) (x2 : Vec Ideal S1x64 .f32)
    (x3 : Vec Ideal S64x26 .f32) (x4 : Vec Ideal S1x26 .f32) (g : Fin 512) (o : Fin 26) :
    k7_pay1 (F := Ideal) x0 x1 x2 x3 x4 (ix2 g o)
      = Cert.Spec.head (fun g q => x0 (ix2 g q)) (fun q k => x1 (ix2 q k)) (fun k => x2 (ix2 (0 : Fin 1) k))
          (fun k o => x3 (ix2 k o)) (fun o => x4 (ix2 (0 : Fin 1) o)) g o := by
  unfold k7_pay1 Cert.Spec.head
  dsimp only
  simp only [shapeCast_self]
  rw [addf_apply, mm2_apply, broadcastTo_1b_ab_apply, zero_add (∑ k : Fin 64, _)]
  refine congrArg (· + x4 (ix2 (0 : Fin 1) o)) (Finset.sum_congr rfl fun k _ => ?_)
  rw [truncf_apply, truncf_apply, maximumf_apply, addf_apply, mm1_apply, broadcastTo_1b_ab_apply, broadcast_apply,
    zero_add (∑ q : Fin 64, _)]
  refine congrArg₂ (fun a b => max (a + x2 (ix2 (0 : Fin 1) k)) b * x3 (ix2 k o)) (Finset.sum_congr rfl fun q _ => ?_) Ideal.ofBits_zero_f32
  rw [truncf_apply, truncf_apply]

/-- The payload as one function of the output's index. -/
theorem pay_fun (x0 : Vec Ideal S512x64 .f32) (x1 : Vec Ideal S64x64 .f32) (x2 : Vec Ideal S1x64 .f32)
    (x3 : Vec Ideal S64x26 .f32) (x4 : Vec Ideal S1x26 .f32) :
    (k7_pay1 (F := Ideal) x0 x1 x2 x3 x4 : Vec Ideal S512x26 .f32)
      = fun i => Cert.Spec.head (fun g q => x0 (ix2 g q)) (fun q k => x1 (ix2 q k)) (fun k => x2 (ix2 (0 : Fin 1) k))
          (fun k o => x3 (ix2 k o)) (fun o => x4 (ix2 (0 : Fin 1) o)) (i 0) (i 1) := by
  funext i
  obtain ⟨g, o, rfl⟩ : ∃ (g : Fin 512) (o : Fin 26), i = ix2 g o := ⟨i 0, i 1, eq_ix2 i⟩
  exact pay_apply x0 x1 x2 x3 x4 g o

/-! ## From the one block to the array -/

/-! The buffer contents when the region is entered: any. -/
variable (V : (c : Dev nD) → (b : Ref sig .tc) → Buf (Elt Ideal) ((c : Thread nD τ).loc b))

/-- The operands as the region finds them. -/
abbrev parr (c : Dev nD) : Vec Ideal S512x64 .f32 := V c main_v101
abbrev w1arr (c : Dev nD) : Vec Ideal S64x64 .f32 := V c main_arg9
abbrev b1arr (c : Dev nD) : Vec Ideal S1x64 .f32 := V c main_v102
abbrev w2arr (c : Dev nD) : Vec Ideal S64x26 .f32 := V c main_arg11
abbrev b2arr (c : Dev nD) : Vec Ideal S1x26 .f32 := V c main_v103

/-- The head of the five operands as the region finds them, as one array. -/
abbrev headArr (c : Dev nD) : Vec Ideal S512x26 .f32 := fun i =>
  Cert.Spec.head (fun g q => parr V c (ix2 g q)) (fun q k => w1arr V c (ix2 q k)) (fun k => b1arr V c (ix2 (0 : Fin 1) k))
    (fun k o => w2arr V c (ix2 k o)) (fun o => b2arr V c (ix2 (0 : Fin 1) o)) (i 0) (i 1)

theorem hz : (![0, 0] : Fin 2 → Nat) = fun _ => 0 := funext fun a => by fin_cases a <;> rfl

/-- Each window's one block starts at the array's origin. -/
theorem off0 : (fun a => win7_0.index t7_0 a * main_v101.ty.shape.size a) = fun _ => 0 := funext fun a => by fin_cases a <;> decide
theorem off1 : (fun a => win7_1.index t7_0 a * main_arg9.ty.shape.size a) = fun _ => 0 := funext fun a => by fin_cases a <;> decide
theorem off2 : (fun a => win7_2.index t7_0 a * main_v102.ty.shape.size a) = fun _ => 0 := funext fun a => by fin_cases a <;> decide
theorem off3 : (fun a => win7_3.index t7_0 a * main_arg11.ty.shape.size a) = fun _ => 0 := funext fun a => by fin_cases a <;> decide
theorem off4 : (fun a => win7_4.index t7_0 a * main_v103.ty.shape.size a) = fun _ => 0 := funext fun a => by fin_cases a <;> decide
theorem off5 : (fun a => win7_5.index t7_0 a * main_v104.ty.shape.size a) = fun _ => 0 := funext fun a => by fin_cases a <;> decide

/-- Each input window's one block is its whole array. -/
theorem iblk0 (c : Dev nD) : (iblk7 V c 0 t7_0 : Vec Ideal S512x64 .f32) = parr V c := by
  unfold iblk7
  exact Memref.read_access_unit_zero (Elt Ideal) main_v101 off0 (fun a => by rw [congrFun off0 a]; simp) (V c main_v101)
theorem iblk1 (c : Dev nD) : (iblk7 V c 1 t7_0 : Vec Ideal S64x64 .f32) = w1arr V c := by
  unfold iblk7
  exact Memref.read_access_unit_zero (Elt Ideal) main_arg9 off1 (fun a => by rw [congrFun off1 a]; simp) (V c main_arg9)
theorem iblk2 (c : Dev nD) : (iblk7 V c 2 t7_0 : Vec Ideal S1x64 .f32) = b1arr V c := by
  unfold iblk7
  exact Memref.read_access_unit_zero (Elt Ideal) main_v102 off2 (fun a => by rw [congrFun off2 a]; simp) (V c main_v102)
theorem iblk3 (c : Dev nD) : (iblk7 V c 3 t7_0 : Vec Ideal S64x26 .f32) = w2arr V c := by
  unfold iblk7
  exact Memref.read_access_unit_zero (Elt Ideal) main_arg11 off3 (fun a => by rw [congrFun off3 a]; simp) (V c main_arg11)
theorem iblk4 (c : Dev nD) : (iblk7 V c 4 t7_0 : Vec Ideal S1x26 .f32) = b2arr V c := by
  unfold iblk7
  exact Memref.read_access_unit_zero (Elt Ideal) main_v103 off4 (fun a => by rw [congrFun off4 a]; simp) (V c main_v103)

/-- What the one point writes back is the (whole-array) block of the head of the operands. -/
theorem flushed_eq (c : Dev nD) (t : Fin cfg7.N) :
    (dat7 (F := Ideal) V c).flushed 5 t = ((cfg7.win 5).blk t).view.read (Elt Ideal) (headArr V c) := by
  obtain rfl : t = t7_0 := fin_N7 t
  show (cfg7.win 5).cut (grid7.coords t7_0) ((dat7 V c).after 5 t7_0) = _
  rw [after7_5]
  unfold out7_5
  rw [View.canon_unit_zero hz]
  simp only [View.ld_unit_zero (S := S512x64) hz, View.ld_unit_zero (S := S64x64) hz, View.ld_unit_zero (S := S1x64) hz,
    View.ld_unit_zero (S := S64x26) hz, View.ld_unit_zero (S := S1x26) hz]
  rw [iblk0 V c, iblk1 V c, iblk2 V c, iblk3 V c, iblk4 V c, pay_fun]
  exact (Memref.read_access_unit_zero (Elt Ideal) main_v104 off5 (fun a => by rw [congrFun off5 a]; simp) (headArr V c)).symm

/-- The one point's block covers the result array. -/
theorem cover (i : S512x26.Idx) : ∃ t : Fin cfg7.N, (cfg7.win 5).flush t = true ∧ i ∈ ((cfg7.win 5).blk t).view.set :=
  ⟨t7_0, flush7_5 t7_0, by
    show i ∈ ((View.whole main_v104).slice (win7_5.rect t7_0)).set
    rw [View.set_slice_whole, Rect.mem_set_unit]
    intro a
    have h0 : (i 0 : Nat) < 512 := (i 0).isLt
    have h1 : (i 1 : Nat) < 26 := (i 1).isLt
    match a with
    | ⟨0, _⟩ =>
      show win7_5.index t7_0 0 * win7_5.size 0 ≤ (i 0 : Nat) ∧ (i 0 : Nat) < win7_5.index t7_0 0 * win7_5.size 0 + win7_5.xsize (grid7.coords t7_0) 0
      rw [show win7_5.index t7_0 0 * win7_5.size 0 = 0 from by decide +kernel, show win7_5.xsize (grid7.coords t7_0) 0 = 512 from by decide +kernel]; omega
    | ⟨1, _⟩ =>
      show win7_5.index t7_0 1 * win7_5.size 1 ≤ (i 1 : Nat) ∧ (i 1 : Nat) < win7_5.index t7_0 1 * win7_5.size 1 + win7_5.xsize (grid7.coords t7_0) 1
      rw [show win7_5.index t7_0 1 * win7_5.size 1 = 0 from by decide +kernel, show win7_5.xsize (grid7.coords t7_0) 1 = 26 from by decide +kernel]; omega⟩

/-- The result array after the region is the head of the operands. -/
theorem final (c : Dev nD) : (dat7 (F := Ideal) V c).arrAt 5 cfg7.N = headArr V c :=
  (dat7 (F := Ideal) V c).arrAt_eq_of_cover 5 (headArr V c) (fun t _ => flushed_eq V c t) cover

/-- After the region, entry `(g, o)` of its result array. -/
theorem value (c : Dev nD) (g : Fin 512) (o : Fin 26) :
    ((dat7 (F := Ideal) V c).arrAt 5 cfg7.N : Vec Ideal S512x26 .f32) (ix2 g o)
      = Cert.Spec.head (fun g q => parr V c (ix2 g q)) (fun q k => w1arr V c (ix2 q k)) (fun k => b1arr V c (ix2 (0 : Fin 1) k))
          (fun k o => w2arr V c (ix2 k o)) (fun o => b2arr V c (ix2 (0 : Fin 1) o)) g o :=
  congrFun (final V c) (ix2 g o)

end Cert.KernelIdeal.RegMlp

end
-- ==== Proof.LayerEq.lean ====
/-
  The two forms of a layer agree, and so do the two forms of the per-graph sums.
  A layer: the target-side scale d(i) is a nonnegative real, so it distributes over the sum of the arriving messages
  and over the node's own entry; every arriving message's target scale is d(i).
  The per-graph sums: a product with a 0/1 membership matrix is the sum over the members.
-/
import proofs.«423190_j88252987998746_2_alg».proof.Proof.Spec
import proofs.«423190_j88252987998746_2_alg».proof.Proof.Algebra

noncomputable section

namespace Cert.LayerEq

open Cert.Spec

/-- The scaled projection is the plain projection times the row's scale. -/
theorem lin_eq_proj_mul (h : M 100000 64) (W : M 64 64) (d : Fin 100000 → EReal) (i : Fin 100000) (j : Fin 64) :
    lin h W d i j = proj h W i j * d i := rfl

/-- The kernel's layer is the reference's layer, when every scale is a nonnegative real and every message that
    arrives at row `i` has `i` as the row its target scale is read at. -/
theorem layer_eq (arrives : Fin 1000000 → Fin 100000 → Prop) [∀ e i, Decidable (arrives e i)]
    (src dstc : Fin 1000000 → Fin 100000) (d : Fin 100000 → EReal)
    (hd : ∀ i, ∃ r : ℝ, 0 ≤ r ∧ d i = (r : EReal)) (hdst : ∀ e i, arrives e i → dstc e = i)
    (h : M 100000 64) (W : M 64 64) (b : Fin 64 → EReal) :
    kLayer arrives src d h W b = rLayer arrives src dstc d h W b := by
  funext i j
  obtain ⟨r, hr, hdi⟩ := hd i
  simp only [kLayer, rLayer]
  refine congrArg (fun t => max t (0 : EReal)) ?_
  -- every scaled projection is the plain projection times the row's scale
  have hsum : ∑ e ∈ Finset.univ.filter (fun e => arrives e i), lin h W d (src e) j
      = ∑ e ∈ Finset.univ.filter (fun e => arrives e i), proj h W (src e) j * d (src e) :=
    Finset.sum_congr rfl (fun e _ => lin_eq_proj_mul h W d (src e) j)
  rw [hsum, lin_eq_proj_mul, hdi]
  -- the target-side scale of row i is the nonnegative real r, and so is that of every arriving message
  exact Cert.Algebra.layer_entry (Finset.univ.filter (fun e => arrives e i)) (fun e => proj h W (src e) j)
    (fun e => d (src e)) (fun e => d (dstc e)) (proj h W i j) (b j) hr
    (fun e he => by rw [hdst e i (Finset.mem_filter.mp he).2, hdi])

/-- The product with the membership matrix is the sum over the members from a zero start. -/
theorem pool_eq_segSum (inGraph : Fin 100000 → Fin 512 → Prop) [∀ i g, Decidable (inGraph i g)] (h : M 100000 64) :
    pool inGraph h = segSum inGraph h := by
  funext g j
  simp only [pool, segSum]
  simp_rw [Cert.Algebra.one_or_zero_mul]
  rw [Finset.sum_filter, zero_add]

end Cert.LayerEq

end
-- ==== Proof.Tail.lean ====
/-
  The per-graph mean and the head, in the two programs' forms.
  Both divide the per-graph sums by max (count, 1). The kernel takes the sums as a product with the 0/1 membership
  matrix and counts with graph ids wrapped as array indexing wraps them (a negative id has 512 added); the reference
  sums and counts over the nodes whose id, read as a scatter's start word, names the graph. When no id is negative the
  wrap moves nothing, and an id names graph g as a start word exactly when it is the word of g: the two means agree.
-/
import proofs.«423190_j88252987998746_2_alg».proof.Proof.Spec
import proofs.«423190_j88252987998746_2_alg».proof.Proof.Graph
import proofs.«423190_j88252987998746_2_alg».proof.Proof.LayerEq

noncomputable section

namespace Cert.Tail

open Idealize.ShloMosaic Idealize.ShloMosaic.ValueIdx Cert.Spec Cert.Graph Cert.LibScatter

/-- The graph-id vector. -/
abbrev GraphIds := IVec ⟨1, ![100000]⟩ 32

/-- How many of the start words name row `g` of a 512-row array, counted from zero. -/
def cnt (word : Fin 100000 → BitVec 32) (g : Fin 512) : EReal :=
  (0 : EReal) + ∑ _i ∈ Finset.univ.filter (fun i => rowOf? 512 (word i) = some g), (1 : EReal)

/-- The kernel's per-graph mean. -/
def meanK (bt : GraphIds) (h : M 100000 64) : M 512 64 :=
  fun g q => Ideal.div (pool (inGraph bt) h g q) (max (cnt (fun i => wrapWord 512#32 (bt (ix1 i))) g) 1)

/-- The reference's per-graph mean. -/
def meanR (bt : GraphIds) (h : M 100000 64) : M 512 64 :=
  fun g q => Ideal.div (segSum (fun i g => rowOf? 512 (bt (ix1 i)) = some g) h g q) (max (cnt (fun i => bt (ix1 i)) g) 1)

/-- The per-graph sums do not depend on how membership is decided. -/
theorem segSum_congr {p q : Fin 100000 → Fin 512 → Prop} [∀ i g, Decidable (p i g)] [∀ i g, Decidable (q i g)]
    (hpq : ∀ i g, p i g ↔ q i g) (h : M 100000 64) : segSum p h = segSum q h := by
  obtain rfl : p = q := funext fun i => funext fun g => propext (hpq i g)
  rename_i ip iq
  obtain rfl : ip = iq := Subsingleton.elim _ _
  rfl

theorem pool_congr {p q : Fin 100000 → Fin 512 → Prop} [∀ i g, Decidable (p i g)] [∀ i g, Decidable (q i g)]
    (hpq : ∀ i g, p i g ↔ q i g) (h : M 100000 64) : pool p h = pool q h := by
  obtain rfl : p = q := funext fun i => funext fun g => propext (hpq i g)
  rename_i ip iq
  obtain rfl : ip = iq := Subsingleton.elim _ _
  rfl

/-- A layer does not depend on how arrival is decided, nor on the spelling of its other ingredients. -/
theorem kLayer_congr {a a' : Fin 1000000 → Fin 100000 → Prop} [∀ e i, Decidable (a e i)] [∀ e i, Decidable (a' e i)]
    (ha : ∀ e i, a e i ↔ a' e i) {s s' : Fin 1000000 → Fin 100000} (hs : ∀ e, s e = s' e)
    {d d' : Fin 100000 → EReal} (hd : ∀ i, d i = d' i) {h h' : M 100000 64} (hh : ∀ i k, h i k = h' i k)
    {W W' : M 64 64} (hW : ∀ k j, W k j = W' k j) {b b' : Fin 64 → EReal} (hb : ∀ j, b j = b' j) :
    kLayer a s d h W b = kLayer a' s' d' h' W' b' := by
  obtain rfl : a = a' := funext fun e => funext fun i => propext (ha e i)
  obtain rfl : s = s' := funext hs
  obtain rfl : d = d' := funext hd
  obtain rfl : h = h' := funext fun i => funext fun k => hh i k
  obtain rfl : W = W' := funext fun k => funext fun j => hW k j
  obtain rfl : b = b' := funext hb
  rename_i ia ia'
  obtain rfl : ia = ia' := Subsingleton.elim _ _
  rfl

theorem rLayer_congr {a a' : Fin 1000000 → Fin 100000 → Prop} [∀ e i, Decidable (a e i)] [∀ e i, Decidable (a' e i)]
    (ha : ∀ e i, a e i ↔ a' e i) {s s' t t' : Fin 1000000 → Fin 100000} (hs : ∀ e, s e = s' e) (ht : ∀ e, t e = t' e)
    {d d' : Fin 100000 → EReal} (hd : ∀ i, d i = d' i) {h h' : M 100000 64} (hh : ∀ i k, h i k = h' i k)
    {W W' : M 64 64} (hW : ∀ k j, W k j = W' k j) {b b' : Fin 64 → EReal} (hb : ∀ j, b j = b' j) :
    rLayer a s t d h W b = rLayer a' s' t' d' h' W' b' := by
  obtain rfl : a = a' := funext fun e => funext fun i => propext (ha e i)
  obtain rfl : s = s' := funext hs
  obtain rfl : t = t' := funext ht
  obtain rfl : d = d' := funext hd
  obtain rfl : h = h' := funext fun i => funext fun k => hh i k
  obtain rfl : W = W' := funext fun k => funext fun j => hW k j
  obtain rfl : b = b' := funext hb
  rename_i ia ia'
  obtain rfl : ia = ia' := Subsingleton.elim _ _
  rfl

/-- One layer of the two programs over the graph of an edge list: equal. -/
theorem graph_layer_eq (ei : EdgeList) (h : M 100000 64) (W : M 64 64) (b : Fin 64 → EReal) :
    kLayer (arrives ei) (src ei) (dinv ei) h W b = rLayer (arrives ei) (src ei) (dstc ei) (dinv ei) h W b :=
  Cert.LayerEq.layer_eq (arrives ei) (src ei) (dstc ei) (dinv ei) (dinv_nonneg_real ei) (dstc_of_arrives ei) h W b

/-- With no negative graph id the two means agree. -/
theorem mean_eq (bt : GraphIds) (hbt : ∀ i : Fin 100000, 0 ≤ (bt (ix1 i)).toInt) (h : M 100000 64) : meanK bt h = meanR bt h := by
  funext g q
  simp only [meanK, meanR]
  -- the sums: the membership product is the sum over the members, and an id names g exactly when it is g's word
  have hsum : pool (inGraph bt) h g q = segSum (fun i g => rowOf? 512 (bt (ix1 i)) = some g) h g q := by
    rw [Cert.LayerEq.pool_eq_segSum]
    exact congrFun (congrFun (segSum_congr (fun i g => (rowOf?_512_iff (bt (ix1 i)) g).symm) h) g) q
  -- the counts: no id is negative, so the wrap moves no word
  have hword : (fun i : Fin 100000 => wrapWord 512#32 (bt (ix1 i))) = (fun i : Fin 100000 => bt (ix1 i)) :=
    funext fun i => wrapWord_of_nonneg _ _ (hbt i)
  rw [hsum, hword]

end Cert.Tail

end
-- ==== Proof.KTail.lean ====
/-
  The end of the kernel's program, from the contents the last epilogue region leaves to the result: a whole-array
  reading. The host lays the 50000 × 128 features back out as 100000 rows of 64 and the graph ids as a column; the
  pooling region sums, per graph, the rows whose id is the graph's; the host counts the ids per graph (ids wrapped as
  array indexing wraps them, a scatter-add of ones into zeros), divides the sums by max (count, 1) and lays the two
  head biases out as rows; the head region applies the two-layer head.
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.RegPool
import proofs.«423190_j88252987998746_2_alg».proof.Proof.RegMlp
import proofs.«423190_j88252987998746_2_alg».proof.Proof.Tail
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KTail

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph

/-! ## Broadcasts read at an index -/

/-- An `[n, 1]` column laid along the rows of an `[n, m]` rectangle reads, at `(p, q)`, the column at `(p, 0)`. -/
theorem bcast_col_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- An `[n]` vector laid out as an `[n, 1]` column reads, at `(p, u)`, the vector at `p`. -/
theorem bcast_vec_col_apply {α : Type} {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply _ h v (ix2 p u) (ix1 p) fun a => ?_
  match a with
  | ⟨0, _⟩ =>
    show p.val = if n = 1 then 0 else p.val
    split
    · have := p.isLt; omega
    · rfl

/-- A splat constant broadcast from the scalar shape reads the constant everywhere. -/
theorem bcast_const_apply {t : Shape} (h : (⟨0, ![]⟩ : Shape).BroadcastsInDim t ![]) (φ : FTy) (b : BitVec φ.bits) (j : t.Idx) :
    broadcastInDim t ![] h (constant (F := Ideal) ⟨0, ![]⟩ φ b) j = Ideal.ofBits φ b := rfl

/-- An integer splat constant broadcast from the scalar shape reads the constant everywhere. -/
theorem bcast_constI_apply {t : Shape} (h : (⟨0, ![]⟩ : Shape).BroadcastsInDim t ![]) (w : ℕ) (b : BitVec w) (j : t.Idx) :
    broadcastInDim t ![] h (constantI ⟨0, ![]⟩ w b) j = b := rfl

/-- The host's quotient at an index, at the ideal instance. -/
theorem hostDivf_apply {s : Shape} {φ : FTy} (x y : FVec Ideal s φ) (i : s.Idx) : Host.divf x y i = Ideal.div (x i) (y i) := rfl

/-- The printed scatter record is the entry scatter at the literal sizes. -/
theorem scatter_eq : scatter_S512_S100000x1_S100000_n_0_0_1 = vecScatter 512 100000 scatter_S512_S100000x1_S100000_n_0_0_1_wf := rfl

/-- The host's mean: the sums divided by max (count, 1), the count a scatter-add of ones into zeros at the wrapped ids. -/
theorem mean_term (A : Vec Ideal S512x64 .f32) (ids : IVec S100000 32) (g : Fin 512) (q : Fin 64) :
    Host.divf (F := Ideal) A
      (broadcastInDim S512x64 ![0, 1] bcast_S512x1_S512x64_0_1
        (broadcastInDim S512x1 ![0] bcast_S512_S512x1_0
          (maximumf
            (Host.scatterAdd (F := Ideal) scatter_S512_S100000x1_S100000_n_0_0_1
              (broadcastInDim S512 ![] bcast_S_S512 (constant (F := Ideal) S_ FTy.f32 0x00000000#32))
              (broadcastInDim S100000x1 ![0] bcast_S100000_S100000x1_0
                (select (cmpi CmpIPredicate.slt ids (broadcastInDim S100000 ![] bcast_S_S100000 (constantI S_ 32 0#32)))
                  (addi ids (broadcastInDim S100000 ![] bcast_S_S100000 (constantI S_ 32 512#32))) ids))
              (broadcastInDim S100000 ![] bcast_S_S100000 (constant (F := Ideal) S_ FTy.f32 0x3F800000#32)))
            (broadcastInDim S512 ![] bcast_S_S512 (constant (F := Ideal) S_ FTy.f32 0x3F800000#32)))))
      (ix2 g q)
    = Ideal.div (A (ix2 g q))
        (max ((0 : EReal) + ∑ _i ∈ Finset.univ.filter (fun i : Fin 100000 =>
            rowOf? 512 (Scalar.select (IntOp.cmpi .slt (ids (ix1 i)) 0#32) (IntOp.addi (ids (ix1 i)) 512#32) (ids (ix1 i))) = some g),
          (1 : EReal)) 1) := by
  rw [hostDivf_apply, bcast_col_apply, bcast_vec_col_apply, maximumf_apply, bcast_const_apply, Cert.Algebra.ofBits_one,
    scatter_eq, vecScatterAdd_apply, bcast_const_apply, Cert.Algebra.ofBits_zero]
  have hidx : ∀ e : Fin 100000,
      broadcastInDim S100000x1 ![0] bcast_S100000_S100000x1_0
        (select (cmpi CmpIPredicate.slt ids (broadcastInDim S100000 ![] bcast_S_S100000 (constantI S_ 32 0#32)))
          (addi ids (broadcastInDim S100000 ![] bcast_S_S100000 (constantI S_ 32 512#32))) ids) (ix2 e (0 : Fin 1))
      = Scalar.select (IntOp.cmpi .slt (ids (ix1 e)) 0#32) (IntOp.addi (ids (ix1 e)) 512#32) (ids (ix1 e)) := fun e => by
    rw [bcast_vec_col_apply]; rfl
  have hone : ∀ e : Fin 100000,
      broadcastInDim S100000 ![] bcast_S_S100000 (constant (F := Ideal) S_ FTy.f32 0x3F800000#32) (ix1 e) = (1 : EReal) := fun e => by
    rw [bcast_const_apply, Cert.Algebra.ofBits_one]
  simp only [hidx, hone]

-- The buffer contents after the last epilogue region (before the host stretch that feeds the pooling region): any.
variable (Wa : Dev nD → Valuation τ sig (Elt Ideal))

/-- After the host stretch before the pooling region. -/
abbrev Wb : Dev nD → Valuation τ sig (Elt Ideal) := fun c => StableHlo.after hostOps6 (Wa c)
abbrev Vb : (c : Dev nD) → (b : Ref sig .tc) → Buf (Elt Ideal) ((c : Thread nD τ).loc b) := fun c b => Wb Wa c b
/-- After the pooling region. -/
def Wc (c : Dev nD) : Valuation τ sig (Elt Ideal) :=
  Pipeline.withArrays spec6 c (Wb Wa c) fun w => (dat6 (Vb Wa) c).arrAt w cfg6.N
/-- After the host stretch before the head region. -/
abbrev Wd : Dev nD → Valuation τ sig (Elt Ideal) := fun c => StableHlo.after hostOps7 (Wc Wa c)
abbrev Vd : (c : Dev nD) → (b : Ref sig .tc) → Buf (Elt Ideal) ((c : Thread nD τ).loc b) := fun c b => Wd Wa c b
/-- After the head region. -/
def We (c : Dev nD) : Valuation τ sig (Elt Ideal) :=
  Pipeline.withArrays spec7 c (Wd Wa c) fun w => (dat7 (Vd Wa) c).arrAt w cfg7.N

/-- The entry contents by literal type: the last layer's features on 128 lanes, the graph ids, the head's weights
    and biases. -/
abbrev feat (c : Dev nD) : Vec Ideal S50000x128 .f32 := Wa c (Proc.devRef .tc main_v84)
abbrev gids (c : Dev nD) : IVec S100000 32 := Wa c (Proc.devRef .tc main_arg2)
abbrev w1 (c : Dev nD) : Vec Ideal S64x64 .f32 := Wa c (Proc.devRef .tc main_arg9)
abbrev b1 (c : Dev nD) : Vec Ideal S64 .f32 := Wa c (Proc.devRef .tc main_arg10)
abbrev w2 (c : Dev nD) : Vec Ideal S64x26 .f32 := Wa c (Proc.devRef .tc main_arg11)
abbrev b2 (c : Dev nD) : Vec Ideal S26 .f32 := Wa c (Proc.devRef .tc main_arg12)

/-- The merged row and the lane that hold entry `(i, k)` of the features. -/
def rowOfNode (i : Fin 100000) : Fin 50000 := ⟨i.val / 2, by omega⟩
def laneOf (i : Fin 100000) (k : Fin 64) : Fin 128 := ⟨(i.val % 2) * 64 + k.val, by omega⟩

/-! ## What the two host stretches compute, over any contents -/

section Host
variable (W : Valuation τ sig (Elt Ideal))

/-- Rows of 128 lanes laid back out as rows of 64: entry `(i, k)` is lane `(i mod 2) · 64 + k` of row `i / 2`. -/
theorem h6_v85_apply (i : Fin 100000) (k : Fin 64) :
    (StableHlo.after hostOps6 W (Proc.devRef .tc main_v85) : Vec Ideal S100000x64 .f32) (ix2 i k)
      = (W (Proc.devRef .tc main_v84) : Vec Ideal S50000x128 .f32) (ix2 (rowOfNode i) (laneOf i k)) := by
  have e : (StableHlo.after hostOps6 W (Proc.devRef .tc main_v85) : Vec Ideal S100000x64 .f32)
      = shapeCast S100000x64 (W (Proc.devRef .tc main_v84) : Vec Ideal S50000x128 .f32) shapeCasts_S50000x128_S100000x64 := by
    after_results; rfl
  rw [e]
  refine shapeCast_apply (s := S50000x128) (t := S100000x64) _ _ (ix2 i k) (ix2 (rowOfNode i) (laneOf i k)) ?_
  rw [Shape.rowMajor_val_two, Shape.rowMajor_val_two]
  show (i.val / 2) * 128 + ((i.val % 2) * 64 + k.val) = i.val * 64 + k.val
  omega

/-- The graph ids as a column. -/
theorem h6_v86_apply (i : Fin 100000) :
    (StableHlo.after hostOps6 W (Proc.devRef .tc main_v86) : IVec S100000x1 32) (ix2 i (0 : Fin 1))
      = (W (Proc.devRef .tc main_arg2) : IVec S100000 32) (ix1 i) := by
  have e : (StableHlo.after hostOps6 W (Proc.devRef .tc main_v86) : IVec S100000x1 32)
      = shapeCast S100000x1 (W (Proc.devRef .tc main_arg2) : IVec S100000 32) shapeCasts_S100000_S100000x1 := by
    after_results; rfl
  rw [e]
  exact Cert.LibColumn.shapeCast_a_a1_apply _ _ i 0

/-- The first stretch writes none of the arguments. -/
theorem h6_arg2 : StableHlo.after hostOps6 W (Proc.devRef .tc main_arg2) = W (Proc.devRef .tc main_arg2) := by after_results
theorem h6_arg9 : StableHlo.after hostOps6 W (Proc.devRef .tc main_arg9) = W (Proc.devRef .tc main_arg9) := by after_results
theorem h6_arg10 : StableHlo.after hostOps6 W (Proc.devRef .tc main_arg10) = W (Proc.devRef .tc main_arg10) := by after_results
theorem h6_arg11 : StableHlo.after hostOps6 W (Proc.devRef .tc main_arg11) = W (Proc.devRef .tc main_arg11) := by after_results
theorem h6_arg12 : StableHlo.after hostOps6 W (Proc.devRef .tc main_arg12) = W (Proc.devRef .tc main_arg12) := by after_results

set_option maxHeartbeats 1000000 in
/-- The second stretch's mean. -/
theorem h7_v101_apply (g : Fin 512) (q : Fin 64) :
    (StableHlo.after hostOps7 W (Proc.devRef .tc main_v101) : Vec Ideal S512x64 .f32) (ix2 g q)
      = Ideal.div ((W (Proc.devRef .tc main_v87) : Vec Ideal S512x64 .f32) (ix2 g q))
          (max ((0 : EReal) + ∑ _i ∈ Finset.univ.filter (fun i : Fin 100000 =>
              rowOf? 512 (Scalar.select (IntOp.cmpi .slt ((W (Proc.devRef .tc main_arg2) : IVec S100000 32) (ix1 i)) 0#32)
                (IntOp.addi ((W (Proc.devRef .tc main_arg2) : IVec S100000 32) (ix1 i)) 512#32)
                ((W (Proc.devRef .tc main_arg2) : IVec S100000 32) (ix1 i))) = some g), (1 : EReal)) 1) := by
  after_results_simp
  exact mean_term _ _ g q

set_option maxHeartbeats 1000000 in
/-- The two biases as rows. -/
theorem h7_v102_apply (k : Fin 64) :
    (StableHlo.after hostOps7 W (Proc.devRef .tc main_v102) : Vec Ideal S1x64 .f32) (ix2 (0 : Fin 1) k)
      = (W (Proc.devRef .tc main_arg10) : Vec Ideal S64 .f32) (ix1 k) := by
  after_results_simp
  exact shapeCast_a_1a_apply _ _ 0 k
set_option maxHeartbeats 1000000 in
theorem h7_v103_apply (o : Fin 26) :
    (StableHlo.after hostOps7 W (Proc.devRef .tc main_v103) : Vec Ideal S1x26 .f32) (ix2 (0 : Fin 1) o)
      = (W (Proc.devRef .tc main_arg12) : Vec Ideal S26 .f32) (ix1 o) := by
  after_results_simp
  exact shapeCast_a_1a_apply _ _ 0 o

set_option maxHeartbeats 1000000 in
/-- The second stretch writes neither weight matrix. -/
theorem h7_arg9 : StableHlo.after hostOps7 W (Proc.devRef .tc main_arg9) = W (Proc.devRef .tc main_arg9) := by after_results_simp
set_option maxHeartbeats 1000000 in
theorem h7_arg11 : StableHlo.after hostOps7 W (Proc.devRef .tc main_arg11) = W (Proc.devRef .tc main_arg11) := by after_results_simp

end Host

/-! ## Through the two regions -/

/-- The pooling region's result array holds what the pipeline leaves; a buffer that is none of its arrays is as entered. -/
theorem Wc_v87 (c : Dev nD) : Wc Wa c (Proc.devRef .tc main_v87) = (dat6 (Vb Wa) c).arrAt 2 cfg6.N := by
  unfold Wc; exact Pipeline.withArrays_arr spec6 launch6.win.arr_inj c _ _ 2
theorem Wc_of_ne (c : Dev nD) (b : Ref sig .tc) (hb : ∀ w, Pipeline.arrRef spec6 w ≠ b) :
    Wc Wa c (Proc.devRef .tc b) = Wb Wa c (Proc.devRef .tc b) := by
  unfold Wc; exact Pipeline.withArrays_of_ne spec6 c _ _ b hb
/-- The head region's result array holds what the pipeline leaves. -/
theorem We_v104 (c : Dev nD) : We Wa c (Proc.devRef .tc main_v104) = (dat7 (Vd Wa) c).arrAt 5 cfg7.N := by
  unfold We; exact Pipeline.withArrays_arr spec7 launch7.win.arr_inj c _ _ 5

/-- The graph ids reach the second stretch as entered. -/
theorem Wc_arg2 (c : Dev nD) : Wc Wa c (Proc.devRef .tc main_arg2) = Wa c (Proc.devRef .tc main_arg2) :=
  (Wc_of_ne Wa c main_arg2 (by decide)).trans (h6_arg2 (Wa c))

/-- The head's operands in terms of the entry contents. -/
theorem Vd_w1 (c : Dev nD) (q k : Fin 64) : (Vd Wa c main_arg9 : Vec Ideal S64x64 .f32) (ix2 q k) = w1 Wa c (ix2 q k) := by
  have e : Wd Wa c (Proc.devRef .tc main_arg9) = Wa c (Proc.devRef .tc main_arg9) :=
    (h7_arg9 (Wc Wa c)).trans ((Wc_of_ne Wa c main_arg9 (by decide)).trans (h6_arg9 (Wa c)))
  exact congrFun e (ix2 q k)
theorem Vd_w2 (c : Dev nD) (k : Fin 64) (o : Fin 26) : (Vd Wa c main_arg11 : Vec Ideal S64x26 .f32) (ix2 k o) = w2 Wa c (ix2 k o) := by
  have e : Wd Wa c (Proc.devRef .tc main_arg11) = Wa c (Proc.devRef .tc main_arg11) :=
    (h7_arg11 (Wc Wa c)).trans ((Wc_of_ne Wa c main_arg11 (by decide)).trans (h6_arg11 (Wa c)))
  exact congrFun e (ix2 k o)
theorem Vd_b1 (c : Dev nD) (k : Fin 64) : (Vd Wa c main_v102 : Vec Ideal S1x64 .f32) (ix2 (0 : Fin 1) k) = b1 Wa c (ix1 k) := by
  have e : Wc Wa c (Proc.devRef .tc main_arg10) = Wa c (Proc.devRef .tc main_arg10) :=
    (Wc_of_ne Wa c main_arg10 (by decide)).trans (h6_arg10 (Wa c))
  refine (h7_v102_apply (Wc Wa c) k).trans ?_
  exact congrFun e (ix1 k)
theorem Vd_b2 (c : Dev nD) (o : Fin 26) : (Vd Wa c main_v103 : Vec Ideal S1x26 .f32) (ix2 (0 : Fin 1) o) = b2 Wa c (ix1 o) := by
  have e : Wc Wa c (Proc.devRef .tc main_arg12) = Wa c (Proc.devRef .tc main_arg12) :=
    (Wc_of_ne Wa c main_arg12 (by decide)).trans (h6_arg12 (Wa c))
  refine (h7_v103_apply (Wc Wa c) o).trans ?_
  exact congrFun e (ix1 o)

/-- The pooled sums in terms of the entry contents. -/
theorem pooled (c : Dev nD) (g : Fin 512) (q : Fin 64) :
    (Wc Wa c (Proc.devRef .tc main_v87) : Vec Ideal S512x64 .f32) (ix2 g q)
      = Cert.Spec.pool (inGraph (gids Wa c)) (fun i k => feat Wa c (ix2 (rowOfNode i) (laneOf i k))) g q := by
  have hH : (fun (i : Fin 100000) (k : Fin 64) => RegPool.harr (Vb Wa) c (ix2 i k))
      = fun i k => feat Wa c (ix2 (rowOfNode i) (laneOf i k)) := by
    funext i k; exact h6_v85_apply (Wa c) i k
  have hP : ∀ (i : Fin 100000) (g : Fin 512),
      (RegPool.barr (Vb Wa) c (ix2 i (0 : Fin 1)) = BitVec.ofNat 32 g.val) ↔ inGraph (gids Wa c) i g := by
    intro i g
    unfold inGraph
    rw [show RegPool.barr (Vb Wa) c (ix2 i (0 : Fin 1)) = gids Wa c (ix1 i) from h6_v86_apply (Wa c) i]
  rw [Wc_v87]
  refine (RegPool.value (Vb Wa) c g q).trans ?_
  rw [hH, Cert.Tail.pool_congr hP]

/-- The mean the head region reads. -/
theorem Vd_mean (c : Dev nD) (g : Fin 512) (q : Fin 64) :
    (Vd Wa c main_v101 : Vec Ideal S512x64 .f32) (ix2 g q)
      = Cert.Tail.meanK (gids Wa c) (fun i k => feat Wa c (ix2 (rowOfNode i) (laneOf i k))) g q := by
  refine (h7_v101_apply (Wc Wa c) g q).trans ?_
  rw [pooled, Wc_arg2]
  unfold Cert.Tail.meanK Cert.Tail.cnt Cert.Graph.wrapWord
  rfl

/-- The head does not depend on the spelling of its operands. -/
theorem head_congr {p p' : Cert.Spec.M 512 64} {A A' : Cert.Spec.M 64 64} {u u' : Fin 64 → EReal}
    {B B' : Cert.Spec.M 64 26} {v v' : Fin 26 → EReal}
    (hp : ∀ g q, p g q = p' g q) (hA : ∀ q k, A q k = A' q k) (hu : ∀ k, u k = u' k)
    (hB : ∀ k o, B k o = B' k o) (hv : ∀ o, v o = v' o) :
    Cert.Spec.head p A u B v = Cert.Spec.head p' A' u' B' v' := by
  obtain rfl : p = p' := funext fun g => funext fun q => hp g q
  obtain rfl : A = A' := funext fun q => funext fun k => hA q k
  obtain rfl : u = u' := funext hu
  obtain rfl : B = B' := funext fun k => funext fun o => hB k o
  obtain rfl : v = v' := funext hv
  rfl

/-- The program's result, entry `(g, o)`. -/
theorem value (c : Dev nD) (g : Fin 512) (o : Fin 26) :
    (We Wa c (Proc.devRef .tc main_v104) : Vec Ideal S512x26 .f32) (ix2 g o)
      = Cert.Spec.head
          (Cert.Tail.meanK (gids Wa c) (fun i k => feat Wa c (ix2 (rowOfNode i) (laneOf i k))))
          (fun q k => w1 Wa c (ix2 q k)) (fun k => b1 Wa c (ix1 k))
          (fun k o => w2 Wa c (ix2 k o)) (fun o => b2 Wa c (ix1 o)) g o := by
  rw [We_v104]
  refine (RegMlp.value (Vd Wa) c g o).trans ?_
  exact congrFun (congrFun (head_congr (fun g q => Vd_mean Wa c g q) (fun q k => Vd_w1 Wa c q k) (fun k => Vd_b1 Wa c k)
    (fun k o => Vd_w2 Wa c k o) (fun o => Vd_b2 Wa c o)) g) o

end Cert.KernelIdeal.KTail

end
-- ==== Proof.Final.lean ====
/-
  The two programs' results as functions of the thirteen argument arrays, and their equality.
  Each is three layers over the edge list's graph, the per-graph mean over the graph ids, and the head. Layer by layer
  the kernel's form is the reference's (the target-side scale is a nonnegative real); the means agree when no graph
  id is negative.
-/
import proofs.«423190_j88252987998746_2_alg».proof.Proof.Spec
import proofs.«423190_j88252987998746_2_alg».proof.Proof.Graph
import proofs.«423190_j88252987998746_2_alg».proof.Proof.Tail

noncomputable section

namespace Cert.Final

open Idealize.ShloMosaic Idealize.ShloMosaic.ValueIdx Cert.Spec Cert.Graph Cert.Tail

/-- A float matrix and a float vector as arrays. -/
abbrev A2 (a b : ℕ) := FVec Ideal ⟨2, ![a, b]⟩ .f32
abbrev A1 (a : ℕ) := FVec Ideal ⟨1, ![a]⟩ .f32

/-- An array read entry by entry. -/
def mat {a b : ℕ} (x : A2 a b) : M a b := fun i j => x (ix2 i j)
def vec {a : ℕ} (x : A1 a) : Fin a → EReal := fun i => x (ix1 i)

/-- The kernel's three layers. -/
def kFeat (x : A2 100000 64) (ei : EdgeList) (W0 : A2 64 64) (b0 : A1 64) (W1 : A2 64 64) (b1 : A1 64) (W2 : A2 64 64) (b2 : A1 64) :
    M 100000 64 :=
  kLayer (arrives ei) (src ei) (dinv ei)
    (kLayer (arrives ei) (src ei) (dinv ei)
      (kLayer (arrives ei) (src ei) (dinv ei) (mat x) (mat W0) (vec b0)) (mat W1) (vec b1)) (mat W2) (vec b2)

/-- The reference's three layers. -/
def rFeat (x : A2 100000 64) (ei : EdgeList) (W0 : A2 64 64) (b0 : A1 64) (W1 : A2 64 64) (b1 : A1 64) (W2 : A2 64 64) (b2 : A1 64) :
    M 100000 64 :=
  rLayer (arrives ei) (src ei) (dstc ei) (dinv ei)
    (rLayer (arrives ei) (src ei) (dstc ei) (dinv ei)
      (rLayer (arrives ei) (src ei) (dstc ei) (dinv ei) (mat x) (mat W0) (vec b0)) (mat W1) (vec b1)) (mat W2) (vec b2)

/-- The kernel's result. -/
def kResult (x : A2 100000 64) (ei : EdgeList) (bt : GraphIds) (W0 : A2 64 64) (b0 : A1 64) (W1 : A2 64 64) (b1 : A1 64)
    (W2 : A2 64 64) (b2 : A1 64) (fcW : A2 64 64) (fcb : A1 64) (fc2W : A2 64 26) (fc2b : A1 26) : M 512 26 :=
  head (meanK bt (kFeat x ei W0 b0 W1 b1 W2 b2)) (mat fcW) (vec fcb) (mat fc2W) (vec fc2b)

/-- The reference's result. -/
def rResult (x : A2 100000 64) (ei : EdgeList) (bt : GraphIds) (W0 : A2 64 64) (b0 : A1 64) (W1 : A2 64 64) (b1 : A1 64)
    (W2 : A2 64 64) (b2 : A1 64) (fcW : A2 64 64) (fcb : A1 64) (fc2W : A2 64 26) (fc2b : A1 26) : M 512 26 :=
  head (meanR bt (rFeat x ei W0 b0 W1 b1 W2 b2)) (mat fcW) (vec fcb) (mat fc2W) (vec fc2b)

/-- The three layers agree. -/
theorem feat_eq (x : A2 100000 64) (ei : EdgeList) (W0 : A2 64 64) (b0 : A1 64) (W1 : A2 64 64) (b1 : A1 64) (W2 : A2 64 64) (b2 : A1 64) :
    kFeat x ei W0 b0 W1 b1 W2 b2 = rFeat x ei W0 b0 W1 b1 W2 b2 := by
  unfold kFeat rFeat
  rw [graph_layer_eq ei (mat x), graph_layer_eq ei _ (mat W1), graph_layer_eq ei _ (mat W2)]

/-- With no negative graph id the two results agree. -/
theorem result_eq (x : A2 100000 64) (ei : EdgeList) (bt : GraphIds) (hbt : ∀ i : Fin 100000, 0 ≤ (bt (ix1 i)).toInt)
    (W0 : A2 64 64) (b0 : A1 64) (W1 : A2 64 64) (b1 : A1 64)
    (W2 : A2 64 64) (b2 : A1 64) (fcW : A2 64 64) (fcb : A1 64) (fc2W : A2 64 26) (fc2b : A1 26) :
    kResult x ei bt W0 b0 W1 b1 W2 b2 fcW fcb fc2W fc2b = rResult x ei bt W0 b0 W1 b1 W2 b2 fcW fcb fc2W fc2b := by
  unfold kResult rResult
  rw [feat_eq, mean_eq bt hbt]

end Cert.Final

end
-- ==== Proof.KValue.lean ====
/-
  The kernel program's result as a function of its thirteen arguments.
  The buffer contents are followed from the launch through every host stretch and region: the first host stretch
  gives the edge words and the scale; each of the three layers is a projection region, a host stretch and an epilogue
  region, followed (after the first two) by the host's re-layout of the result; the end is the pooling region, the
  host's counts and division, and the head region. Buffers written once and read later (the edge words, the scale in
  its two layouts, the arguments) are unchanged in between.
-/
import proofs.«423190_j88252987998746_2_alg».proof.Proof.Gen.KernelIdeal.Frame
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.KHead
import proofs.«423190_j88252987998746_2_alg».proof.Proof.KGlue
import proofs.«423190_j88252987998746_2_alg».proof.Proof.KLayer0
import proofs.«423190_j88252987998746_2_alg».proof.Proof.KLayer1
import proofs.«423190_j88252987998746_2_alg».proof.Proof.KLayer2
import proofs.«423190_j88252987998746_2_alg».proof.Proof.KTail
import proofs.«423190_j88252987998746_2_alg».proof.Proof.Final
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KValue

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.LibScatter Cert.Graph
open Cert.Spec (M kLayer head)
open Cert.Final (A1 A2 mat vec)

-- The launch memory and the launch generator registers: any.
variable (m : (ℓ : Loc nD τ sig) → Buf (Elt Ideal) ℓ) (ρ : Dev nD → PrngReg)

/-! ## The buffer contents, stretch by stretch

Each stretch's exit contents are the next one's entry contents: the first host stretch from the launch contents, the
three layers (a projection region, a host stretch, an epilogue region) with the host's re-layout between them, and
the end (the pooling region, the host's counts and division, the head region). -/

theorem W1_eq : W1 (F := Ideal) m ρ = KHead.Wa (W0 m ρ) := rfl

theorem W2_eq : W2 (F := Ideal) m ρ = KLayer0.Wb (W1 m ρ) := by
  funext c; unfold W2 KLayer0.Wb; rfl

theorem W4_eq : W4 (F := Ideal) m ρ = KLayer0.Wd (W1 m ρ) := by
  have h3 : W3 (F := Ideal) m ρ = KLayer0.Wc (W1 m ρ) := by
    funext c
    show StableHlo.after hostOps1 (W2 m ρ c) = StableHlo.after hostOps1 (KLayer0.Wb (W1 m ρ) c)
    rw [W2_eq]
  have hv : V3 (F := Ideal) m ρ = KLayer0.Vc (W1 m ρ) := by
    funext c b
    show W3 m ρ c b = KLayer0.Wc (W1 m ρ) c b
    rw [h3]
  funext c; unfold W4 KLayer0.Wd; rw [h3, hv]

theorem W6_eq : W6 (F := Ideal) m ρ = KLayer1.Wb (W5 m ρ) := by
  funext c; unfold W6 KLayer1.Wb; rfl

theorem W8_eq : W8 (F := Ideal) m ρ = KLayer1.Wd (W5 m ρ) := by
  have h3 : W7 (F := Ideal) m ρ = KLayer1.Wc (W5 m ρ) := by
    funext c
    show StableHlo.after hostOps3 (W6 m ρ c) = StableHlo.after hostOps3 (KLayer1.Wb (W5 m ρ) c)
    rw [W6_eq]
  have hv : V7 (F := Ideal) m ρ = KLayer1.Vc (W5 m ρ) := by
    funext c b
    show W7 m ρ c b = KLayer1.Wc (W5 m ρ) c b
    rw [h3]
  funext c; unfold W8 KLayer1.Wd; rw [h3, hv]

theorem W10_eq : W10 (F := Ideal) m ρ = KLayer2.Wb (W9 m ρ) := by
  funext c; unfold W10 KLayer2.Wb; rfl

theorem W12_eq : W12 (F := Ideal) m ρ = KLayer2.Wd (W9 m ρ) := by
  have h3 : W11 (F := Ideal) m ρ = KLayer2.Wc (W9 m ρ) := by
    funext c
    show StableHlo.after hostOps5 (W10 m ρ c) = StableHlo.after hostOps5 (KLayer2.Wb (W9 m ρ) c)
    rw [W10_eq]
  have hv : V11 (F := Ideal) m ρ = KLayer2.Vc (W9 m ρ) := by
    funext c b
    show W11 m ρ c b = KLayer2.Wc (W9 m ρ) c b
    rw [h3]
  funext c; unfold W12 KLayer2.Wd; rw [h3, hv]

theorem W14_eq : W14 (F := Ideal) m ρ = KTail.Wc (W12 m ρ) := by
  funext c; unfold W14 KTail.Wc; rfl

theorem W16_eq : W16 (F := Ideal) m ρ = KTail.We (W12 m ρ) := by
  have h3 : W15 (F := Ideal) m ρ = KTail.Wd (W12 m ρ) := by
    funext c
    show StableHlo.after hostOps7 (W14 m ρ c) = StableHlo.after hostOps7 (KTail.Wc (W12 m ρ) c)
    rw [W14_eq]
  have hv : V15 (F := Ideal) m ρ = KTail.Vd (W12 m ρ) := by
    funext c b
    show W15 m ρ c b = KTail.Wd (W12 m ρ) c b
    rw [h3]
  funext c; unfold W16 KTail.We; rw [h3, hv]

/-! ## Buffers written once and read later are unchanged in between -/

/-- After the first layer and the re-layout, the edge words, the scale, the graph ids and the later weights are as
    the first host stretch left them. -/
theorem keep5 (c : Dev nD) (b : Ref sig .tc) (hb : b ∈ ([main_v1, main_v3, main_v16, main_v19, main_arg2, main_arg5, main_arg6, main_arg7, main_arg8, main_arg9, main_arg10, main_arg11, main_arg12] : List (Ref sig .tc))) :
    W5 (F := Ideal) m ρ c (Proc.devRef .tc b) = W1 m ρ c (Proc.devRef .tc b) :=
  (KGlue.keep2 (W4 m ρ c) b hb).trans
    ((congrFun (congrFun (W4_eq m ρ) c) (Proc.devRef .tc b)).trans (KLayer0.keep (W1 m ρ) c b hb))

/-- The same after the second layer and its re-layout. -/
theorem keep9 (c : Dev nD) (b : Ref sig .tc)
    (hb4 : b ∈ ([main_v1, main_v3, main_v16, main_v19, main_arg2, main_arg7, main_arg8, main_arg9, main_arg10, main_arg11, main_arg12] : List (Ref sig .tc)))
    (hb : b ∈ ([main_v1, main_v3, main_v16, main_v19, main_arg2, main_arg5, main_arg6, main_arg7, main_arg8, main_arg9, main_arg10, main_arg11, main_arg12] : List (Ref sig .tc))) :
    W9 (F := Ideal) m ρ c (Proc.devRef .tc b) = W1 m ρ c (Proc.devRef .tc b) :=
  (KGlue.keep4 (W8 m ρ c) b hb4).trans
    ((congrFun (congrFun (W8_eq m ρ) c) (Proc.devRef .tc b)).trans
      ((KLayer1.keep (W5 m ρ) c b hb).trans (keep5 m ρ c b hb)))

/-- The same after the third layer. -/
theorem keep12 (c : Dev nD) (b : Ref sig .tc)
    (hb4 : b ∈ ([main_v1, main_v3, main_v16, main_v19, main_arg2, main_arg7, main_arg8, main_arg9, main_arg10, main_arg11, main_arg12] : List (Ref sig .tc)))
    (hb : b ∈ ([main_v1, main_v3, main_v16, main_v19, main_arg2, main_arg5, main_arg6, main_arg7, main_arg8, main_arg9, main_arg10, main_arg11, main_arg12] : List (Ref sig .tc))) :
    W12 (F := Ideal) m ρ c (Proc.devRef .tc b) = W1 m ρ c (Proc.devRef .tc b) :=
  (congrFun (congrFun (W12_eq m ρ) c) (Proc.devRef .tc b)).trans
    ((KLayer2.keep (W9 m ρ) c b hb).trans (keep9 m ρ c b hb4 hb))

/-- The first host stretch leaves an argument as launched. -/
theorem keep1 (c : Dev nD) (b : Ref sig .tc) (hb : b ∈ ([main_arg0, main_arg1, main_arg2, main_arg3, main_arg4, main_arg5, main_arg6, main_arg7, main_arg8, main_arg9, main_arg10, main_arg11, main_arg12] : List (Ref sig .tc))) :
    W1 (F := Ideal) m ρ c (Proc.devRef .tc b) = m ((c.tc : Thread nD τ).loc b) :=
  (KHead.keep (W0 m ρ) c b hb).trans rfl

/-! ## The arguments as launched, by literal type -/

abbrev xA (c : Dev nD) : A2 100000 64 := m ((c.tc : Thread nD τ).loc main_arg0)
abbrev eiA (c : Dev nD) : EdgeList := m ((c.tc : Thread nD τ).loc main_arg1)
abbrev btA (c : Dev nD) : Cert.Tail.GraphIds := m ((c.tc : Thread nD τ).loc main_arg2)
abbrev w0A (c : Dev nD) : A2 64 64 := m ((c.tc : Thread nD τ).loc main_arg3)
abbrev b0A (c : Dev nD) : A1 64 := m ((c.tc : Thread nD τ).loc main_arg4)
abbrev w1A (c : Dev nD) : A2 64 64 := m ((c.tc : Thread nD τ).loc main_arg5)
abbrev b1A (c : Dev nD) : A1 64 := m ((c.tc : Thread nD τ).loc main_arg6)
abbrev w2A (c : Dev nD) : A2 64 64 := m ((c.tc : Thread nD τ).loc main_arg7)
abbrev b2A (c : Dev nD) : A1 64 := m ((c.tc : Thread nD τ).loc main_arg8)
abbrev fcWA (c : Dev nD) : A2 64 64 := m ((c.tc : Thread nD τ).loc main_arg9)
abbrev fcbA (c : Dev nD) : A1 64 := m ((c.tc : Thread nD τ).loc main_arg10)
abbrev fc2WA (c : Dev nD) : A2 64 26 := m ((c.tc : Thread nD τ).loc main_arg11)
abbrev fc2bA (c : Dev nD) : A1 26 := m ((c.tc : Thread nD τ).loc main_arg12)

/-! ## The graph's ingredients in the first host stretch's buffers -/

theorem srcw1 (c : Dev nD) (e : Fin 1000000) :
    (W1 (F := Ideal) m ρ c (Proc.devRef .tc main_v1) : IVec S1000000 32) (ix1 e) = eiA m c (ix2 (0 : Fin 2) e) :=
  KHead.srcw (W0 m ρ) c e
theorem dstw1 (c : Dev nD) (e : Fin 1000000) :
    (W1 (F := Ideal) m ρ c (Proc.devRef .tc main_v3) : IVec S1000000 32) (ix1 e) = eiA m c (ix2 (1 : Fin 2) e) :=
  KHead.dstw (W0 m ρ) c e
theorem dcol1 (c : Dev nD) (i : Fin 100000) :
    (W1 (F := Ideal) m ρ c (Proc.devRef .tc main_v16) : Vec Ideal S100000x1 .f32) (ix2 i (0 : Fin 1)) = dinv (eiA m c) i :=
  KHead.dcol (W0 m ρ) c i

/-- The scale on 128 lanes is the scale column's entry of the lane's node row, in any later contents that kept both. -/
theorem dtil_of (Wa : Dev nD → Valuation τ sig (Elt Ideal)) (c : Dev nD)
    (h19 : Wa c (Proc.devRef .tc main_v19) = W1 (F := Ideal) m ρ c (Proc.devRef .tc main_v19))
    (h16 : Wa c (Proc.devRef .tc main_v16) = W1 (F := Ideal) m ρ c (Proc.devRef .tc main_v16))
    (r : Fin 50000) (l : Fin 128) :
    (Wa c (Proc.devRef .tc main_v19) : Vec Ideal S50000x128 .f32) (ix2 r l)
      = (Wa c (Proc.devRef .tc main_v16) : Vec Ideal S100000x1 .f32) (ix2 (⟨2 * r.val + l.val / 64, by omega⟩ : Fin 100000) (0 : Fin 1)) := by
  rw [h19, h16]
  exact KHead.dtil (W0 m ρ) c r l

/-- A layer whose edge words and scale column are the first host stretch's is the layer over the edge list's graph. -/
theorem layer_graph (c : Dev nD) (sw dw : IVec S1000000 32) (dc : Vec Ideal S100000x1 .f32)
    (hs : sw = W1 (F := Ideal) m ρ c (Proc.devRef .tc main_v1)) (hdw : dw = W1 (F := Ideal) m ρ c (Proc.devRef .tc main_v3))
    (hdc : dc = W1 (F := Ideal) m ρ c (Proc.devRef .tc main_v16))
    {h h' : M 100000 64} (hh : ∀ i k, h i k = h' i k) {W W' : M 64 64} (hW : ∀ k j, W k j = W' k j)
    {b b' : Fin 64 → EReal} (hb : ∀ j, b j = b' j) :
    kLayer (fun e i => rowOf? 100000 (wrapWord 100000#32 (dw (ix1 e))) = some i)
        (fun e => clampRow 100000 (by decide) (wrapWord 100000#32 (sw (ix1 e))))
        (fun i => dc (ix2 i (0 : Fin 1))) h W b
      = kLayer (arrives (eiA m c)) (src (eiA m c)) (dinv (eiA m c)) h' W' b' := by
  subst hs hdw hdc
  refine Cert.Tail.kLayer_congr (fun e i => ?_) (fun e => ?_) (fun i => dcol1 m ρ c i) hh hW hb
  · rw [dstw1]; exact Iff.rfl
  · rw [srcw1]; rfl

/-! ## The three layers -/

/-- The three layers' results over the edge list's graph. -/
def f1 (c : Dev nD) : M 100000 64 :=
  kLayer (arrives (eiA m c)) (src (eiA m c)) (dinv (eiA m c)) (mat (xA m c)) (mat (w0A m c)) (vec (b0A m c))
def f2 (c : Dev nD) : M 100000 64 :=
  kLayer (arrives (eiA m c)) (src (eiA m c)) (dinv (eiA m c)) (f1 m c) (mat (w1A m c)) (vec (b1A m c))
def f3 (c : Dev nD) : M 100000 64 :=
  kLayer (arrives (eiA m c)) (src (eiA m c)) (dinv (eiA m c)) (f2 m c) (mat (w2A m c)) (vec (b2A m c))

theorem f3_eq (c : Dev nD) :
    f3 m c = Cert.Final.kFeat (xA m c) (eiA m c) (w0A m c) (b0A m c) (w1A m c) (b1A m c) (w2A m c) (b2A m c) := rfl

/-- Entry (i, k) sits in merged row i / 2 at lane (i % 2) · 64 + k, and that lane of that row holds node row i, column k:
    2 (i / 2) + ((i % 2) · 64 + k) / 64 = i and ((i % 2) · 64 + k) % 64 = k. -/
theorem node0 (i : Fin 100000) (k : Fin 64) : KLayer0.nodeOf (KGlue.rowOfNode i) (KGlue.laneOf i k) = i :=
  Fin.ext (by show 2 * (i.val / 2) + ((i.val % 2) * 64 + k.val) / 64 = i.val; omega)
theorem col0 (i : Fin 100000) (k : Fin 64) : KLayer0.colOf (KGlue.laneOf i k) = k :=
  Fin.ext (by show ((i.val % 2) * 64 + k.val) % 64 = k.val; omega)
theorem node1 (i : Fin 100000) (k : Fin 64) : KLayer1.nodeOf (KGlue.rowOfNode i) (KGlue.laneOf i k) = i :=
  Fin.ext (by show 2 * (i.val / 2) + ((i.val % 2) * 64 + k.val) / 64 = i.val; omega)
theorem col1 (i : Fin 100000) (k : Fin 64) : KLayer1.colOf (KGlue.laneOf i k) = k :=
  Fin.ext (by show ((i.val % 2) * 64 + k.val) % 64 = k.val; omega)
theorem node2 (i : Fin 100000) (k : Fin 64) : KLayer2.nodeOf (KTail.rowOfNode i) (KTail.laneOf i k) = i :=
  Fin.ext (by show 2 * (i.val / 2) + ((i.val % 2) * 64 + k.val) / 64 = i.val; omega)
theorem col2 (i : Fin 100000) (k : Fin 64) : KLayer2.colOf (KTail.laneOf i k) = k :=
  Fin.ext (by show ((i.val % 2) * 64 + k.val) % 64 = k.val; omega)

/-- The first layer's result array, on 128 lanes. -/
theorem layer0 (c : Dev nD) (r : Fin 50000) (l : Fin 128) :
    (W4 (F := Ideal) m ρ c (Proc.devRef .tc main_v40) : Vec Ideal S50000x128 .f32) (ix2 r l)
      = f1 m c (KLayer0.nodeOf r l) (KLayer0.colOf l) := by
  rw [W4_eq, KLayer0.value (W1 m ρ) c (fun r l => dtil_of m ρ (W1 m ρ) c rfl rfl r l) r l]
  unfold f1
  exact congrFun (congrFun (layer_graph m ρ c _ _ _ rfl rfl rfl
    (fun i k => congrFun (keep1 m ρ c main_arg0 (by decide)) (ix2 i k))
    (fun k j => congrFun (keep1 m ρ c main_arg3 (by decide)) (ix2 k j))
    (fun j => congrFun (keep1 m ρ c main_arg4 (by decide)) (ix1 j))) _) _

/-- Laid back out as rows of 64: the second layer's features. -/
theorem feat1 (c : Dev nD) (i : Fin 100000) (k : Fin 64) :
    (W5 (F := Ideal) m ρ c (Proc.devRef .tc main_v41) : Vec Ideal S100000x64 .f32) (ix2 i k) = f1 m c i k := by
  refine (KGlue.value2 (W4 m ρ c) i k).trans ?_
  rw [layer0, node0, col0]

/-- The second layer's result array, on 128 lanes. -/
theorem layer1 (c : Dev nD) (r : Fin 50000) (l : Fin 128) :
    (W8 (F := Ideal) m ρ c (Proc.devRef .tc main_v62) : Vec Ideal S50000x128 .f32) (ix2 r l)
      = f2 m c (KLayer1.nodeOf r l) (KLayer1.colOf l) := by
  rw [W8_eq, KLayer1.value (W5 m ρ) c (fun r l => dtil_of m ρ (W5 m ρ) c (keep5 m ρ c main_v19 (by decide)) (keep5 m ρ c main_v16 (by decide)) r l) r l]
  unfold f2
  exact congrFun (congrFun (layer_graph m ρ c _ _ _ (keep5 m ρ c main_v1 (by decide)) (keep5 m ρ c main_v3 (by decide)) (keep5 m ρ c main_v16 (by decide))
    (fun i k => feat1 m ρ c i k)
    (fun k j => congrFun ((keep5 m ρ c main_arg5 (by decide)).trans (keep1 m ρ c main_arg5 (by decide))) (ix2 k j))
    (fun j => congrFun ((keep5 m ρ c main_arg6 (by decide)).trans (keep1 m ρ c main_arg6 (by decide))) (ix1 j))) _) _

/-- Laid back out as rows of 64: the third layer's features. -/
theorem feat2 (c : Dev nD) (i : Fin 100000) (k : Fin 64) :
    (W9 (F := Ideal) m ρ c (Proc.devRef .tc main_v63) : Vec Ideal S100000x64 .f32) (ix2 i k) = f2 m c i k := by
  refine (KGlue.value4 (W8 m ρ c) i k).trans ?_
  rw [layer1, node1, col1]

/-- The third layer's result array, on 128 lanes. -/
theorem layer2 (c : Dev nD) (r : Fin 50000) (l : Fin 128) :
    (W12 (F := Ideal) m ρ c (Proc.devRef .tc main_v84) : Vec Ideal S50000x128 .f32) (ix2 r l)
      = f3 m c (KLayer2.nodeOf r l) (KLayer2.colOf l) := by
  rw [W12_eq, KLayer2.value (W9 m ρ) c (fun r l => dtil_of m ρ (W9 m ρ) c (keep9 m ρ c main_v19 (by decide) (by decide)) (keep9 m ρ c main_v16 (by decide) (by decide)) r l) r l]
  unfold f3
  exact congrFun (congrFun (layer_graph m ρ c _ _ _ (keep9 m ρ c main_v1 (by decide) (by decide)) (keep9 m ρ c main_v3 (by decide) (by decide)) (keep9 m ρ c main_v16 (by decide) (by decide))
    (fun i k => feat2 m ρ c i k)
    (fun k j => congrFun ((keep9 m ρ c main_arg7 (by decide) (by decide)).trans (keep1 m ρ c main_arg7 (by decide))) (ix2 k j))
    (fun j => congrFun ((keep9 m ρ c main_arg8 (by decide) (by decide)).trans (keep1 m ρ c main_arg8 (by decide))) (ix1 j))) _) _

/-! ## The result -/

/-- After the third layer an argument the end reads is as launched. -/
theorem arg12 (c : Dev nD) (b : Ref sig .tc)
    (hb4 : b ∈ ([main_v1, main_v3, main_v16, main_v19, main_arg2, main_arg7, main_arg8, main_arg9, main_arg10, main_arg11, main_arg12] : List (Ref sig .tc)))
    (hb : b ∈ ([main_v1, main_v3, main_v16, main_v19, main_arg2, main_arg5, main_arg6, main_arg7, main_arg8, main_arg9, main_arg10, main_arg11, main_arg12] : List (Ref sig .tc)))
    (ha : b ∈ ([main_arg0, main_arg1, main_arg2, main_arg3, main_arg4, main_arg5, main_arg6, main_arg7, main_arg8, main_arg9, main_arg10, main_arg11, main_arg12] : List (Ref sig .tc))) :
    W12 (F := Ideal) m ρ c (Proc.devRef .tc b) = m ((c.tc : Thread nD τ).loc b) :=
  (keep12 m ρ c b hb4 hb).trans (keep1 m ρ c b ha)

/-- The head does not depend on the spelling of its operands. -/
theorem head_congr {p p' : M 512 64} (hp : p = p') {W1 W1' : M 64 64} (h1 : W1 = W1') {b1 b1' : Fin 64 → EReal} (hb1 : b1 = b1')
    {W2 W2' : M 64 26} (h2 : W2 = W2') {b2 b2' : Fin 26 → EReal} (hb2 : b2 = b2') :
    head p W1 b1 W2 b2 = head p' W1' b1' W2' b2' := by
  subst hp h1 hb1 h2 hb2; rfl

/-- The program's result array after the run, entry `(g, o)`, is the kernel's result function of the launch
    contents of the thirteen arguments. -/
theorem value (c : Dev nD) (g : Fin 512) (o : Fin 26) :
    (W16 (F := Ideal) m ρ c (Proc.devRef .tc main_v104) : Vec Ideal S512x26 .f32) (ix2 g o)
      = Cert.Final.kResult
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) g o := by
  rw [W16_eq, KTail.value (W12 m ρ) c g o]
  unfold Cert.Final.kResult
  have ef : (fun i k => KTail.feat (W12 m ρ) c (ix2 (KTail.rowOfNode i) (KTail.laneOf i k)))
      = Cert.Final.kFeat (xA m c) (eiA m c) (w0A m c) (b0A m c) (w1A m c) (b1A m c) (w2A m c) (b2A m c) := by
    rw [← f3_eq]
    funext i k
    refine (layer2 m ρ c (KTail.rowOfNode i) (KTail.laneOf i k)).trans ?_
    rw [node2, col2]
  have eg : KTail.gids (W12 m ρ) c = btA m c := arg12 m ρ c main_arg2 (by decide) (by decide) (by decide)
  refine congrFun (congrFun (head_congr (congrArg₂ Cert.Tail.meanK eg ef)
    (funext fun q => funext fun k => congrFun (arg12 m ρ c main_arg9 (by decide) (by decide) (by decide)) (ix2 q k))
    (funext fun k => congrFun (arg12 m ρ c main_arg10 (by decide) (by decide) (by decide)) (ix1 k))
    (funext fun k => funext fun o => congrFun (arg12 m ρ c main_arg11 (by decide) (by decide) (by decide)) (ix2 k o))
    (funext fun o => congrFun (arg12 m ρ c main_arg12 (by decide) (by decide) (by decide)) (ix1 o))) g) o

end Cert.KernelIdeal.KValue

end
-- ==== Proof.RLayerRead.lean ====
/-
  One graph-convolution layer of the reference, read entry by entry over variables.
  The edge words are wrapped as array indexing wraps them; the scale is the inverse square root of one plus the number
  of edges landing on a row; a layer gathers the projected features at the source rows, scales each message by
  d(source) · d(target), scatter-adds the messages at the target rows into zeros, adds the node's own entry scaled by
  d · d and the bias, and clamps at zero from below.
-/
import proofs.«423190_j88252987998746_2_alg».proof.Proof.Spec
import proofs.«423190_j88252987998746_2_alg».proof.Proof.LibScatter
import Idealize.ShloMosaic.Lib.Pipeline.Value
import Idealize.ShloMosaic.Lib.ValueIdx
import Idealize.ShloMosaic.PureOps.Ideal.Laws

noncomputable section

namespace Cert.RLayerRead

open Idealize.ShloMosaic Idealize.ShloMosaic.ValueIdx Cert.LibScatter

/-- A sum over the members of a decidable predicate does not depend on how the predicate is decided. -/
theorem sum_filter_inst {ι M : Type*} [Fintype ι] [AddCommMonoid M] (p : ι → Prop) (h1 h2 : DecidablePred p) (f : ι → M) :
    ∑ e ∈ @Finset.filter ι p h1 Finset.univ, f e = ∑ e ∈ @Finset.filter ι p h2 Finset.univ, f e := by
  have h : h1 = h2 := Subsingleton.elim _ _
  subst h
  rfl

/-- Row 0 of the edge list, sliced out and flattened, reads at `e` the list's entry `(0, e)`. -/
theorem row0_read {α : Type} (hs : (⟨2, ![2, 1000000]⟩ : Shape).Slices ![0, 0] ⟨2, ![1, 1000000]⟩)
    (hc : (⟨2, ![1, 1000000]⟩ : Shape).ShapeCasts ⟨1, ![1000000]⟩)
    (x : (⟨2, ![2, 1000000]⟩ : Shape).Idx → α) (e : Fin 1000000) :
    shapeCast ⟨1, ![1000000]⟩ (extractStridedSlice ⟨2, ![1, 1000000]⟩ ![0, 0] x hs) hc (ix1 e) = x (ix2 (0 : Fin 2) e) := by
  refine (shapeCast_apply _ hc (ix1 e) (ix2 (0 : Fin 1) e) ?_).trans ?_
  · rw [Shape.rowMajor_val_two, Shape.rowMajor_val_one]
    show 0 * 1000000 + e.val = e.val
    omega
  · exact extractStridedSlice_apply ![0, 0] x hs (ix2 (0 : Fin 1) e) (ix2 (0 : Fin 2) e) (fun a => match a with
      | ⟨0, _⟩ => by show (0 : ℕ) = 0 + 0; rfl
      | ⟨1, _⟩ => by show e.val = 0 + e.val; omega)

/-- Row 1 of the edge list, sliced out and flattened, reads at `e` the list's entry `(1, e)`. -/
theorem row1_read {α : Type} (hs : (⟨2, ![2, 1000000]⟩ : Shape).Slices ![1, 0] ⟨2, ![1, 1000000]⟩)
    (hc : (⟨2, ![1, 1000000]⟩ : Shape).ShapeCasts ⟨1, ![1000000]⟩)
    (x : (⟨2, ![2, 1000000]⟩ : Shape).Idx → α) (e : Fin 1000000) :
    shapeCast ⟨1, ![1000000]⟩ (extractStridedSlice ⟨2, ![1, 1000000]⟩ ![1, 0] x hs) hc (ix1 e) = x (ix2 (1 : Fin 2) e) := by
  refine (shapeCast_apply _ hc (ix1 e) (ix2 (0 : Fin 1) e) ?_).trans ?_
  · rw [Shape.rowMajor_val_two, Shape.rowMajor_val_one]
    show 0 * 1000000 + e.val = e.val
    omega
  · exact extractStridedSlice_apply ![1, 0] x hs (ix2 (0 : Fin 1) e) (ix2 (1 : Fin 2) e) (fun a => match a with
      | ⟨0, _⟩ => by show (1 : ℕ) = 1 + 0; rfl
      | ⟨1, _⟩ => by show e.val = 0 + e.val; omega)

/-- A vector kept as a one-column array reads, at `(e, 0)`, the vector at `e`. -/
theorem col_read {α : Type} {n : ℕ} (hn : n ≠ 1) (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) :=
  broadcastInDim_apply _ hb v (ix2 e (0 : Fin 1)) (ix1 e) (fun a => match a with
    | ⟨0, _⟩ => by show e.val = if n = 1 then 0 else e.val; rw [if_neg hn])

/-- A one-column array spread along a second axis reads, at `(e, c)`, the column at `(e, 0)`. -/
theorem spread_read {α : Type} {n m : ℕ} (hn : n ≠ 1) (hb : (⟨2, ![n, 1]⟩ : Shape).BroadcastsInDim ⟨2, ![n, m]⟩ ![0, 1])
    (v : (⟨2, ![n, 1]⟩ : Shape).Idx → α) (e : Fin n) (c : Fin m) :
    broadcastInDim ⟨2, ![n, m]⟩ ![0, 1] hb v (ix2 e c) = v (ix2 e (0 : Fin 1)) :=
  broadcastInDim_apply _ hb v (ix2 e c) (ix2 e (0 : Fin 1)) (fun a => match a with
    | ⟨0, _⟩ => by show e.val = if n = 1 then 0 else e.val; rw [if_neg hn]
    | ⟨1, _⟩ => by show (0 : ℕ) = if (1 : ℕ) = 1 then 0 else c.val; rw [if_pos rfl])

/-- The wrapped index word: a word below zero (read signed) has the row count added. Kept as a one-column array it
    reads, at `(e, 0)`, the wrap of the word at `e`. -/
theorem wrap_read (hb : (⟨1, ![1000000]⟩ : Shape).BroadcastsInDim ⟨2, ![1000000, 1]⟩ ![0])
    (w z c : IVec ⟨1, ![1000000]⟩ 32) (hz : ∀ k, z k = 0#32) (hc : ∀ k, c k = 100000#32) (e : Fin 1000000) :
    broadcastInDim ⟨2, ![1000000, 1]⟩ ![0] hb (select (cmpi .slt w z) (addi w c) w) (ix2 e (0 : Fin 1))
      = Scalar.select (IntOp.cmpi .slt (w (ix1 e)) 0#32) (IntOp.addi (w (ix1 e)) 100000#32) (w (ix1 e)) := by
  refine (col_read (by decide) hb _ e).trans ?_
  show Scalar.select (IntOp.cmpi .slt (w (ix1 e)) (z (ix1 e))) (IntOp.addi (w (ix1 e)) (c (ix1 e))) (w (ix1 e)) = _
  rw [hz, hc]

/-- The scale: ones scatter-added into zeros at the target words, plus one, inverse square root. -/
theorem scale_read (wf : ScatterDims.WF ⟨1, ![100000]⟩ ⟨2, ![1000000, 1]⟩ ⟨1, ![1000000]⟩ [] [0] [0] 1)
    (z one' : FVec Ideal ⟨1, ![100000]⟩ .f32) (ones : FVec Ideal ⟨1, ![1000000]⟩ .f32) (w : IVec ⟨2, ![1000000, 1]⟩ 32)
    (tw : Fin 1000000 → BitVec 32)
    (hz : ∀ k, z k = 0) (hones : ∀ k, ones k = 1) (hone' : ∀ k, one' k = 1) (hw : ∀ e, w (ix2 e (0 : Fin 1)) = tw e)
    (i : Fin 100000) :
    Host.rsqrt (addf (Host.scatterAdd (F := Ideal) (vecScatter 100000 1000000 wf) z w ones) one') (ix1 i)
      = Ideal.rsqrt ((((0 : EReal) + ∑ _e ∈ Finset.univ.filter (fun e : Fin 1000000 => rowOf? 100000 (tw e) = some i), (1 : EReal))) + 1) := by
  show Ideal.rsqrt (Host.scatterAdd (F := Ideal) (vecScatter 100000 1000000 wf) z w ones (ix1 i) + one' (ix1 i)) = _
  rw [vecScatterAdd_apply, hz, hone']
  simp only [hw, hones]

/-- One layer at entry (i, j): the messages of the edges landing on row i, each the projected feature at the edge's
    source row times d(source) · d(target), summed from zero; plus the node's own entry times d · d; plus the bias;
    clamped at zero from below. -/
theorem layer_read
    (wfS : ScatterDims.WF ⟨2, ![100000, 64]⟩ ⟨2, ![1000000, 1]⟩ ⟨2, ![1000000, 64]⟩ [1] [0] [0] 1)
    (wfG : GatherDims.WF ⟨2, ![100000, 64]⟩ ⟨2, ![1000000, 1]⟩ ⟨2, ![1000000, 64]⟩ [1] [0] [] [0] [] 1 ![1, 64])
    (wfV : GatherDims.WF ⟨1, ![100000]⟩ ⟨2, ![1000000, 1]⟩ ⟨1, ![1000000]⟩ [] [0] [] [0] [] 1 ![1])
    (hb1 : (⟨1, ![1000000]⟩ : Shape).BroadcastsInDim ⟨2, ![1000000, 1]⟩ ![0])
    (hb2 : (⟨2, ![1000000, 1]⟩ : Shape).BroadcastsInDim ⟨2, ![1000000, 64]⟩ ![0, 1])
    (hb3 : (⟨1, ![100000]⟩ : Shape).BroadcastsInDim ⟨2, ![100000, 1]⟩ ![0])
    (hb4 : (⟨2, ![100000, 1]⟩ : Shape).BroadcastsInDim ⟨2, ![100000, 64]⟩ ![0, 1])
    (xw z bb zr : FVec Ideal ⟨2, ![100000, 64]⟩ .f32) (dv : FVec Ideal ⟨1, ![100000]⟩ .f32)
    (wa wb wc wd : IVec ⟨2, ![1000000, 1]⟩ 32)
    (sw tw : Fin 1000000 → BitVec 32)
    (ha : ∀ e, wa (ix2 e (0 : Fin 1)) = sw e) (hb : ∀ e, wb (ix2 e (0 : Fin 1)) = tw e)
    (hc : ∀ e, wc (ix2 e (0 : Fin 1)) = sw e) (hd : ∀ e, wd (ix2 e (0 : Fin 1)) = tw e)
    (d : Fin 100000 → EReal) (hdv : ∀ i, dv (ix1 i) = d i)
    (h : Cert.Spec.M 100000 64) (W : Cert.Spec.M 64 64) (hxw : ∀ i j, xw (ix2 i j) = Cert.Spec.proj h W i j)
    (b : Fin 64 → EReal) (hbb : ∀ i j, bb (ix2 i j) = b j)
    (hz : ∀ i j, z (ix2 i j) = 0) (hzr : ∀ i j, zr (ix2 i j) = 0) (i : Fin 100000) (j : Fin 64) :
    maximumf (addf (addf (Host.scatterAdd (F := Ideal) (rowScatter 100000 1000000 64 wfS) z wd
        (mulf (Host.gather (rowGather 100000 1000000 64 wfG) xw wc)
          (broadcastInDim ⟨2, ![1000000, 64]⟩ ![0, 1] hb2 (broadcastInDim ⟨2, ![1000000, 1]⟩ ![0] hb1
            (mulf (Host.gather (vecGather 100000 1000000 wfV) dv wa) (Host.gather (vecGather 100000 1000000 wfV) dv wb))))))
      (mulf xw (broadcastInDim ⟨2, ![100000, 64]⟩ ![0, 1] hb4 (broadcastInDim ⟨2, ![100000, 1]⟩ ![0] hb3 (mulf dv dv))))) bb) zr
        (ix2 i j)
      = Cert.Spec.rLayer (fun e i => rowOf? 100000 (tw e) = some i) (fun e => clampRow 100000 (by decide) (sw e))
          (fun e => clampRow 100000 (by decide) (tw e)) d h W b i j := by
  -- the edges landing on row i, by the target words
  have hf : (Finset.univ.filter (fun e : Fin 1000000 => rowOf? 100000 (wd (ix2 e (0 : Fin 1))) = some i))
      = Finset.univ.filter (fun e : Fin 1000000 => rowOf? 100000 (tw e) = some i) :=
    Finset.filter_congr (fun e _ => by rw [hd])
  simp only [maximumf_apply, addf_apply, mulf_apply]
  rw [rowScatterAdd_apply, hf]
  simp only [mulf_apply, rowGather_apply (N := 100000) (by decide), vecGather_apply (N := 100000) (by decide),
    spread_read (by decide) hb2, spread_read (by decide) hb4, col_read (by decide) hb1, col_read (by decide) hb3,
    ha, hb, hc, hdv, hxw, hbb, hz, hzr]
  rfl

end Cert.RLayerRead

end
-- ==== Proof.RWords0.lean ====
/-
  One layer's index words, scale and zero constants, read entry by entry.
  The two rows of the edge list are sliced out and flattened; each use of an edge's end word wraps it (a word below
  zero has the row count added) and keeps it as a one-column array of start words. The scale is the inverse square
  root of one plus the number of edges landing on a row. The scatter starts from zeros and the clamp's bound is zero.
-/
import proofs.«423190_j88252987998746_2_alg».proof.Proof.Gen.ReferenceIdeal.Read
import proofs.«423190_j88252987998746_2_alg».proof.Proof.LibScatter
import proofs.«423190_j88252987998746_2_alg».proof.Proof.Graph
import proofs.«423190_j88252987998746_2_alg».proof.Proof.RLayerRead
import Idealize.ShloMosaic.Lib.Pipeline.Value
import Idealize.ShloMosaic.Lib.ValueIdx
import Idealize.ShloMosaic.PureOps.Ideal.Laws

set_option maxRecDepth 16384

noncomputable section

namespace Cert.ReferenceIdeal.RWords0

open Idealize.ShloMosaic Idealize.ShloMosaic.ValueIdx Idealize.ShloMosaic.TcCoe
open Cert.ReferenceIdeal Cert.ReferenceIdeal.Read Cert.LibScatter Cert.Graph Cert.RLayerRead

/-- The flattened source row of the edge list reads, at e, the list's entry (0, e). -/
theorem srcRow (x1 : IVec S2x1000000 32) (e : Fin 1000000) :
    val_main_v1 (F := Ideal) x1 (ix1 e) = x1 (ix2 (0 : Fin 2) e) :=
  row0_read Gen.slices_S2x1000000_S1x1000000_0_0 Gen.shapeCasts_S1x1000000_S1000000 x1 e

/-- The flattened target row of the edge list reads, at e, the list's entry (1, e). -/
theorem dstRow (x1 : IVec S2x1000000 32) (e : Fin 1000000) :
    val_main_v3 (F := Ideal) x1 (ix1 e) = x1 (ix2 (1 : Fin 2) e) :=
  row1_read Gen.slices_S2x1000000_S1x1000000_1_0 Gen.shapeCasts_S1x1000000_S1000000 x1 e

/-- The start words of the scale's scatter are the wrapped target words. -/
theorem wScale (x1 : IVec S2x1000000 32) (e : Fin 1000000) :
    val_main_v11 (F := Ideal) x1 (ix2 e (0 : Fin 1)) = dstWord x1 e :=
  (wrap_read Gen.bcast_S1000000_S1000000x1_0 (val_main_v3 (F := Ideal) x1) (val_main_v6 (F := Ideal)) (val_main_v8 (F := Ideal))
    (fun k => (val_main_v6_apply (F := Ideal) k).trans (val_main_c_apply _))
    (fun k => (val_main_v8_apply (F := Ideal) k).trans (val_main_c_0_apply _)) e).trans
    (congrArg (wrapWord 100000#32) (dstRow x1 e))

/-- The start words of the source-scale gather are the wrapped source words. -/
theorem wSrcScale (x1 : IVec S2x1000000 32) (e : Fin 1000000) :
    val_main_v22 (F := Ideal) x1 (ix2 e (0 : Fin 1)) = srcWord x1 e :=
  (wrap_read Gen.bcast_S1000000_S1000000x1_0 (val_main_v1 (F := Ideal) x1) (val_main_v17 (F := Ideal)) (val_main_v19 (F := Ideal))
    (fun k => (val_main_v17_apply (F := Ideal) k).trans (val_main_c_3_apply _))
    (fun k => (val_main_v19_apply (F := Ideal) k).trans (val_main_c_4_apply _)) e).trans
    (congrArg (wrapWord 100000#32) (srcRow x1 e))

/-- The start words of the target-scale gather are the wrapped target words. -/
theorem wDstScale (x1 : IVec S2x1000000 32) (e : Fin 1000000) :
    val_main_v29 (F := Ideal) x1 (ix2 e (0 : Fin 1)) = dstWord x1 e :=
  (wrap_read Gen.bcast_S1000000_S1000000x1_0 (val_main_v3 (F := Ideal) x1) (val_main_v24 (F := Ideal)) (val_main_v26 (F := Ideal))
    (fun k => (val_main_v24_apply (F := Ideal) k).trans (val_main_c_5_apply _))
    (fun k => (val_main_v26_apply (F := Ideal) k).trans (val_main_c_6_apply _)) e).trans
    (congrArg (wrapWord 100000#32) (dstRow x1 e))

/-- The start words of the feature gather are the wrapped source words. -/
theorem wSrcRows (x1 : IVec S2x1000000 32) (e : Fin 1000000) :
    val_main_v38 (F := Ideal) x1 (ix2 e (0 : Fin 1)) = srcWord x1 e :=
  (wrap_read Gen.bcast_S1000000_S1000000x1_0 (val_main_v1 (F := Ideal) x1) (val_main_v33 (F := Ideal)) (val_main_v35 (F := Ideal))
    (fun k => (val_main_v33_apply (F := Ideal) k).trans (val_main_c_8_apply _))
    (fun k => (val_main_v35_apply (F := Ideal) k).trans (val_main_c_9_apply _)) e).trans
    (congrArg (wrapWord 100000#32) (srcRow x1 e))

/-- The start words of the message scatter are the wrapped target words. -/
theorem wDstRows (x1 : IVec S2x1000000 32) (e : Fin 1000000) :
    val_main_v48 (F := Ideal) x1 (ix2 e (0 : Fin 1)) = dstWord x1 e :=
  (wrap_read Gen.bcast_S1000000_S1000000x1_0 (val_main_v3 (F := Ideal) x1) (val_main_v43 (F := Ideal)) (val_main_v45 (F := Ideal))
    (fun k => (val_main_v43_apply (F := Ideal) k).trans (val_main_c_10_apply _))
    (fun k => (val_main_v45_apply (F := Ideal) k).trans (val_main_c_11_apply _)) e).trans
    (congrArg (wrapWord 100000#32) (dstRow x1 e))

/-- The scale vector is the graph's d. -/
theorem scale (x1 : IVec S2x1000000 32) (i : Fin 100000) : val_main_v16 (F := Ideal) x1 (ix1 i) = dinv x1 i := by
  refine (scale_read Gen.scatter_S100000_S1000000x1_S1000000_n_0_0_1_wf (val_main_v5 (F := Ideal)) (val_main_v14 (F := Ideal))
    (val_main_v12 (F := Ideal)) (val_main_v11 (F := Ideal) x1) (dstWord x1)
    (fun k => ((val_main_v5_apply (F := Ideal) k).trans (val_main_cst_apply _)).trans Cert.Algebra.ofBits_zero)
    (fun k => ((val_main_v12_apply (F := Ideal) k).trans (val_main_cst_1_apply _)).trans Cert.Algebra.ofBits_one)
    (fun k => ((val_main_v14_apply (F := Ideal) k).trans (val_main_cst_2_apply _)).trans Cert.Algebra.ofBits_one)
    (wScale x1) i).trans ?_
  unfold dinv
  exact congrArg (fun s : EReal => Ideal.rsqrt (((0 : EReal) + s) + 1))
    (sum_filter_inst (fun e => arrives x1 e i) _ _ (fun _ => (1 : EReal)))

/-- The scatter's starting array is zero. -/
theorem zeros (i : Fin 100000) (j : Fin 64) : val_main_v32 (F := Ideal) (ix2 i j) = 0 :=
  ((val_main_v32_apply (F := Ideal) _).trans (val_main_cst_7_apply _)).trans Cert.Algebra.ofBits_zero

/-- The clamp's lower bound is zero. -/
theorem floor0 (i : Fin 100000) (j : Fin 64) : val_main_call0_v0 (F := Ideal) (ix2 i j) = 0 :=
  ((val_main_call0_v0_apply (F := Ideal) _).trans (val_main_call0_cst_apply _)).trans Cert.Algebra.ofBits_zero

end Cert.ReferenceIdeal.RWords0

end
-- ==== Proof.RLayer0.lean ====
/-
  The reference's first layer read entry by entry.
  xw = h · W; each edge's message is xw at the edge's source row times d(source) · d(target); the messages are
  scatter-added into zeros at the wrapped target words; the node's own entry xw · (d · d) and the bias are added and
  the result is clamped at zero from below.
-/
import proofs.«423190_j88252987998746_2_alg».proof.Proof.Gen.ReferenceIdeal.Read
import proofs.«423190_j88252987998746_2_alg».proof.Proof.Spec
import proofs.«423190_j88252987998746_2_alg».proof.Proof.LibScatter
import proofs.«423190_j88252987998746_2_alg».proof.Proof.Graph
import proofs.«423190_j88252987998746_2_alg».proof.Proof.Tail
import proofs.«423190_j88252987998746_2_alg».proof.Proof.RLayerRead
import proofs.«423190_j88252987998746_2_alg».proof.Proof.RWords0
import Idealize.ShloMosaic.Lib.Pipeline.Value
import Idealize.ShloMosaic.Lib.ValueIdx
import Idealize.ShloMosaic.PureOps.Ideal.Laws

set_option maxRecDepth 16384

noncomputable section

namespace Cert.ReferenceIdeal.RLayer0

open Idealize.ShloMosaic Idealize.ShloMosaic.ValueIdx Idealize.ShloMosaic.TcCoe
open Cert.ReferenceIdeal Cert.ReferenceIdeal.Read Cert.LibScatter Cert.Graph Cert.RLayerRead Cert.ReferenceIdeal.RWords0

/-- The projected features: the product h · W from a zero start. -/
theorem xw (x0 : Vec Ideal S100000x64 .f32) (x3 : Vec Ideal S64x64 .f32) (i : Fin 100000) (j : Fin 64) :
    val_main_v4 (F := Ideal) x0 x3 (ix2 i j)
      = Cert.Spec.proj (fun i k => x0 (ix2 i k)) (fun k j => x3 (ix2 k j)) i j := by
  rw [val_main_v4_apply]
  show _ = (0 : EReal) + ∑ k : Fin 64, x0 (ix2 i k) * x3 (ix2 k j)
  rw [zero_add]
  refine Finset.sum_congr rfl fun k _ => ?_
  have hl : lidx_main_v4 (ix2 i j) k = ix2 i k := funext fun a => by match a with | ⟨0, _⟩ => rfl | ⟨1, _⟩ => rfl
  have hr : ridx_main_v4 (ix2 i j) k = ix2 k j := funext fun a => by match a with | ⟨0, _⟩ => rfl | ⟨1, _⟩ => rfl
  rw [hl, hr]

/-- The bias spread over the rows reads, at (i, j), the bias at j. -/
theorem bias (x4 : Vec Ideal S64 .f32) (i : Fin 100000) (j : Fin 64) :
    val_main_v56 (F := Ideal) x4 (ix2 i j) = x4 (ix1 j) := by
  rw [val_main_v56_apply, val_main_v55_apply]
  exact congrArg x4 (funext fun a => by match a with | ⟨0, _⟩ => rfl)

/-- The first layer's result, entry (i, j), as the layer of the edge list's graph. -/
theorem value (x0 : Vec Ideal S100000x64 .f32) (x1 : IVec S2x1000000 32) (x3 : Vec Ideal S64x64 .f32) (x4 : Vec Ideal S64 .f32)
    (i : Fin 100000) (j : Fin 64) :
    val_main_v58 (F := Ideal) x0 x1 x3 x4 (ix2 i j)
      = Cert.Spec.rLayer (arrives x1) (src x1) (dstc x1) (dinv x1)
          (fun i k => x0 (ix2 i k)) (fun k j => x3 (ix2 k j)) (fun j => x4 (ix1 j)) i j := by
  refine (layer_read Gen.scatter_S100000x64_S1000000x1_S1000000x64_1_0_0_1_wf
    Gen.gather_S100000x64_S1000000x1_S1000000x64_1_0_n_n_0_1_164_wf Gen.gather_S100000_S1000000x1_S1000000_n_0_n_n_0_1_1_wf
    Gen.bcast_S1000000_S1000000x1_0 Gen.bcast_S1000000x1_S1000000x64_0_1 Gen.bcast_S100000_S100000x1_0
    Gen.bcast_S100000x1_S100000x64_0_1
    (val_main_v4 (F := Ideal) x0 x3) (val_main_v32 (F := Ideal)) (val_main_v56 (F := Ideal) x4) (val_main_call0_v0 (F := Ideal))
    (val_main_v16 (F := Ideal) x1)
    (val_main_v22 (F := Ideal) x1) (val_main_v29 (F := Ideal) x1) (val_main_v38 (F := Ideal) x1) (val_main_v48 (F := Ideal) x1)
    (srcWord x1) (dstWord x1) (wSrcScale x1) (wDstScale x1) (wSrcRows x1) (wDstRows x1)
    (dinv x1) (scale x1) (fun i k => x0 (ix2 i k)) (fun k j => x3 (ix2 k j)) (xw x0 x3)
    (fun j => x4 (ix1 j)) (bias x4) zeros floor0 i j).trans ?_
  exact congrFun (congrFun (Cert.Tail.rLayer_congr (fun e i => Iff.rfl) (fun e => rfl) (fun e => rfl) (fun i => rfl)
    (fun i k => rfl) (fun k j => rfl) (fun j => rfl)) i) j

end Cert.ReferenceIdeal.RLayer0

end
-- ==== Proof.RWords1.lean ====
/-
  One layer's index words, scale and zero constants, read entry by entry.
  The two rows of the edge list are sliced out and flattened; each use of an edge's end word wraps it (a word below
  zero has the row count added) and keeps it as a one-column array of start words. The scale is the inverse square
  root of one plus the number of edges landing on a row. The scatter starts from zeros and the clamp's bound is zero.
-/
import proofs.«423190_j88252987998746_2_alg».proof.Proof.Gen.ReferenceIdeal.Read
import proofs.«423190_j88252987998746_2_alg».proof.Proof.LibScatter
import proofs.«423190_j88252987998746_2_alg».proof.Proof.Graph
import proofs.«423190_j88252987998746_2_alg».proof.Proof.RLayerRead
import Idealize.ShloMosaic.Lib.Pipeline.Value
import Idealize.ShloMosaic.Lib.ValueIdx
import Idealize.ShloMosaic.PureOps.Ideal.Laws

set_option maxRecDepth 16384

noncomputable section

namespace Cert.ReferenceIdeal.RWords1

open Idealize.ShloMosaic Idealize.ShloMosaic.ValueIdx Idealize.ShloMosaic.TcCoe
open Cert.ReferenceIdeal Cert.ReferenceIdeal.Read Cert.LibScatter Cert.Graph Cert.RLayerRead

/-- The flattened source row of the edge list reads, at e, the list's entry (0, e). -/
theorem srcRow (x1 : IVec S2x1000000 32) (e : Fin 1000000) :
    val_main_v1 (F := Ideal) x1 (ix1 e) = x1 (ix2 (0 : Fin 2) e) :=
  row0_read Gen.slices_S2x1000000_S1x1000000_0_0 Gen.shapeCasts_S1x1000000_S1000000 x1 e

/-- The flattened target row of the edge list reads, at e, the list's entry (1, e). -/
theorem dstRow (x1 : IVec S2x1000000 32) (e : Fin 1000000) :
    val_main_v3 (F := Ideal) x1 (ix1 e) = x1 (ix2 (1 : Fin 2) e) :=
  row1_read Gen.slices_S2x1000000_S1x1000000_1_0 Gen.shapeCasts_S1x1000000_S1000000 x1 e

/-- The start words of the scale's scatter are the wrapped target words. -/
theorem wScale (x1 : IVec S2x1000000 32) (e : Fin 1000000) :
    val_main_v66 (F := Ideal) x1 (ix2 e (0 : Fin 1)) = dstWord x1 e :=
  (wrap_read Gen.bcast_S1000000_S1000000x1_0 (val_main_v3 (F := Ideal) x1) (val_main_v61 (F := Ideal)) (val_main_v63 (F := Ideal))
    (fun k => (val_main_v61_apply (F := Ideal) k).trans (val_main_c_13_apply _))
    (fun k => (val_main_v63_apply (F := Ideal) k).trans (val_main_c_14_apply _)) e).trans
    (congrArg (wrapWord 100000#32) (dstRow x1 e))

/-- The start words of the source-scale gather are the wrapped source words. -/
theorem wSrcScale (x1 : IVec S2x1000000 32) (e : Fin 1000000) :
    val_main_v77 (F := Ideal) x1 (ix2 e (0 : Fin 1)) = srcWord x1 e :=
  (wrap_read Gen.bcast_S1000000_S1000000x1_0 (val_main_v1 (F := Ideal) x1) (val_main_v72 (F := Ideal)) (val_main_v74 (F := Ideal))
    (fun k => (val_main_v72_apply (F := Ideal) k).trans (val_main_c_17_apply _))
    (fun k => (val_main_v74_apply (F := Ideal) k).trans (val_main_c_18_apply _)) e).trans
    (congrArg (wrapWord 100000#32) (srcRow x1 e))

/-- The start words of the target-scale gather are the wrapped target words. -/
theorem wDstScale (x1 : IVec S2x1000000 32) (e : Fin 1000000) :
    val_main_v84 (F := Ideal) x1 (ix2 e (0 : Fin 1)) = dstWord x1 e :=
  (wrap_read Gen.bcast_S1000000_S1000000x1_0 (val_main_v3 (F := Ideal) x1) (val_main_v79 (F := Ideal)) (val_main_v81 (F := Ideal))
    (fun k => (val_main_v79_apply (F := Ideal) k).trans (val_main_c_19_apply _))
    (fun k => (val_main_v81_apply (F := Ideal) k).trans (val_main_c_20_apply _)) e).trans
    (congrArg (wrapWord 100000#32) (dstRow x1 e))

/-- The start words of the feature gather are the wrapped source words. -/
theorem wSrcRows (x1 : IVec S2x1000000 32) (e : Fin 1000000) :
    val_main_v93 (F := Ideal) x1 (ix2 e (0 : Fin 1)) = srcWord x1 e :=
  (wrap_read Gen.bcast_S1000000_S1000000x1_0 (val_main_v1 (F := Ideal) x1) (val_main_v88 (F := Ideal)) (val_main_v90 (F := Ideal))
    (fun k => (val_main_v88_apply (F := Ideal) k).trans (val_main_c_22_apply _))
    (fun k => (val_main_v90_apply (F := Ideal) k).trans (val_main_c_23_apply _)) e).trans
    (congrArg (wrapWord 100000#32) (srcRow x1 e))

/-- The start words of the message scatter are the wrapped target words. -/
theorem wDstRows (x1 : IVec S2x1000000 32) (e : Fin 1000000) :
    val_main_v103 (F := Ideal) x1 (ix2 e (0 : Fin 1)) = dstWord x1 e :=
  (wrap_read Gen.bcast_S1000000_S1000000x1_0 (val_main_v3 (F := Ideal) x1) (val_main_v98 (F := Ideal)) (val_main_v100 (F := Ideal))
    (fun k => (val_main_v98_apply (F := Ideal) k).trans (val_main_c_24_apply _))
    (fun k => (val_main_v100_apply (F := Ideal) k).trans (val_main_c_25_apply _)) e).trans
    (congrArg (wrapWord 100000#32) (dstRow x1 e))

/-- The scale vector is the graph's d. -/
theorem scale (x1 : IVec S2x1000000 32) (i : Fin 100000) : val_main_v71 (F := Ideal) x1 (ix1 i) = dinv x1 i := by
  refine (scale_read Gen.scatter_S100000_S1000000x1_S1000000_n_0_0_1_wf (val_main_v60 (F := Ideal)) (val_main_v69 (F := Ideal))
    (val_main_v67 (F := Ideal)) (val_main_v66 (F := Ideal) x1) (dstWord x1)
    (fun k => ((val_main_v60_apply (F := Ideal) k).trans (val_main_cst_12_apply _)).trans Cert.Algebra.ofBits_zero)
    (fun k => ((val_main_v67_apply (F := Ideal) k).trans (val_main_cst_15_apply _)).trans Cert.Algebra.ofBits_one)
    (fun k => ((val_main_v69_apply (F := Ideal) k).trans (val_main_cst_16_apply _)).trans Cert.Algebra.ofBits_one)
    (wScale x1) i).trans ?_
  unfold dinv
  exact congrArg (fun s : EReal => Ideal.rsqrt (((0 : EReal) + s) + 1))
    (sum_filter_inst (fun e => arrives x1 e i) _ _ (fun _ => (1 : EReal)))

/-- The scatter's starting array is zero. -/
theorem zeros (i : Fin 100000) (j : Fin 64) : val_main_v87 (F := Ideal) (ix2 i j) = 0 :=
  ((val_main_v87_apply (F := Ideal) _).trans (val_main_cst_21_apply _)).trans Cert.Algebra.ofBits_zero

/-- The clamp's lower bound is zero. -/
theorem floor0 (i : Fin 100000) (j : Fin 64) : val_main_call1_v0 (F := Ideal) (ix2 i j) = 0 :=
  ((val_main_call1_v0_apply (F := Ideal) _).trans (val_main_call1_cst_apply _)).trans Cert.Algebra.ofBits_zero

end Cert.ReferenceIdeal.RWords1

end
-- ==== Proof.RLayer1.lean ====
/-
  The reference's second layer read entry by entry: the same layer, applied to the first layer's result.
-/
import proofs.«423190_j88252987998746_2_alg».proof.Proof.Gen.ReferenceIdeal.Read
import proofs.«423190_j88252987998746_2_alg».proof.Proof.Spec
import proofs.«423190_j88252987998746_2_alg».proof.Proof.LibScatter
import proofs.«423190_j88252987998746_2_alg».proof.Proof.Graph
import proofs.«423190_j88252987998746_2_alg».proof.Proof.Tail
import proofs.«423190_j88252987998746_2_alg».proof.Proof.RLayerRead
import proofs.«423190_j88252987998746_2_alg».proof.Proof.RWords1
import Idealize.ShloMosaic.Lib.Pipeline.Value
import Idealize.ShloMosaic.Lib.ValueIdx
import Idealize.ShloMosaic.PureOps.Ideal.Laws

set_option maxRecDepth 16384

noncomputable section

namespace Cert.ReferenceIdeal.RLayer1

open Idealize.ShloMosaic Idealize.ShloMosaic.ValueIdx Idealize.ShloMosaic.TcCoe
open Cert.ReferenceIdeal Cert.ReferenceIdeal.Read Cert.LibScatter Cert.Graph Cert.RLayerRead Cert.ReferenceIdeal.RWords1

/-- The projected features: the product of the previous layer's result with W, from a zero start. -/
theorem xw (x0 : Vec Ideal S100000x64 .f32) (x1 : IVec S2x1000000 32) (x3 : Vec Ideal S64x64 .f32) (x4 : Vec Ideal S64 .f32)
    (x5 : Vec Ideal S64x64 .f32) (i : Fin 100000) (j : Fin 64) :
    val_main_v59 (F := Ideal) x0 x1 x3 x4 x5 (ix2 i j)
      = Cert.Spec.proj (fun i k => val_main_v58 (F := Ideal) x0 x1 x3 x4 (ix2 i k)) (fun k j => x5 (ix2 k j)) i j := by
  rw [val_main_v59_apply]
  show _ = (0 : EReal) + ∑ k : Fin 64, val_main_v58 (F := Ideal) x0 x1 x3 x4 (ix2 i k) * x5 (ix2 k j)
  rw [zero_add]
  refine Finset.sum_congr rfl fun k _ => ?_
  have hl : lidx_main_v59 (ix2 i j) k = ix2 i k := funext fun a => by match a with | ⟨0, _⟩ => rfl | ⟨1, _⟩ => rfl
  have hr : ridx_main_v59 (ix2 i j) k = ix2 k j := funext fun a => by match a with | ⟨0, _⟩ => rfl | ⟨1, _⟩ => rfl
  rw [hl, hr]

/-- The bias spread over the rows reads, at (i, j), the bias at j. -/
theorem bias (x6 : Vec Ideal S64 .f32) (i : Fin 100000) (j : Fin 64) :
    val_main_v111 (F := Ideal) x6 (ix2 i j) = x6 (ix1 j) := by
  rw [val_main_v111_apply, val_main_v110_apply]
  exact congrArg x6 (funext fun a => by match a with | ⟨0, _⟩ => rfl)

/-- The second layer's result, entry (i, j). -/
theorem value (x0 : Vec Ideal S100000x64 .f32) (x1 : IVec S2x1000000 32) (x3 : Vec Ideal S64x64 .f32) (x4 : Vec Ideal S64 .f32)
    (x5 : Vec Ideal S64x64 .f32) (x6 : Vec Ideal S64 .f32) (i : Fin 100000) (j : Fin 64) :
    val_main_v113 (F := Ideal) x0 x1 x3 x4 x5 x6 (ix2 i j)
      = Cert.Spec.rLayer (arrives x1) (src x1) (dstc x1) (dinv x1)
          (fun i k => val_main_v58 (F := Ideal) x0 x1 x3 x4 (ix2 i k)) (fun k j => x5 (ix2 k j)) (fun j => x6 (ix1 j)) i j := by
  refine (layer_read Gen.scatter_S100000x64_S1000000x1_S1000000x64_1_0_0_1_wf
    Gen.gather_S100000x64_S1000000x1_S1000000x64_1_0_n_n_0_1_164_wf Gen.gather_S100000_S1000000x1_S1000000_n_0_n_n_0_1_1_wf
    Gen.bcast_S1000000_S1000000x1_0 Gen.bcast_S1000000x1_S1000000x64_0_1 Gen.bcast_S100000_S100000x1_0
    Gen.bcast_S100000x1_S100000x64_0_1
    (val_main_v59 (F := Ideal) x0 x1 x3 x4 x5) (val_main_v87 (F := Ideal)) (val_main_v111 (F := Ideal) x6) (val_main_call1_v0 (F := Ideal))
    (val_main_v71 (F := Ideal) x1)
    (val_main_v77 (F := Ideal) x1) (val_main_v84 (F := Ideal) x1) (val_main_v93 (F := Ideal) x1) (val_main_v103 (F := Ideal) x1)
    (srcWord x1) (dstWord x1) (wSrcScale x1) (wDstScale x1) (wSrcRows x1) (wDstRows x1)
    (dinv x1) (scale x1) (fun i k => val_main_v58 (F := Ideal) x0 x1 x3 x4 (ix2 i k)) (fun k j => x5 (ix2 k j)) (xw x0 x1 x3 x4 x5)
    (fun j => x6 (ix1 j)) (bias x6) zeros floor0 i j).trans ?_
  exact congrFun (congrFun (Cert.Tail.rLayer_congr (fun e i => Iff.rfl) (fun e => rfl) (fun e => rfl) (fun i => rfl)
    (fun i k => rfl) (fun k j => rfl) (fun j => rfl)) i) j

end Cert.ReferenceIdeal.RLayer1

end
-- ==== Proof.RWords2.lean ====
/-
  One layer's index words, scale and zero constants, read entry by entry.
  The two rows of the edge list are sliced out and flattened; each use of an edge's end word wraps it (a word below
  zero has the row count added) and keeps it as a one-column array of start words. The scale is the inverse square
  root of one plus the number of edges landing on a row. The scatter starts from zeros and the clamp's bound is zero.
-/
import proofs.«423190_j88252987998746_2_alg».proof.Proof.Gen.ReferenceIdeal.Read
import proofs.«423190_j88252987998746_2_alg».proof.Proof.LibScatter
import proofs.«423190_j88252987998746_2_alg».proof.Proof.Graph
import proofs.«423190_j88252987998746_2_alg».proof.Proof.RLayerRead
import Idealize.ShloMosaic.Lib.Pipeline.Value
import Idealize.ShloMosaic.Lib.ValueIdx
import Idealize.ShloMosaic.PureOps.Ideal.Laws

set_option maxRecDepth 16384

noncomputable section

namespace Cert.ReferenceIdeal.RWords2

open Idealize.ShloMosaic Idealize.ShloMosaic.ValueIdx Idealize.ShloMosaic.TcCoe
open Cert.ReferenceIdeal Cert.ReferenceIdeal.Read Cert.LibScatter Cert.Graph Cert.RLayerRead

/-- The flattened source row of the edge list reads, at e, the list's entry (0, e). -/
theorem srcRow (x1 : IVec S2x1000000 32) (e : Fin 1000000) :
    val_main_v1 (F := Ideal) x1 (ix1 e) = x1 (ix2 (0 : Fin 2) e) :=
  row0_read Gen.slices_S2x1000000_S1x1000000_0_0 Gen.shapeCasts_S1x1000000_S1000000 x1 e

/-- The flattened target row of the edge list reads, at e, the list's entry (1, e). -/
theorem dstRow (x1 : IVec S2x1000000 32) (e : Fin 1000000) :
    val_main_v3 (F := Ideal) x1 (ix1 e) = x1 (ix2 (1 : Fin 2) e) :=
  row1_read Gen.slices_S2x1000000_S1x1000000_1_0 Gen.shapeCasts_S1x1000000_S1000000 x1 e

/-- The start words of the scale's scatter are the wrapped target words. -/
theorem wScale (x1 : IVec S2x1000000 32) (e : Fin 1000000) :
    val_main_v121 (F := Ideal) x1 (ix2 e (0 : Fin 1)) = dstWord x1 e :=
  (wrap_read Gen.bcast_S1000000_S1000000x1_0 (val_main_v3 (F := Ideal) x1) (val_main_v116 (F := Ideal)) (val_main_v118 (F := Ideal))
    (fun k => (val_main_v116_apply (F := Ideal) k).trans (val_main_c_27_apply _))
    (fun k => (val_main_v118_apply (F := Ideal) k).trans (val_main_c_28_apply _)) e).trans
    (congrArg (wrapWord 100000#32) (dstRow x1 e))

/-- The start words of the source-scale gather are the wrapped source words. -/
theorem wSrcScale (x1 : IVec S2x1000000 32) (e : Fin 1000000) :
    val_main_v132 (F := Ideal) x1 (ix2 e (0 : Fin 1)) = srcWord x1 e :=
  (wrap_read Gen.bcast_S1000000_S1000000x1_0 (val_main_v1 (F := Ideal) x1) (val_main_v127 (F := Ideal)) (val_main_v129 (F := Ideal))
    (fun k => (val_main_v127_apply (F := Ideal) k).trans (val_main_c_31_apply _))
    (fun k => (val_main_v129_apply (F := Ideal) k).trans (val_main_c_32_apply _)) e).trans
    (congrArg (wrapWord 100000#32) (srcRow x1 e))

/-- The start words of the target-scale gather are the wrapped target words. -/
theorem wDstScale (x1 : IVec S2x1000000 32) (e : Fin 1000000) :
    val_main_v139 (F := Ideal) x1 (ix2 e (0 : Fin 1)) = dstWord x1 e :=
  (wrap_read Gen.bcast_S1000000_S1000000x1_0 (val_main_v3 (F := Ideal) x1) (val_main_v134 (F := Ideal)) (val_main_v136 (F := Ideal))
    (fun k => (val_main_v134_apply (F := Ideal) k).trans (val_main_c_33_apply _))
    (fun k => (val_main_v136_apply (F := Ideal) k).trans (val_main_c_34_apply _)) e).trans
    (congrArg (wrapWord 100000#32) (dstRow x1 e))

/-- The start words of the feature gather are the wrapped source words. -/
theorem wSrcRows (x1 : IVec S2x1000000 32) (e : Fin 1000000) :
    val_main_v148 (F := Ideal) x1 (ix2 e (0 : Fin 1)) = srcWord x1 e :=
  (wrap_read Gen.bcast_S1000000_S1000000x1_0 (val_main_v1 (F := Ideal) x1) (val_main_v143 (F := Ideal)) (val_main_v145 (F := Ideal))
    (fun k => (val_main_v143_apply (F := Ideal) k).trans (val_main_c_36_apply _))
    (fun k => (val_main_v145_apply (F := Ideal) k).trans (val_main_c_37_apply _)) e).trans
    (congrArg (wrapWord 100000#32) (srcRow x1 e))

/-- The start words of the message scatter are the wrapped target words. -/
theorem wDstRows (x1 : IVec S2x1000000 32) (e : Fin 1000000) :
    val_main_v158 (F := Ideal) x1 (ix2 e (0 : Fin 1)) = dstWord x1 e :=
  (wrap_read Gen.bcast_S1000000_S1000000x1_0 (val_main_v3 (F := Ideal) x1) (val_main_v153 (F := Ideal)) (val_main_v155 (F := Ideal))
    (fun k => (val_main_v153_apply (F := Ideal) k).trans (val_main_c_38_apply _))
    (fun k => (val_main_v155_apply (F := Ideal) k).trans (val_main_c_39_apply _)) e).trans
    (congrArg (wrapWord 100000#32) (dstRow x1 e))

/-- The scale vector is the graph's d. -/
theorem scale (x1 : IVec S2x1000000 32) (i : Fin 100000) : val_main_v126 (F := Ideal) x1 (ix1 i) = dinv x1 i := by
  refine (scale_read Gen.scatter_S100000_S1000000x1_S1000000_n_0_0_1_wf (val_main_v115 (F := Ideal)) (val_main_v124 (F := Ideal))
    (val_main_v122 (F := Ideal)) (val_main_v121 (F := Ideal) x1) (dstWord x1)
    (fun k => ((val_main_v115_apply (F := Ideal) k).trans (val_main_cst_26_apply _)).trans Cert.Algebra.ofBits_zero)
    (fun k => ((val_main_v122_apply (F := Ideal) k).trans (val_main_cst_29_apply _)).trans Cert.Algebra.ofBits_one)
    (fun k => ((val_main_v124_apply (F := Ideal) k).trans (val_main_cst_30_apply _)).trans Cert.Algebra.ofBits_one)
    (wScale x1) i).trans ?_
  unfold dinv
  exact congrArg (fun s : EReal => Ideal.rsqrt (((0 : EReal) + s) + 1))
    (sum_filter_inst (fun e => arrives x1 e i) _ _ (fun _ => (1 : EReal)))

/-- The scatter's starting array is zero. -/
theorem zeros (i : Fin 100000) (j : Fin 64) : val_main_v142 (F := Ideal) (ix2 i j) = 0 :=
  ((val_main_v142_apply (F := Ideal) _).trans (val_main_cst_35_apply _)).trans Cert.Algebra.ofBits_zero

/-- The clamp's lower bound is zero. -/
theorem floor0 (i : Fin 100000) (j : Fin 64) : val_main_call2_v0 (F := Ideal) (ix2 i j) = 0 :=
  ((val_main_call2_v0_apply (F := Ideal) _).trans (val_main_call2_cst_apply _)).trans Cert.Algebra.ofBits_zero

end Cert.ReferenceIdeal.RWords2

end
-- ==== Proof.RLayer2.lean ====
/-
  The reference's third layer read entry by entry: the same layer, applied to the second layer's result.
-/
import proofs.«423190_j88252987998746_2_alg».proof.Proof.Gen.ReferenceIdeal.Read
import proofs.«423190_j88252987998746_2_alg».proof.Proof.Spec
import proofs.«423190_j88252987998746_2_alg».proof.Proof.LibScatter
import proofs.«423190_j88252987998746_2_alg».proof.Proof.Graph
import proofs.«423190_j88252987998746_2_alg».proof.Proof.Tail
import proofs.«423190_j88252987998746_2_alg».proof.Proof.RLayerRead
import proofs.«423190_j88252987998746_2_alg».proof.Proof.RWords2
import Idealize.ShloMosaic.Lib.Pipeline.Value
import Idealize.ShloMosaic.Lib.ValueIdx
import Idealize.ShloMosaic.PureOps.Ideal.Laws

set_option maxRecDepth 16384

noncomputable section

namespace Cert.ReferenceIdeal.RLayer2

open Idealize.ShloMosaic Idealize.ShloMosaic.ValueIdx Idealize.ShloMosaic.TcCoe
open Cert.ReferenceIdeal Cert.ReferenceIdeal.Read Cert.LibScatter Cert.Graph Cert.RLayerRead Cert.ReferenceIdeal.RWords2

/-- The projected features: the product of the previous layer's result with W, from a zero start. -/
theorem xw (x0 : Vec Ideal S100000x64 .f32) (x1 : IVec S2x1000000 32) (x3 : Vec Ideal S64x64 .f32) (x4 : Vec Ideal S64 .f32)
    (x5 : Vec Ideal S64x64 .f32) (x6 : Vec Ideal S64 .f32) (x7 : Vec Ideal S64x64 .f32) (i : Fin 100000) (j : Fin 64) :
    val_main_v114 (F := Ideal) x0 x1 x3 x4 x5 x6 x7 (ix2 i j)
      = Cert.Spec.proj (fun i k => val_main_v113 (F := Ideal) x0 x1 x3 x4 x5 x6 (ix2 i k)) (fun k j => x7 (ix2 k j)) i j := by
  rw [val_main_v114_apply]
  show _ = (0 : EReal) + ∑ k : Fin 64, val_main_v113 (F := Ideal) x0 x1 x3 x4 x5 x6 (ix2 i k) * x7 (ix2 k j)
  rw [zero_add]
  refine Finset.sum_congr rfl fun k _ => ?_
  have hl : lidx_main_v114 (ix2 i j) k = ix2 i k := funext fun a => by match a with | ⟨0, _⟩ => rfl | ⟨1, _⟩ => rfl
  have hr : ridx_main_v114 (ix2 i j) k = ix2 k j := funext fun a => by match a with | ⟨0, _⟩ => rfl | ⟨1, _⟩ => rfl
  rw [hl, hr]

/-- The bias spread over the rows reads, at (i, j), the bias at j. -/
theorem bias (x8 : Vec Ideal S64 .f32) (i : Fin 100000) (j : Fin 64) :
    val_main_v166 (F := Ideal) x8 (ix2 i j) = x8 (ix1 j) := by
  rw [val_main_v166_apply, val_main_v165_apply]
  exact congrArg x8 (funext fun a => by match a with | ⟨0, _⟩ => rfl)

/-- The third layer's result, entry (i, j). -/
theorem value (x0 : Vec Ideal S100000x64 .f32) (x1 : IVec S2x1000000 32) (x3 : Vec Ideal S64x64 .f32) (x4 : Vec Ideal S64 .f32)
    (x5 : Vec Ideal S64x64 .f32) (x6 : Vec Ideal S64 .f32) (x7 : Vec Ideal S64x64 .f32) (x8 : Vec Ideal S64 .f32)
    (i : Fin 100000) (j : Fin 64) :
    val_main_v168 (F := Ideal) x0 x1 x3 x4 x5 x6 x7 x8 (ix2 i j)
      = Cert.Spec.rLayer (arrives x1) (src x1) (dstc x1) (dinv x1)
          (fun i k => val_main_v113 (F := Ideal) x0 x1 x3 x4 x5 x6 (ix2 i k)) (fun k j => x7 (ix2 k j)) (fun j => x8 (ix1 j)) i j := by
  refine (layer_read Gen.scatter_S100000x64_S1000000x1_S1000000x64_1_0_0_1_wf
    Gen.gather_S100000x64_S1000000x1_S1000000x64_1_0_n_n_0_1_164_wf Gen.gather_S100000_S1000000x1_S1000000_n_0_n_n_0_1_1_wf
    Gen.bcast_S1000000_S1000000x1_0 Gen.bcast_S1000000x1_S1000000x64_0_1 Gen.bcast_S100000_S100000x1_0
    Gen.bcast_S100000x1_S100000x64_0_1
    (val_main_v114 (F := Ideal) x0 x1 x3 x4 x5 x6 x7) (val_main_v142 (F := Ideal)) (val_main_v166 (F := Ideal) x8) (val_main_call2_v0 (F := Ideal))
    (val_main_v126 (F := Ideal) x1)
    (val_main_v132 (F := Ideal) x1) (val_main_v139 (F := Ideal) x1) (val_main_v148 (F := Ideal) x1) (val_main_v158 (F := Ideal) x1)
    (srcWord x1) (dstWord x1) (wSrcScale x1) (wDstScale x1) (wSrcRows x1) (wDstRows x1)
    (dinv x1) (scale x1) (fun i k => val_main_v113 (F := Ideal) x0 x1 x3 x4 x5 x6 (ix2 i k)) (fun k j => x7 (ix2 k j))
    (xw x0 x1 x3 x4 x5 x6 x7) (fun j => x8 (ix1 j)) (bias x8) zeros floor0 i j).trans ?_
  exact congrFun (congrFun (Cert.Tail.rLayer_congr (fun e i => Iff.rfl) (fun e => rfl) (fun e => rfl) (fun i => rfl)
    (fun i k => rfl) (fun k j => rfl) (fun j => rfl)) i) j

end Cert.ReferenceIdeal.RLayer2

end
-- ==== Proof.RTail.lean ====
/-
  The end of the reference read entry by entry: the per-graph sums and counts as scatter-adds at the graph ids (an id
  that names no graph is dropped), the division by max (count, 1), and the two-layer head.
  The sums: rows scattered into zeros, so entry (g, q) is zero plus the sum of the entries (i, q) over the nodes i whose
  id names graph g. The counts: ones scattered into zeros. The head: each product a sum over the 64 hidden lanes (a
  zero accumulator adds nothing), a bias, max with zero, a second product and bias. The third layer's result enters
  only through its entries and is never opened.
-/
import proofs.«423190_j88252987998746_2_alg».proof.Proof.Gen.ReferenceIdeal.Read
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Algebra
import proofs.«423190_j88252987998746_2_alg».proof.Proof.Graph
import proofs.«423190_j88252987998746_2_alg».proof.Proof.Tail
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RTail

open Idealize.ShloMosaic Idealize.ShloMosaic.ValueIdx Idealize.ShloMosaic.TcCoe
open Cert.ReferenceIdeal Cert.ReferenceIdeal.Read Cert.LibScatter Cert.Graph

/-- The printed row scatter-add has the row scatter's dimension numbers. -/
theorem rows_record : scatter_S512x64_S100000x1_S100000x64_1_0_0_1
    = rowScatter 512 100000 64 Facts₀.scatter_S512x64_S100000x1_S100000x64_1_0_0_1_wf := rfl

/-- The printed entry scatter-add has the entry scatter's dimension numbers. -/
theorem entries_record : scatter_S512_S100000x1_S100000_n_0_0_1
    = vecScatter 512 100000 Facts₀.scatter_S512_S100000x1_S100000_n_0_0_1_wf := rfl

/-- Rows scattered into zeros at the start words `word`: entry `(g, q)` is the sum, from a zero start, of the
    entries `(i, q)` of the rows `i` whose word names row `g`. -/
theorem sums_apply (z : FVec Ideal S512x64 .f32) (hz : ∀ i, z i = 0) (idx : IVec S100000x1 32)
    (word : Fin 100000 → BitVec 32) (hidx : ∀ e : Fin 100000, idx (ix2 e (0 : Fin 1)) = word e)
    (h : FVec Ideal S100000x64 .f32) (g : Fin 512) (q : Fin 64) :
    Host.scatterAdd (F := Ideal) (φ := .f32) scatter_S512x64_S100000x1_S100000x64_1_0_0_1 z idx h (ix2 g q)
      = Cert.Spec.segSum (fun i g => rowOf? 512 (word i) = some g) (fun i k => h (ix2 i k)) g q := by
  rw [rows_record, rowScatterAdd_apply, hz]
  unfold Cert.Spec.segSum
  simp only [hidx]

/-- Ones scattered into zeros at the start words `word`: entry `g` counts the words that name row `g`. -/
theorem count_apply (z : FVec Ideal S512 .f32) (hz : ∀ i, z i = 0) (idx : IVec S100000x1 32)
    (word : Fin 100000 → BitVec 32) (hidx : ∀ e : Fin 100000, idx (ix2 e (0 : Fin 1)) = word e)
    (u : FVec Ideal S100000 .f32) (hu : ∀ i, u i = 1) (g : Fin 512) :
    Host.scatterAdd (F := Ideal) (φ := .f32) scatter_S512_S100000x1_S100000_n_0_0_1 z idx u (ix1 g) = Cert.Tail.cnt word g := by
  rw [entries_record, vecScatterAdd_apply, hz]
  unfold Cert.Tail.cnt
  simp only [hidx, hu]

/-- The per-graph mean, entry `(g, q)`: the per-graph sum divided by max (count, 1). -/
theorem mean_apply (x0 : Vec Ideal S100000x64 .f32) (x1 : IVec S2x1000000 32) (x2 : IVec S100000 32) (x3 : Vec Ideal S64x64 .f32) (x4 : Vec Ideal S64 .f32)
    (x5 : Vec Ideal S64x64 .f32) (x6 : Vec Ideal S64 .f32) (x7 : Vec Ideal S64x64 .f32) (x8 : Vec Ideal S64 .f32)
    (g : Fin 512) (q : Fin 64) :
    val_main_v180 (F := Ideal) x0 x1 x2 x3 x4 x5 x6 x7 x8 (ix2 g q)
      = Cert.Tail.meanR x2 (fun i k => val_main_v168 (F := Ideal) x0 x1 x3 x4 x5 x6 x7 x8 (ix2 i k)) g q := by
  have e1 : idx_main_v178 (idx_main_v179 (ix2 g q)) = ix1 g :=
    funext fun a => Fin.ext (by match a with | ⟨0, _⟩ => rfl)
  rw [val_main_v180_apply, val_main_v179_apply, val_main_v178_apply, val_main_v177_apply, e1, val_main_v176_apply,
    val_main_cst_43_apply]
  unfold val_main_v171 val_main_v175
  generalize val_main_v168 (F := Ideal) x0 x1 x3 x4 x5 x6 x7 x8 = h
  rw [sums_apply (val_main_v169 (F := Ideal))
      (fun i => by rw [val_main_v169_apply, val_main_cst_40_apply]; exact Cert.Algebra.ofBits_zero)
      (val_main_v170 (F := Ideal) x2) (fun i => x2 (ix1 i))
      (fun e => by
        rw [val_main_v170_apply]
        exact congrArg x2 (funext fun a => Fin.ext (by match a with | ⟨0, _⟩ => rfl))) h g q,
    count_apply (val_main_v173 (F := Ideal))
      (fun i => by rw [val_main_v173_apply, val_main_cst_42_apply]; exact Cert.Algebra.ofBits_zero)
      (val_main_v174 (F := Ideal) x2) (fun i => x2 (ix1 i))
      (fun e => by
        rw [val_main_v174_apply]
        exact congrArg x2 (funext fun a => Fin.ext (by match a with | ⟨0, _⟩ => rfl)))
      (val_main_v172 (F := Ideal))
      (fun i => by rw [val_main_v172_apply, val_main_cst_41_apply]; exact Cert.Algebra.ofBits_one) g,
    Ideal.hostDivf_def, Ideal.maximumf_def, Ideal.ofBits_def, Cert.Algebra.ofBits_one]
  rfl

/-- The head's hidden layer, entry `(g, k)`. -/
theorem hidden_apply (x0 : Vec Ideal S100000x64 .f32) (x1 : IVec S2x1000000 32) (x2 : IVec S100000 32) (x3 : Vec Ideal S64x64 .f32) (x4 : Vec Ideal S64 .f32)
    (x5 : Vec Ideal S64x64 .f32) (x6 : Vec Ideal S64 .f32) (x7 : Vec Ideal S64x64 .f32) (x8 : Vec Ideal S64 .f32)
    (x9 : Vec Ideal S64x64 .f32) (x10 : Vec Ideal S64 .f32) (g : Fin 512) (k : Fin 64) :
    val_main_v185 (F := Ideal) x0 x1 x2 x3 x4 x5 x6 x7 x8 x9 x10 (ix2 g k)
      = max (((0 : EReal) + ∑ q : Fin 64,
          Cert.Tail.meanR x2 (fun i k => val_main_v168 (F := Ideal) x0 x1 x3 x4 x5 x6 x7 x8 (ix2 i k)) g q * x9 (ix2 q k))
          + x10 (ix1 k)) 0 := by
  have e1 : idx_main_v182 (idx_main_v183 (ix2 g k)) = ix1 k :=
    funext fun a => Fin.ext (by match a with | ⟨0, _⟩ => rfl)
  rw [val_main_v185_apply, val_main_v184_apply, val_main_v181_apply, val_main_v183_apply, val_main_v182_apply, e1,
    val_main_call3_v0_apply, val_main_call3_cst_apply, Ideal.maximumf_def, Ideal.addf_def, Ideal.ofBits_def,
    Cert.Algebra.ofBits_zero, zero_add]
  refine congrArg (fun s => max (s + x10 (ix1 k)) 0) (Finset.sum_congr rfl fun q _ => ?_)
  rw [show lidx_main_v181 (ix2 g k) q = ix2 g q from
      funext fun a => Fin.ext (by match a with | ⟨0, _⟩ => rfl | ⟨1, _⟩ => rfl),
    show ridx_main_v181 (ix2 g k) q = ix2 q k from
      funext fun a => Fin.ext (by match a with | ⟨0, _⟩ => rfl | ⟨1, _⟩ => rfl),
    mean_apply]

/-- The reference's result, entry `(g, o)`. -/
theorem value (x0 : Vec Ideal S100000x64 .f32) (x1 : IVec S2x1000000 32) (x2 : IVec S100000 32) (x3 : Vec Ideal S64x64 .f32) (x4 : Vec Ideal S64 .f32)
    (x5 : Vec Ideal S64x64 .f32) (x6 : Vec Ideal S64 .f32) (x7 : Vec Ideal S64x64 .f32) (x8 : Vec Ideal S64 .f32)
    (x9 : Vec Ideal S64x64 .f32) (x10 : Vec Ideal S64 .f32) (x11 : Vec Ideal S64x26 .f32) (x12 : Vec Ideal S26 .f32)
    (g : Fin 512) (o : Fin 26) :
    val_main_v189 (F := Ideal) x0 x1 x2 x3 x4 x5 x6 x7 x8 x9 x10 x11 x12 (ix2 g o)
      = Cert.Spec.head
          (Cert.Tail.meanR x2 (fun i k => val_main_v168 (F := Ideal) x0 x1 x3 x4 x5 x6 x7 x8 (ix2 i k)))
          (fun q k => x9 (ix2 q k)) (fun k => x10 (ix1 k)) (fun k o => x11 (ix2 k o)) (fun o => x12 (ix1 o)) g o := by
  have e1 : idx_main_v187 (idx_main_v188 (ix2 g o)) = ix1 o :=
    funext fun a => Fin.ext (by match a with | ⟨0, _⟩ => rfl)
  rw [val_main_v189_apply, val_main_v186_apply, val_main_v188_apply, val_main_v187_apply, e1, Ideal.addf_def]
  unfold Cert.Spec.head
  rw [zero_add]
  refine congrArg (fun s => s + x12 (ix1 o)) (Finset.sum_congr rfl fun k _ => ?_)
  rw [show lidx_main_v186 (ix2 g o) k = ix2 g k from
      funext fun a => Fin.ext (by match a with | ⟨0, _⟩ => rfl | ⟨1, _⟩ => rfl),
    show ridx_main_v186 (ix2 g o) k = ix2 k o from
      funext fun a => Fin.ext (by match a with | ⟨0, _⟩ => rfl | ⟨1, _⟩ => rfl),
    hidden_apply]

end Cert.ReferenceIdeal.RTail

end
-- ==== Proof.RValue.lean ====
/-
  The reference program's result as a function of its thirteen arguments: its three layers one after the other, then
  the per-graph mean and the head.
-/
import proofs.«423190_j88252987998746_2_alg».proof.Proof.Gen.ReferenceIdeal.Read
import proofs.«423190_j88252987998746_2_alg».proof.Proof.Spec
import proofs.«423190_j88252987998746_2_alg».proof.Proof.LibColumn
import proofs.«423190_j88252987998746_2_alg».proof.Proof.LibScatter
import proofs.«423190_j88252987998746_2_alg».proof.Proof.Graph
import proofs.«423190_j88252987998746_2_alg».proof.Proof.Tail
import proofs.«423190_j88252987998746_2_alg».proof.Proof.RLayer0
import proofs.«423190_j88252987998746_2_alg».proof.Proof.RLayer1
import proofs.«423190_j88252987998746_2_alg».proof.Proof.RLayer2
import proofs.«423190_j88252987998746_2_alg».proof.Proof.RTail
import proofs.«423190_j88252987998746_2_alg».proof.Proof.Final
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RValue

open Idealize.ShloMosaic Idealize.ShloMosaic.ValueIdx Idealize.ShloMosaic.TcCoe
open Cert.ReferenceIdeal Cert.ReferenceIdeal.Read Cert.LibScatter Cert.Graph

/-- The reference's result, entry `(g, o)`, is the reference's result function of the thirteen arguments. -/
theorem value (x0 : Vec Ideal S100000x64 .f32) (x1 : IVec S2x1000000 32) (x2 : IVec S100000 32) (x3 : Vec Ideal S64x64 .f32) (x4 : Vec Ideal S64 .f32)
    (x5 : Vec Ideal S64x64 .f32) (x6 : Vec Ideal S64 .f32) (x7 : Vec Ideal S64x64 .f32) (x8 : Vec Ideal S64 .f32)
    (x9 : Vec Ideal S64x64 .f32) (x10 : Vec Ideal S64 .f32) (x11 : Vec Ideal S64x26 .f32) (x12 : Vec Ideal S26 .f32)
    (g : Fin 512) (o : Fin 26) :
    val_main_v189 (F := Ideal) x0 x1 x2 x3 x4 x5 x6 x7 x8 x9 x10 x11 x12 (ix2 g o)
      = Cert.Final.rResult x0 x1 x2 x3 x4 x5 x6 x7 x8 x9 x10 x11 x12 g o := by
  -- the first layer's output, as a matrix, is the layer function of the arguments read entry by entry;
  have e0 : (fun (i : Fin 100000) (k : Fin 64) => val_main_v58 (F := Ideal) x0 x1 x3 x4 (ix2 i k))
      = Cert.Spec.rLayer (Cert.Graph.arrives x1) (Cert.Graph.src x1) (Cert.Graph.dstc x1) (Cert.Graph.dinv x1)
          (Cert.Final.mat x0) (Cert.Final.mat x3) (Cert.Final.vec x4) := by
    funext i k
    exact Cert.ReferenceIdeal.RLayer0.value x0 x1 x3 x4 i k
  -- the second layer's is the layer function of the first's;
  have e1 : (fun (i : Fin 100000) (k : Fin 64) => val_main_v113 (F := Ideal) x0 x1 x3 x4 x5 x6 (ix2 i k))
      = Cert.Spec.rLayer (Cert.Graph.arrives x1) (Cert.Graph.src x1) (Cert.Graph.dstc x1) (Cert.Graph.dinv x1)
          (Cert.Spec.rLayer (Cert.Graph.arrives x1) (Cert.Graph.src x1) (Cert.Graph.dstc x1) (Cert.Graph.dinv x1)
            (Cert.Final.mat x0) (Cert.Final.mat x3) (Cert.Final.vec x4))
          (Cert.Final.mat x5) (Cert.Final.vec x6) := by
    rw [← e0]
    funext i k
    exact Cert.ReferenceIdeal.RLayer1.value x0 x1 x3 x4 x5 x6 i k
  -- the third layer's is the layer function of the second's: the three nested layers.
  have e2 : (fun (i : Fin 100000) (k : Fin 64) => val_main_v168 (F := Ideal) x0 x1 x3 x4 x5 x6 x7 x8 (ix2 i k))
      = Cert.Final.rFeat x0 x1 x3 x4 x5 x6 x7 x8 := by
    unfold Cert.Final.rFeat
    rw [← e1]
    funext i k
    exact Cert.ReferenceIdeal.RLayer2.value x0 x1 x3 x4 x5 x6 x7 x8 i k
  -- The result is the head of the per-graph mean of the third layer's output.
  unfold Cert.Final.rResult
  rw [← e2]
  exact Cert.ReferenceIdeal.RTail.value x0 x1 x2 x3 x4 x5 x6 x7 x8 x9 x10 x11 x12 g o

end Cert.ReferenceIdeal.RValue

end
-- ==== Proof.PreBatch.lean ====
/-
  What the precondition says about the graph ids: none is negative.
  The precondition is a conjunction (a chain of `and`s of one-bit words) whose last conjunct is the `and` over all
  100000 nodes of "the id is at least 0, read signed". If the whole conjunction is the word 1, so is the last
  conjunct, and so is every node's comparison.
-/
import proofs.«423190_j88252987998746_2_alg».proof.Pre_finite_inputs
import proofs.«423190_j88252987998746_2_alg».proof.Proof.Gen.Pre_finite_inputs
import Idealize.ShloMosaic.Lib.ReduceAll
import Idealize.ShloMosaic.Lib.ValueIdx
import Idealize.ShloMosaic.Lib.StableHlo.Predicate

noncomputable section

namespace Cert.PreBatch

open Idealize.ShloMosaic Idealize.ShloMosaic.ValueIdx Cert.Pre_finite_inputs

variable [Cert.Pre_finite_inputs.Facts]

/-- The scalar shape has one index. -/
local instance : Subsingleton S_.Idx := ⟨fun a b => funext fun d => d.elim0⟩

/-- The tail of the precondition: its last conjunct is the `and` over all nodes of "0 ≤ id, read signed",
    so if the tail is the word 1 every id is nonnegative. The earlier conjuncts are left as they are. -/
theorem part3_nonneg (a2 : IVec S100000 32) (v48 : IVec S_ 1) (v49 v50 : FVec Ideal S26 .f32)
    (h : fn_part3 (F := Ideal) a2 v48 v49 v50 ix0 = 1#1) (j : S100000.Idx) : 0 ≤ (a2 j).toInt := by
  unfold fn_part3 at h
  have h2 := (IntOp.andi_eq_one.1 h).2
  have h3 := Host.reduce_andi_all _ _ _ _ _ h2 j
  have h4 := IntOp.cmpi_sge.1 h3
  rw [StableHlo.Predicate.bcast_scalar _ Facts.h_S_] at h4
  have hz : (constantI S_ 32 0#32 (Shape.Idx.first Facts.h_S_)).toInt = 0 := by
    show (0#32 : BitVec 32).toInt = 0
    decide
  rwa [hz] at h4

/-- Under the precondition no graph id is negative. -/
theorem batch_nonneg (a0 : FVec Ideal S100000x64 .f32) (a1 : IVec S2x1000000 32) (a2 : IVec S100000 32) (a3 : FVec Ideal S64x64 .f32)
    (a4 : FVec Ideal S64 .f32) (a5 : FVec Ideal S64x64 .f32) (a6 : FVec Ideal S64 .f32) (a7 : FVec Ideal S64x64 .f32)
    (a8 : FVec Ideal S64 .f32) (a9 : FVec Ideal S64x64 .f32) (a10 : FVec Ideal S64 .f32) (a11 : FVec Ideal S64x26 .f32)
    (a12 : FVec Ideal S26 .f32)
    (h : Cert.Pre_finite_inputs.fn (F := Ideal) a0 a1 a2 a3 a4 a5 a6 a7 a8 a9 a10 a11 a12 = (fun _ => 1#1))
    (i : Fin 100000) : 0 ≤ (a2 (ix1 i)).toInt := by
  have h0 := congrFun h ix0
  unfold fn fn_part1 fn_part2 at h0
  exact part3_nonneg a2 _ _ _ h0 (ix1 i)

end Cert.PreBatch

end
-- ==== Proof.lean ====
/-
  The certificate: a three-layer graph convolution with per-graph mean pooling and a two-layer head, the kernel's
  program against its reference, equal over the extended reals.

  Both programs compute, for each layer, out(i) = max (Σ_{e : target(e) = i} xw(src e) · d(src e) · d(i) + xw(i) · d(i)² + b, 0)
  with xw = h · W and d(i) = (1 + number of edges arriving at i)^(-1/2). The kernel factors the target-side scale out:
  it scales xw by d on the source side, sums the arriving messages, adds the node's own scaled entry and multiplies the
  sum by d(i) once. On the extended reals a factor distributes over a sum when it is a nonnegative real, and d(i) is
  one (the count is a natural number, so 1 + count ≥ 1), whatever the features are; so the two forms agree entry by
  entry with no finiteness assumption on the float inputs. The per-graph sums are a product with the 0/1 membership
  matrix in the kernel and a scatter-add in the reference: the same sum. The per-graph counts differ only in how a
  negative graph id is treated (the kernel's count wraps it by 512, the reference's drops it): the precondition's
  conjunct "no graph id is negative" removes that case. The head is the same arithmetic in both.

  The kernel's frames are the generated ones. The kernel's result array is read off the generated frame's fold of
  buffer contents (the launch theorem called once more with the result kept in the post), region by region and host
  stretch by host stretch; the reference's is its generated run read one operation at a time.
-/
import proofs.«423190_j88252987998746_2_alg».proof.Defs
import proofs.«423190_j88252987998746_2_alg».proof.Proof.Gen.Kernel
import proofs.«423190_j88252987998746_2_alg».proof.Proof.Gen.Kernel.Skeleton
import proofs.«423190_j88252987998746_2_alg».proof.Proof.Gen.Kernel.Launch
import proofs.«423190_j88252987998746_2_alg».proof.Proof.Gen.Kernel.Points
import proofs.«423190_j88252987998746_2_alg».proof.Proof.Gen.Kernel.Frame
import proofs.«423190_j88252987998746_2_alg».proof.Proof.Gen.KernelIdeal
import proofs.«423190_j88252987998746_2_alg».proof.Proof.Gen.KernelIdeal.Skeleton
import proofs.«423190_j88252987998746_2_alg».proof.Proof.Gen.KernelIdeal.Launch
import proofs.«423190_j88252987998746_2_alg».proof.Proof.Gen.KernelIdeal.Points
import proofs.«423190_j88252987998746_2_alg».proof.Proof.Gen.KernelIdeal.Frame
import proofs.«423190_j88252987998746_2_alg».proof.Proof.Gen.ReferenceIdeal
import proofs.«423190_j88252987998746_2_alg».proof.Proof.Gen.Pre_finite_inputs
import proofs.«423190_j88252987998746_2_alg».proof.Proof.Gen.ReferenceIdeal.Run
import proofs.«423190_j88252987998746_2_alg».proof.Proof.Gen.ReferenceIdeal.Read
import proofs.«423190_j88252987998746_2_alg».proof.Proof.KRun
import proofs.«423190_j88252987998746_2_alg».proof.Proof.KValue
import proofs.«423190_j88252987998746_2_alg».proof.Proof.RValue
import proofs.«423190_j88252987998746_2_alg».proof.Proof.Final
import proofs.«423190_j88252987998746_2_alg».proof.Proof.PreBatch
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: the kernel's result array is the kernel's result function of
    the arguments, the reference's is the reference's, and the two functions agree when no graph id is negative. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W16 (F := Ideal) m ρ c (Proc.devRef .tc Cert.KernelIdeal.main_v104),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v189_eq, h0, h1, h2, h3, h4, h5, h6, h7, h8, h9, h10, h11, h12]
  funext y
  rw [eq_ix2 y]
  refine (Cert.ReferenceIdeal.RValue.value _ _ _ _ _ _ _ _ _ _ _ _ _ _ _).trans ?_
  refine ((Cert.Final.result_eq _ _ _ (fun i => Cert.PreBatch.batch_nonneg _ _ _ _ _ _ _ _ _ _ _ _ _ (hpre c) i) _ _ _ _ _ _ _ _ _ _).symm ▸ ?_)
  exact (Cert.KernelIdeal.KValue.value m ρ c _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
